-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46)) (m ((c.tc : Thread Cert.Kernel.nD Cert.Kernel.τ).loc Cert.Kernel.main_arg47)) (m ((c.tc : Thread Cert.Kernel.nD Cert.Kernel.τ).loc Cert.Kernel.main_arg48))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47)) (m ((c.tc : Thread Cert.KernelIdeal.nD Cert.KernelIdeal.τ).loc Cert.KernelIdeal.main_arg48))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46)) (m ((c.tc : Thread Cert.ReferenceIdeal.nD Cert.ReferenceIdeal.τ).loc Cert.ReferenceIdeal.main_arg47)) (m ((c.tc : Thread Cert.ReferenceIdeal.nD Cert.ReferenceIdeal.τ).loc Cert.ReferenceIdeal.main_arg48))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47)
      ∧ r.2.mem ((c.tc : Thread Cert.Kernel.nD Cert.Kernel.τ).loc Cert.Kernel.main_arg48) = m ((c.tc : Thread Cert.Kernel.nD Cert.Kernel.τ).loc Cert.Kernel.main_arg48))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
      ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47)
      ∧ r.2.mem ((c.tc : Thread Cert.ReferenceIdeal.nD Cert.ReferenceIdeal.τ).loc Cert.ReferenceIdeal.main_arg48) = m ((c.tc : Thread Cert.ReferenceIdeal.nD Cert.ReferenceIdeal.τ).loc Cert.ReferenceIdeal.main_arg48))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
          ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47)
          ∧ r.2.mem ((c.tc : Thread Cert.ReferenceIdeal.nD Cert.ReferenceIdeal.τ).loc Cert.ReferenceIdeal.main_arg48) = m' ((c.tc : Thread Cert.ReferenceIdeal.nD Cert.ReferenceIdeal.τ).loc Cert.ReferenceIdeal.main_arg48))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x78 : Shape := ⟨2, ![65536, 78]⟩
abbrev S2048x1489 : Shape := ⟨2, ![2048, 1489]⟩
abbrev S131072x10 : Shape := ⟨2, ![131072, 10]⟩
abbrev S2x131072 : Shape := ⟨2, ![2, 131072]⟩
abbrev S65536 : Shape := ⟨1, ![65536]⟩
abbrev S78x10 : Shape := ⟨2, ![78, 10]⟩
abbrev S78 : Shape := ⟨1, ![78]⟩
abbrev S256x78 : Shape := ⟨2, ![256, 78]⟩
abbrev S256 : Shape := ⟨1, ![256]⟩
abbrev S512x256 : Shape := ⟨2, ![512, 256]⟩
abbrev S512 : Shape := ⟨1, ![512]⟩
abbrev S512x10 : Shape := ⟨2, ![512, 10]⟩
abbrev S512x512 : Shape := ⟨2, ![512, 512]⟩
abbrev S256x512 : Shape := ⟨2, ![256, 512]⟩
abbrev S128x1489 : Shape := ⟨2, ![128, 1489]⟩
abbrev S128 : Shape := ⟨1, ![128]⟩
abbrev S256x128 : Shape := ⟨2, ![256, 128]⟩
abbrev S128x256 : Shape := ⟨2, ![128, 256]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩
abbrev S1x131072 : Shape := ⟨2, ![1, 131072]⟩
abbrev S131072 : Shape := ⟨1, ![131072]⟩

class Facts : Prop where
  bcast_S_S65536x78 : S_.BroadcastsInDim S65536x78 (![] : Fin 0 → Fin S65536x78.rank)
  reducesTo_S65536x78_S_d0_1 : S65536x78.ReducesTo [0, 1] S_
  h_S_ : 0 < S_.numel
  bcast_S_S2048x1489 : S_.BroadcastsInDim S2048x1489 (![] : Fin 0 → Fin S2048x1489.rank)
  reducesTo_S2048x1489_S_d0_1 : S2048x1489.ReducesTo [0, 1] S_
  bcast_S_S131072x10 : S_.BroadcastsInDim S131072x10 (![] : Fin 0 → Fin S131072x10.rank)
  reducesTo_S131072x10_S_d0_1 : S131072x10.ReducesTo [0, 1] S_
  bcast_S_S78x10 : S_.BroadcastsInDim S78x10 (![] : Fin 0 → Fin S78x10.rank)
  reducesTo_S78x10_S_d0_1 : S78x10.ReducesTo [0, 1] S_
  bcast_S_S78 : S_.BroadcastsInDim S78 (![] : Fin 0 → Fin S78.rank)
  reducesTo_S78_S_d0 : S78.ReducesTo [0] S_
  bcast_S_S256x78 : S_.BroadcastsInDim S256x78 (![] : Fin 0 → Fin S256x78.rank)
  reducesTo_S256x78_S_d0_1 : S256x78.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x10 : S_.BroadcastsInDim S512x10 (![] : Fin 0 → Fin S512x10.rank)
  reducesTo_S512x10_S_d0_1 : S512x10.ReducesTo [0, 1] S_
  bcast_S_S512x512 : S_.BroadcastsInDim S512x512 (![] : Fin 0 → Fin S512x512.rank)
  reducesTo_S512x512_S_d0_1 : S512x512.ReducesTo [0, 1] S_
  bcast_S_S256x512 : S_.BroadcastsInDim S256x512 (![] : Fin 0 → Fin S256x512.rank)
  reducesTo_S256x512_S_d0_1 : S256x512.ReducesTo [0, 1] S_
  bcast_S_S128x1489 : S_.BroadcastsInDim S128x1489 (![] : Fin 0 → Fin S128x1489.rank)
  reducesTo_S128x1489_S_d0_1 : S128x1489.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  slices_S2x131072_S1x131072_0_0 : S2x131072.Slices ![0, 0] S1x131072
  shapeCasts_S1x131072_S131072 : S1x131072.ShapeCasts S131072
  bcast_S_S131072 : S_.BroadcastsInDim S131072 (![] : Fin 0 → Fin S131072.rank)
  reducesTo_S131072_S_d0 : S131072.ReducesTo [0] S_

variable [Facts]

def fn_part14 {F : FTy → Type} [FloatOps F] (main_v233 : IVec S_ 1) (main_v237 : IVec S131072 1) (main_v239 : IVec S131072 32) (main_c_93 : IVec S_ 32) : IVec S_ 1 :=
  let main_v240 : IVec S131072 32 := broadcastInDim S131072 ![] bcast_S_S131072 main_c_93
  let main_v241 : IVec S131072 1 := cmpi .slt main_v239 main_v240
  let main_v242 : IVec S131072 1 := andi main_v237 main_v241
  let main_c_94 : IVec S_ 1 := constantI S_ 1 1#1
  let main_v243 : IVec S_ 1 := (fun x v => Host.reduce IntOp.andi x v reducesTo_S131072_S_d0 h_S_) main_v242 main_c_94
  let main_v244 : IVec S_ 1 := andi main_v233 main_v243
  main_v244

def fn_part13 {F : FTy → Type} [FloatOps F] (main_arg3 : IVec S2x131072 32) (main_arg47 : FVec F S2x64 .f32) (main_arg48 : FVec F S2 .f32) (main_v218 : IVec S_ 1) (main_v221 : IVec S64 1) (main_c_87 : IVec S_ 1) : IVec S_ 1 :=
  let main_v222 : IVec S_ 1 := (fun x v => Host.reduce IntOp.andi x v reducesTo_S64_S_d0 h_S_) main_v221 main_c_87
  let main_v223 : IVec S_ 1 := andi main_v218 main_v222
  let main_v224 : FVec F S2x64 .f32 := Host.absf main_arg47
  let main_cst_88 : FVec F S_ .f32 := constant S_ .f32 0x7F800000#32
  let main_v225 : FVec F S2x64 .f32 := broadcastInDim S2x64 ![] bcast_S_S2x64 main_cst_88
  let main_v226 : IVec S2x64 1 := cmpf .olt main_v224 main_v225
  let main_c_89 : IVec S_ 1 := constantI S_ 1 1#1
  let main_v227 : IVec S_ 1 := (fun x v => Host.reduce IntOp.andi x v reducesTo_S2x64_S_d0_1 h_S_) main_v226 main_c_89
  let main_v228 : IVec S_ 1 := andi main_v223 main_v227
  let main_v229 : FVec F S2 .f32 := Host.absf main_arg48
  let main_cst_90 : FVec F S_ .f32 := constant S_ .f32 0x7F800000#32
  let main_v230 : FVec F S2 .f32 := broadcastInDim S2 ![] bcast_S_S2 main_cst_90
  let main_v231 : IVec S2 1 := cmpf .olt main_v229 main_v230
  let main_c_91 : IVec S_ 1 := constantI S_ 1 1#1
  let main_v232 : IVec S_ 1 := (fun x v => Host.reduce IntOp.andi x v reducesTo_S2_S_d0 h_S_) main_v231 main_c_91
  let main_v233 : IVec S_ 1 := andi main_v228 main_v232
  let main_v234 : IVec S1x131072 32 := (extractStridedSlice S1x131072 ![0, 0] · slices_S2x131072_S1x131072_0_0) main_arg3
  let main_v235 : IVec S131072 32 := shapeCast S131072 main_v234 shapeCasts_S1x131072_S131072
  let main_c_92 : IVec S_ 32 := constantI S_ 32 0#32
  let main_v236 : IVec S131072 32 := broadcastInDim S131072 ![] bcast_S_S131072 main_c_92
  let main_v237 : IVec S131072 1 := cmpi .sge main_v235 main_v236
  let main_v238 : IVec S1x131072 32 := (extractStridedSlice S1x131072 ![0, 0] · slices_S2x131072_S1x131072_0_0) main_arg3
  let main_v239 : IVec S131072 32 := shapeCast S131072 main_v238 shapeCasts_S1x131072_S131072
  let main_c_93 : IVec S_ 32 := constantI S_ 32 65536#32
  fn_part14 (F := F) main_v233 main_v237 main_v239 main_c_93

def fn_part12 {F : FTy → Type} [FloatOps F] (main_arg3 : IVec S2x131072 32) (main_arg44 : FVec F S128 .f32) (main_arg45 : FVec F S64x128 .f32) (main_arg46 : FVec F S64 .f32) (main_arg47 : FVec F S2x64 .f32) (main_arg48 : FVec F S2 .f32) (main_v203 : IVec S_ 1) (main_v204 : FVec F S128x256 .f32) (main_cst_80 : FVec F S_ .f32) : IVec S_ 1 :=
  let main_v205 : FVec F S128x256 .f32 := broadcastInDim S128x256 ![] bcast_S_S128x256 main_cst_80
  let main_v206 : IVec S128x256 1 := cmpf .olt main_v204 main_v205
  let main_c_81 : IVec S_ 1 := constantI S_ 1 1#1
  let main_v207 : IVec S_ 1 := (fun x v => Host.reduce IntOp.andi x v reducesTo_S128x256_S_d0_1 h_S_) main_v206 main_c_81
  let main_v208 : IVec S_ 1 := andi main_v203 main_v207
  let main_v209 : FVec F S128 .f32 := Host.absf main_arg44
  let main_cst_82 : FVec F S_ .f32 := constant S_ .f32 0x7F800000#32
  let main_v210 : FVec F S128 .f32 := broadcastInDim S128 ![] bcast_S_S128 main_cst_82
  let main_v211 : IVec S128 1 := cmpf .olt main_v209 main_v210
  let main_c_83 : IVec S_ 1 := constantI S_ 1 1#1
  let main_v212 : IVec S_ 1 := (fun x v => Host.reduce IntOp.andi x v reducesTo_S128_S_d0 h_S_) main_v211 main_c_83
  let main_v213 : IVec S_ 1 := andi main_v208 main_v212
  let main_v214 : FVec F S64x128 .f32 := Host.absf main_arg45
  let main_cst_84 : FVec F S_ .f32 := constant S_ .f32 0x7F800000#32
  let main_v215 : FVec F S64x128 .f32 := broadcastInDim S64x128 ![] bcast_S_S64x128 main_cst_84
  let main_v216 : IVec S64x128 1 := cmpf .olt main_v214 main_v215
  let main_c_85 : IVec S_ 1 := constantI S_ 1 1#1
  let main_v217 : IVec S_ 1 := (fun x v => Host.reduce IntOp.andi x v reducesTo_S64x128_S_d0_1 h_S_) main_v216 main_c_85
  let main_v218 : IVec S_ 1 := andi main_v213 main_v217
  let main_v219 : FVec F S64 .f32 := Host.absf main_arg46
  let main_cst_86 : FVec F S_ .f32 := constant S_ .f32 0x7F800000#32
  let main_v220 : FVec F S64 .f32 := broadcastInDim S64 ![] bcast_S_S64 main_cst_86
  let main_v221 : IVec S64 1 := cmpf .olt main_v219 main_v220
  let main_c_87 : IVec S_ 1 := constantI S_ 1 1#1
  fn_part13 (F := F) main_arg3 main_arg47 main_arg48 main_v218 main_v221 main_c_87

def fn_part11 {F : FTy → Type} [FloatOps F] (main_arg3 : IVec S2x131072 32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v183 : IVec S_ 1) (main_v187 : IVec S_ 1) : IVec S_ 1 :=
  let main_v188 : IVec S_ 1 := andi main_v183 main_v187
  let main_v189 : FVec F S256 .f32 := Host.absf main_arg40
  let main_cst_74 : FVec F S_ .f32 := constant S_ .f32 0x7F800000#32
  let main_v190 : FVec F S256 .f32 := broadcastInDim S256 ![] bcast_S_S256 main_cst_74
  let main_v191 : IVec S256 1 := cmpf .olt main_v189 main_v190
  let main_c_75 : IVec S_ 1 := constantI S_ 1 1#1
  let main_v192 : IVec S_ 1 := (fun x v => Host.reduce IntOp.andi x v reducesTo_S256_S_d0 h_S_) main_v191 main_c_75
  let main_v193 : IVec S_ 1 := andi main_v188 main_v192
  let main_v194 : FVec F S256x512 .f32 := Host.absf main_arg41
  let main_cst_76 : FVec F S_ .f32 := constant S_ .f32 0x7F800000#32
  let main_v195 : FVec F S256x512 .f32 := broadcastInDim S256x512 ![] bcast_S_S256x512 main_cst_76
  let main_v196 : IVec S256x512 1 := cmpf .olt main_v194 main_v195
  let main_c_77 : IVec S_ 1 := constantI S_ 1 1#1
  let main_v197 : IVec S_ 1 := (fun x v => Host.reduce IntOp.andi x v reducesTo_S256x512_S_d0_1 h_S_) main_v196 main_c_77
  let main_v198 : IVec S_ 1 := andi main_v193 main_v197
  let main_v199 : FVec F S256 .f32 := Host.absf main_arg42
  let main_cst_78 : FVec F S_ .f32 := constant S_ .f32 0x7F800000#32
  let main_v200 : FVec F S256 .f32 := broadcastInDim S256 ![] bcast_S_S256 main_cst_78
  let main_v201 : IVec S256 1 := cmpf .olt main_v199 main_v200
  let main_c_79 : IVec S_ 1 := constantI S_ 1 1#1
  let main_v202 : IVec S_ 1 := (fun x v => Host.reduce IntOp.andi x v reducesTo_S256_S_d0 h_S_) main_v201 main_c_79
  let main_v203 : IVec S_ 1 := andi main_v198 main_v202
  let main_v204 : FVec F S128x256 .f32 := Host.absf main_arg43
  let main_cst_80 : FVec F S_ .f32 := constant S_ .f32 0x7F800000#32
  fn_part12 (F := F) main_arg3 main_arg44 main_arg45 main_arg46 main_arg47 main_arg48 main_v203 main_v204 main_cst_80

def fn_part10 {F : FTy → Type} [FloatOps F] (main_arg3 : IVec S2x131072 32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v168 : IVec S_ 1) (main_v169 : FVec F S256 .f32) (main_v170 : FVec F S256 .f32) : IVec S_ 1 :=
  let main_v171 : IVec S256 1 := cmpf .olt main_v169 main_v170
  let main_c_67 : IVec S_ 1 := constantI S_ 1 1#1
  let main_v172 : IVec S_ 1 := (fun x v => Host.reduce IntOp.andi x v reducesTo_S256_S_d0 h_S_) main_v171 main_c_67
  let main_v173 : IVec S_ 1 := andi main_v168 main_v172
  let main_v174 : FVec F S128x1489 .f32 := Host.absf main_arg37
  let main_cst_68 : FVec F S_ .f32 := constant S_ .f32 0x7F800000#32
  let main_v175 : FVec F S128x1489 .f32 := broadcastInDim S128x1489 ![] bcast_S_S128x1489 main_cst_68
  let main_v176 : IVec S128x1489 1 := cmpf .olt main_v174 main_v175
  let main_c_69 : IVec S_ 1 := constantI S_ 1 1#1
  let main_v177 : IVec S_ 1 := (fun x v => Host.reduce IntOp.andi x v reducesTo_S128x1489_S_d0_1 h_S_) main_v176 main_c_69
  let main_v178 : IVec S_ 1 := andi main_v173 main_v177
  let main_v179 : FVec F S128 .f32 := Host.absf main_arg38
  let main_cst_70 : FVec F S_ .f32 := constant S_ .f32 0x7F800000#32
  let main_v180 : FVec F S128 .f32 := broadcastInDim S128 ![] bcast_S_S128 main_cst_70
  let main_v181 : IVec S128 1 := cmpf .olt main_v179 main_v180
  let main_c_71 : IVec S_ 1 := constantI S_ 1 1#1
  let main_v182 : IVec S_ 1 := (fun x v => Host.reduce IntOp.andi x v reducesTo_S128_S_d0 h_S_) main_v181 main_c_71
  let main_v183 : IVec S_ 1 := andi main_v178 main_v182
  let main_v184 : FVec F S256x128 .f32 := Host.absf main_arg39
  let main_cst_72 : FVec F S_ .f32 := constant S_ .f32 0x7F800000#32
  let main_v185 : FVec F S256x128 .f32 := broadcastInDim S256x128 ![] bcast_S_S256x128 main_cst_72
  let main_v186 : IVec S256x128 1 := cmpf .olt main_v184 main_v185
  let main_c_73 : IVec S_ 1 := constantI S_ 1 1#1
  let main_v187 : IVec S_ 1 := (fun x v => Host.reduce IntOp.andi x v reducesTo_S256x128_S_d0_1 h_S_) main_v186 main_c_73
  fn_part11 (F := F) main_arg3 main_arg40 main_arg41 main_arg42 main_arg43 main_arg44 main_arg45 main_arg46 main_arg47 main_arg48 main_v183 main_v187

def fn_part9 {F : FTy → Type} [FloatOps F] (main_arg3 : IVec S2x131072 32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v153 : IVec S_ 1) : IVec S_ 1 :=
  let main_v154 : FVec F S512 .f32 := Host.absf main_arg33
  let main_cst_60 : FVec F S_ .f32 := constant S_ .f32 0x7F800000#32
  let main_v155 : FVec F S512 .f32 := broadcastInDim S512 ![] bcast_S_S512 main_cst_60
  let main_v156 : IVec S512 1 := cmpf .olt main_v154 main_v155
  let main_c_61 : IVec S_ 1 := constantI S_ 1 1#1
  let main_v157 : IVec S_ 1 := (fun x v => Host.reduce IntOp.andi x v reducesTo_S512_S_d0 h_S_) main_v156 main_c_61
  let main_v158 : IVec S_ 1 := andi main_v153 main_v157
  let main_v159 : FVec F S512 .f32 := Host.absf main_arg34
  let main_cst_62 : FVec F S_ .f32 := constant S_ .f32 0x7F800000#32
  let main_v160 : FVec F S512 .f32 := broadcastInDim S512 ![] bcast_S_S512 main_cst_62
  let main_v161 : IVec S512 1 := cmpf .olt main_v159 main_v160
  let main_c_63 : IVec S_ 1 := constantI S_ 1 1#1
  let main_v162 : IVec S_ 1 := (fun x v => Host.reduce IntOp.andi x v reducesTo_S512_S_d0 h_S_) main_v161 main_c_63
  let main_v163 : IVec S_ 1 := andi main_v158 main_v162
  let main_v164 : FVec F S256x512 .f32 := Host.absf main_arg35
  let main_cst_64 : FVec F S_ .f32 := constant S_ .f32 0x7F800000#32
  let main_v165 : FVec F S256x512 .f32 := broadcastInDim S256x512 ![] bcast_S_S256x512 main_cst_64
  let main_v166 : IVec S256x512 1 := cmpf .olt main_v164 main_v165
  let main_c_65 : IVec S_ 1 := constantI S_ 1 1#1
  let main_v167 : IVec S_ 1 := (fun x v => Host.reduce IntOp.andi x v reducesTo_S256x512_S_d0_1 h_S_) main_v166 main_c_65
  let main_v168 : IVec S_ 1 := andi main_v163 main_v167
  let main_v169 : FVec F S256 .f32 := Host.absf main_arg36
  let main_cst_66 : FVec F S_ .f32 := constant S_ .f32 0x7F800000#32
  let main_v170 : FVec F S256 .f32 := broadcastInDim S256 ![] bcast_S_S256 main_cst_66
  fn_part10 (F := F) main_arg3 main_arg37 main_arg38 main_arg39 main_arg40 main_arg41 main_arg42 main_arg43 main_arg44 main_arg45 main_arg46 main_arg47 main_arg48 main_v168 main_v169 main_v170

def fn_part8 {F : FTy → Type} [FloatOps F] (main_arg3 : IVec S2x131072 32) (main_arg30 : FVec F S512 .f32) (main_arg31 : FVec F S512 .f32) (main_arg32 : FVec F S512 .f32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v133 : IVec S_ 1) (main_v136 : IVec S512x512 1) : IVec S_ 1 :=
  let main_c_53 : IVec S_ 1 := constantI S_ 1 1#1
  let main_v137 : IVec S_ 1 := (fun x v => Host.reduce IntOp.andi x v reducesTo_S512x512_S_d0_1 h_S_) main_v136 main_c_53
  let main_v138 : IVec S_ 1 := andi main_v133 main_v137
  let main_v139 : FVec F S512 .f32 := Host.absf main_arg30
  let main_cst_54 : FVec F S_ .f32 := constant S_ .f32 0x7F800000#32
  let main_v140 : FVec F S512 .f32 := broadcastInDim S512 ![] bcast_S_S512 main_cst_54
  let main_v141 : IVec S512 1 := cmpf .olt main_v139 main_v140
  let main_c_55 : IVec S_ 1 := constantI S_ 1 1#1
  let main_v142 : IVec S_ 1 := (fun x v => Host.reduce IntOp.andi x v reducesTo_S512_S_d0 h_S_) main_v141 main_c_55
  let main_v143 : IVec S_ 1 := andi main_v138 main_v142
  let main_v144 : FVec F S512 .f32 := Host.absf main_arg31
  let main_cst_56 : FVec F S_ .f32 := constant S_ .f32 0x7F800000#32
  let main_v145 : FVec F S512 .f32 := broadcastInDim S512 ![] bcast_S_S512 main_cst_56
  let main_v146 : IVec S512 1 := cmpf .olt main_v144 main_v145
  let main_c_57 : IVec S_ 1 := constantI S_ 1 1#1
  let main_v147 : IVec S_ 1 := (fun x v => Host.reduce IntOp.andi x v reducesTo_S512_S_d0 h_S_) main_v146 main_c_57
  let main_v148 : IVec S_ 1 := andi main_v143 main_v147
  let main_v149 : FVec F S512 .f32 := Host.absf main_arg32
  let main_cst_58 : FVec F S_ .f32 := constant S_ .f32 0x7F800000#32
  let main_v150 : FVec F S512 .f32 := broadcastInDim S512 ![] bcast_S_S512 main_cst_58
  let main_v151 : IVec S512 1 := cmpf .olt main_v149 main_v150
  let main_c_59 : IVec S_ 1 := constantI S_ 1 1#1
  let main_v152 : IVec S_ 1 := (fun x v => Host.reduce IntOp.andi x v reducesTo_S512_S_d0 h_S_) main_v151 main_c_59
  let main_v153 : IVec S_ 1 := andi main_v148 main_v152
  fn_part9 (F := F) main_arg3 main_arg33 main_arg34 main_arg35 main_arg36 main_arg37 main_arg38 main_arg39 main_arg40 main_arg41 main_arg42 main_arg43 main_arg44 main_arg45 main_arg46 main_arg47 main_arg48 main_v153

def fn_part7 {F : FTy → Type} [FloatOps F] (main_arg3 : IVec S2x131072 32) (main_arg27 : FVec F S512x512 .f32) (main_arg28 : FVec F S512 .f32) (main_arg29 : FVec F S512x512 .f32) (main_arg30 : FVec F S512 .f32) (main_arg31 : FVec F S512 .f32) (main_arg32 : FVec F S512 .f32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S512x512 .f32 := Host.absf main_arg27
  let main_cst_48 : FVec F S_ .f32 := constant S_ .f32 0x7F800000#32
  let main_v125 : FVec F S512x512 .f32 := broadcastInDim S512x512 ![] bcast_S_S512x512 main_cst_48
  let main_v126 : IVec S512x512 1 := cmpf .olt main_v124 main_v125
  let main_c_49 : IVec S_ 1 := constantI S_ 1 1#1
  let main_v127 : IVec S_ 1 := (fun x v => Host.reduce IntOp.andi x v reducesTo_S512x512_S_d0_1 h_S_) main_v126 main_c_49
  let main_v128 : IVec S_ 1 := andi main_v123 main_v127
  let main_v129 : FVec F S512 .f32 := Host.absf main_arg28
  let main_cst_50 : FVec F S_ .f32 := constant S_ .f32 0x7F800000#32
  let main_v130 : FVec F S512 .f32 := broadcastInDim S512 ![] bcast_S_S512 main_cst_50
  let main_v131 : IVec S512 1 := cmpf .olt main_v129 main_v130
  let main_c_51 : IVec S_ 1 := constantI S_ 1 1#1
  let main_v132 : IVec S_ 1 := (fun x v => Host.reduce IntOp.andi x v reducesTo_S512_S_d0 h_S_) main_v131 main_c_51
  let main_v133 : IVec S_ 1 := andi main_v128 main_v132
  let main_v134 : FVec F S512x512 .f32 := Host.absf main_arg29
  let main_cst_52 : FVec F S_ .f32 := constant S_ .f32 0x7F800000#32
  let main_v135 : FVec F S512x512 .f32 := broadcastInDim S512x512 ![] bcast_S_S512x512 main_cst_52
  let main_v136 : IVec S512x512 1 := cmpf .olt main_v134 main_v135
  fn_part8 (F := F) main_arg3 main_arg30 main_arg31 main_arg32 main_arg33 main_arg34 main_arg35 main_arg36 main_arg37 main_arg38 main_arg39 main_arg40 main_arg41 main_arg42 main_arg43 main_arg44 main_arg45 main_arg46 main_arg47 main_arg48 main_v133 main_v136

def fn_part6 {F : FTy → Type} [FloatOps F] (main_arg3 : IVec S2x131072 32) (main_arg23 : FVec F S512 .f32) (main_arg24 : FVec F S512 .f32) (main_arg25 : FVec F S512x10 .f32) (main_arg26 : FVec F S512 .f32) (main_arg27 : FVec F S512x512 .f32) (main_arg28 : FVec F S512 .f32) (main_arg29 : FVec F S512x512 .f32) (main_arg30 : FVec F S512 .f32) (main_arg31 : FVec F S512 .f32) (main_arg32 : FVec F S512 .f32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512 .f32 := Host.absf main_arg23
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512 .f32 := Host.absf main_arg24
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512x10 .f32 := Host.absf main_arg25
  let main_cst_44 : FVec F S_ .f32 := constant S_ .f32 0x7F800000#32
  let main_v115 : FVec F S512x10 .f32 := broadcastInDim S512x10 ![] bcast_S_S512x10 main_cst_44
  let main_v116 : IVec S512x10 1 := cmpf .olt main_v114 main_v115
  let main_c_45 : IVec S_ 1 := constantI S_ 1 1#1
  let main_v117 : IVec S_ 1 := (fun x v => Host.reduce IntOp.andi x v reducesTo_S512x10_S_d0_1 h_S_) main_v116 main_c_45
  let main_v118 : IVec S_ 1 := andi main_v113 main_v117
  let main_v119 : FVec F S512 .f32 := Host.absf main_arg26
  fn_part7 (F := F) main_arg3 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v118 main_v119

def fn_part5 {F : FTy → Type} [FloatOps F] (main_arg3 : IVec S2x131072 32) (main_arg20 : FVec F S512 .f32) (main_arg21 : FVec F S512 .f32) (main_arg22 : FVec F S512 .f32) (main_arg23 : FVec F S512 .f32) (main_arg24 : FVec F S512 .f32) (main_arg25 : FVec F S512x10 .f32) (main_arg26 : FVec F S512 .f32) (main_arg27 : FVec F S512x512 .f32) (main_arg28 : FVec F S512 .f32) (main_arg29 : FVec F S512x512 .f32) (main_arg30 : FVec F S512 .f32) (main_arg31 : FVec F S512 .f32) (main_arg32 : FVec F S512 .f32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg20
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg21
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512 .f32 := Host.absf main_arg22
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg3 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v98 main_v101 main_c_39

def fn_part4 {F : FTy → Type} [FloatOps F] (main_arg3 : IVec S2x131072 32) (main_arg16 : FVec F S512 .f32) (main_arg17 : FVec F S512x512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_arg25 : FVec F S512x10 .f32) (main_arg26 : FVec F S512 .f32) (main_arg27 : FVec F S512x512 .f32) (main_arg28 : FVec F S512 .f32) (main_arg29 : FVec F S512x512 .f32) (main_arg30 : FVec F S512 .f32) (main_arg31 : FVec F S512 .f32) (main_arg32 : FVec F S512 .f32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg17
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg18
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg19
  let main_cst_32 : FVec F S_ .f32 := constant S_ .f32 0x7F800000#32
  fn_part5 (F := F) main_arg3 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v83 main_v84 main_cst_32

def fn_part3 {F : FTy → Type} [FloatOps F] (main_arg3 : IVec S2x131072 32) (main_arg13 : FVec F S512 .f32) (main_arg14 : FVec F S512 .f32) (main_arg15 : FVec F S512x10 .f32) (main_arg16 : FVec F S512 .f32) (main_arg17 : FVec F S512x512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_arg25 : FVec F S512x10 .f32) (main_arg26 : FVec F S512 .f32) (main_arg27 : FVec F S512x512 .f32) (main_arg28 : FVec F S512 .f32) (main_arg29 : FVec F S512x512 .f32) (main_arg30 : FVec F S512 .f32) (main_arg31 : FVec F S512 .f32) (main_arg32 : FVec F S512 .f32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x10 .f32 := Host.absf main_arg15
  let main_cst_24 : FVec F S_ .f32 := constant S_ .f32 0x7F800000#32
  let main_v65 : FVec F S512x10 .f32 := broadcastInDim S512x10 ![] bcast_S_S512x10 main_cst_24
  let main_v66 : IVec S512x10 1 := cmpf .olt main_v64 main_v65
  let main_c_25 : IVec S_ 1 := constantI S_ 1 1#1
  let main_v67 : IVec S_ 1 := (fun x v => Host.reduce IntOp.andi x v reducesTo_S512x10_S_d0_1 h_S_) main_v66 main_c_25
  fn_part4 (F := F) main_arg3 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v63 main_v67

def fn_part2 {F : FTy → Type} [FloatOps F] (main_arg3 : IVec S2x131072 32) (main_arg9 : FVec F S512x256 .f32) (main_arg10 : FVec F S512 .f32) (main_arg11 : FVec F S512 .f32) (main_arg12 : FVec F S512 .f32) (main_arg13 : FVec F S512 .f32) (main_arg14 : FVec F S512 .f32) (main_arg15 : FVec F S512x10 .f32) (main_arg16 : FVec F S512 .f32) (main_arg17 : FVec F S512x512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_arg25 : FVec F S512x10 .f32) (main_arg26 : FVec F S512 .f32) (main_arg27 : FVec F S512x512 .f32) (main_arg28 : FVec F S512 .f32) (main_arg29 : FVec F S512x512 .f32) (main_arg30 : FVec F S512 .f32) (main_arg31 : FVec F S512 .f32) (main_arg32 : FVec F S512 .f32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v33 : IVec S_ 1) : IVec S_ 1 :=
  let main_v34 : FVec F S512x256 .f32 := Host.absf main_arg9
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg3 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v48 main_v49 main_v50

def fn_part1 {F : FTy → Type} [FloatOps F] (main_arg3 : IVec S2x131072 32) (main_arg6 : FVec F S78 .f32) (main_arg7 : FVec F S256x78 .f32) (main_arg8 : FVec F S256 .f32) (main_arg9 : FVec F S512x256 .f32) (main_arg10 : FVec F S512 .f32) (main_arg11 : FVec F S512 .f32) (main_arg12 : FVec F S512 .f32) (main_arg13 : FVec F S512 .f32) (main_arg14 : FVec F S512 .f32) (main_arg15 : FVec F S512x10 .f32) (main_arg16 : FVec F S512 .f32) (main_arg17 : FVec F S512x512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_arg25 : FVec F S512x10 .f32) (main_arg26 : FVec F S512 .f32) (main_arg27 : FVec F S512x512 .f32) (main_arg28 : FVec F S512 .f32) (main_arg29 : FVec F S512x512 .f32) (main_arg30 : FVec F S512 .f32) (main_arg31 : FVec F S512 .f32) (main_arg32 : FVec F S512 .f32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) (main_v13 : IVec S_ 1) (main_v16 : IVec S78x10 1) : IVec S_ 1 :=
  let main_c_5 : IVec S_ 1 := constantI S_ 1 1#1
  let main_v17 : IVec S_ 1 := (fun x v => Host.reduce IntOp.andi x v reducesTo_S78x10_S_d0_1 h_S_) main_v16 main_c_5
  let main_v18 : IVec S_ 1 := andi main_v13 main_v17
  let main_v19 : FVec F S78 .f32 := Host.absf main_arg6
  let main_cst_6 : FVec F S_ .f32 := constant S_ .f32 0x7F800000#32
  let main_v20 : FVec F S78 .f32 := broadcastInDim S78 ![] bcast_S_S78 main_cst_6
  let main_v21 : IVec S78 1 := cmpf .olt main_v19 main_v20
  let main_c_7 : IVec S_ 1 := constantI S_ 1 1#1
  let main_v22 : IVec S_ 1 := (fun x v => Host.reduce IntOp.andi x v reducesTo_S78_S_d0 h_S_) main_v21 main_c_7
  let main_v23 : IVec S_ 1 := andi main_v18 main_v22
  let main_v24 : FVec F S256x78 .f32 := Host.absf main_arg7
  let main_cst_8 : FVec F S_ .f32 := constant S_ .f32 0x7F800000#32
  let main_v25 : FVec F S256x78 .f32 := broadcastInDim S256x78 ![] bcast_S_S256x78 main_cst_8
  let main_v26 : IVec S256x78 1 := cmpf .olt main_v24 main_v25
  let main_c_9 : IVec S_ 1 := constantI S_ 1 1#1
  let main_v27 : IVec S_ 1 := (fun x v => Host.reduce IntOp.andi x v reducesTo_S256x78_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v33

def fn {F : FTy → Type} [FloatOps F] (main_arg0 : FVec F S65536x78 .f32) (main_arg1 : FVec F S2048x1489 .f32) (main_arg2 : FVec F S131072x10 .f32) (main_arg3 : IVec S2x131072 32) (main_arg4 : IVec S65536 32) (main_arg5 : FVec F S78x10 .f32) (main_arg6 : FVec F S78 .f32) (main_arg7 : FVec F S256x78 .f32) (main_arg8 : FVec F S256 .f32) (main_arg9 : FVec F S512x256 .f32) (main_arg10 : FVec F S512 .f32) (main_arg11 : FVec F S512 .f32) (main_arg12 : FVec F S512 .f32) (main_arg13 : FVec F S512 .f32) (main_arg14 : FVec F S512 .f32) (main_arg15 : FVec F S512x10 .f32) (main_arg16 : FVec F S512 .f32) (main_arg17 : FVec F S512x512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_arg25 : FVec F S512x10 .f32) (main_arg26 : FVec F S512 .f32) (main_arg27 : FVec F S512x512 .f32) (main_arg28 : FVec F S512 .f32) (main_arg29 : FVec F S512x512 .f32) (main_arg30 : FVec F S512 .f32) (main_arg31 : FVec F S512 .f32) (main_arg32 : FVec F S512 .f32) (main_arg33 : FVec F S512 .f32) (main_arg34 : FVec F S512 .f32) (main_arg35 : FVec F S256x512 .f32) (main_arg36 : FVec F S256 .f32) (main_arg37 : FVec F S128x1489 .f32) (main_arg38 : FVec F S128 .f32) (main_arg39 : FVec F S256x128 .f32) (main_arg40 : FVec F S256 .f32) (main_arg41 : FVec F S256x512 .f32) (main_arg42 : FVec F S256 .f32) (main_arg43 : FVec F S128x256 .f32) (main_arg44 : FVec F S128 .f32) (main_arg45 : FVec F S64x128 .f32) (main_arg46 : FVec F S64 .f32) (main_arg47 : FVec F S2x64 .f32) (main_arg48 : FVec F S2 .f32) : IVec S_ 1 :=
  let main_v0 : FVec F S65536x78 .f32 := Host.absf main_arg0
  let main_cst : FVec F S_ .f32 := constant S_ .f32 0x7F800000#32
  let main_v1 : FVec F S65536x78 .f32 := broadcastInDim S65536x78 ![] bcast_S_S65536x78 main_cst
  let main_v2 : IVec S65536x78 1 := cmpf .olt main_v0 main_v1
  let main_c : IVec S_ 1 := constantI S_ 1 1#1
  let main_v3 : IVec S_ 1 := (fun x v => Host.reduce IntOp.andi x v reducesTo_S65536x78_S_d0_1 h_S_) main_v2 main_c
  let main_v4 : FVec F S2048x1489 .f32 := Host.absf main_arg1
  let main_cst_0 : FVec F S_ .f32 := constant S_ .f32 0x7F800000#32
  let main_v5 : FVec F S2048x1489 .f32 := broadcastInDim S2048x1489 ![] bcast_S_S2048x1489 main_cst_0
  let main_v6 : IVec S2048x1489 1 := cmpf .olt main_v4 main_v5
  let main_c_1 : IVec S_ 1 := constantI S_ 1 1#1
  let main_v7 : IVec S_ 1 := (fun x v => Host.reduce IntOp.andi x v reducesTo_S2048x1489_S_d0_1 h_S_) main_v6 main_c_1
  let main_v8 : IVec S_ 1 := andi main_v3 main_v7
  let main_v9 : FVec F S131072x10 .f32 := Host.absf main_arg2
  let main_cst_2 : FVec F S_ .f32 := constant S_ .f32 0x7F800000#32
  let main_v10 : FVec F S131072x10 .f32 := broadcastInDim S131072x10 ![] bcast_S_S131072x10 main_cst_2
  let main_v11 : IVec S131072x10 1 := cmpf .olt main_v9 main_v10
  let main_c_3 : IVec S_ 1 := constantI S_ 1 1#1
  let main_v12 : IVec S_ 1 := (fun x v => Host.reduce IntOp.andi x v reducesTo_S131072x10_S_d0_1 h_S_) main_v11 main_c_3
  let main_v13 : IVec S_ 1 := andi main_v8 main_v12
  let main_v14 : FVec F S78x10 .f32 := Host.absf main_arg5
  let main_cst_4 : FVec F S_ .f32 := constant S_ .f32 0x7F800000#32
  let main_v15 : FVec F S78x10 .f32 := broadcastInDim S78x10 ![] bcast_S_S78x10 main_cst_4
  let main_v16 : IVec S78x10 1 := cmpf .olt main_v14 main_v15
  fn_part1 (F := F) main_arg3 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_v13 main_v16
-- ==== Kernel.lean ====
abbrev S65536x78 : Shape := ⟨2, ![65536, 78]⟩
abbrev S2048x1489 : Shape := ⟨2, ![2048, 1489]⟩
abbrev S131072x10 : Shape := ⟨2, ![131072, 10]⟩
abbrev S2x131072 : Shape := ⟨2, ![2, 131072]⟩
abbrev S65536 : Shape := ⟨1, ![65536]⟩
abbrev S78x10 : Shape := ⟨2, ![78, 10]⟩
abbrev S78 : Shape := ⟨1, ![78]⟩
abbrev S256x78 : Shape := ⟨2, ![256, 78]⟩
abbrev S256 : Shape := ⟨1, ![256]⟩
abbrev S512x256 : Shape := ⟨2, ![512, 256]⟩
abbrev S512 : Shape := ⟨1, ![512]⟩
abbrev S512x10 : Shape := ⟨2, ![512, 10]⟩
abbrev S512x512 : Shape := ⟨2, ![512, 512]⟩
abbrev S256x512 : Shape := ⟨2, ![256, 512]⟩
abbrev S128x1489 : Shape := ⟨2, ![128, 1489]⟩
abbrev S128 : Shape := ⟨1, ![128]⟩
abbrev S256x128 : Shape := ⟨2, ![256, 128]⟩
abbrev S128x256 : Shape := ⟨2, ![128, 256]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x78 : Shape := ⟨2, ![131072, 78]⟩
abbrev S2048x10 : Shape := ⟨2, ![2048, 10]⟩
abbrev S2048x78 : Shape := ⟨2, ![2048, 78]⟩
abbrev S10x78 : Shape := ⟨2, ![10, 78]⟩
abbrev S1x78 : Shape := ⟨2, ![1, 78]⟩
abbrev S65536x512 : Shape := ⟨2, ![65536, 512]⟩
abbrev S1024x78 : Shape := ⟨2, ![1024, 78]⟩
abbrev S1024x512 : Shape := ⟨2, ![1024, 512]⟩
abbrev S78x256 : Shape := ⟨2, ![78, 256]⟩
abbrev S1024x256 : Shape := ⟨2, ![1024, 256]⟩
abbrev S1x256 : Shape := ⟨2, ![1, 256]⟩
abbrev S1x512 : Shape := ⟨2, ![1, 512]⟩
abbrev S131072x512 : Shape := ⟨2, ![131072, 512]⟩
abbrev S2048x512 : Shape := ⟨2, ![2048, 512]⟩
abbrev S10x512 : Shape := ⟨2, ![10, 512]⟩
abbrev S65536x1 : Shape := ⟨2, ![65536, 1]⟩
abbrev S2048x256 : Shape := ⟨2, ![2048, 256]⟩
abbrev S2048x128 : Shape := ⟨2, ![2048, 128]⟩
abbrev S512x1489 : Shape := ⟨2, ![512, 1489]⟩
abbrev S512x128 : Shape := ⟨2, ![512, 128]⟩
abbrev S1489x128 : Shape := ⟨2, ![1489, 128]⟩
abbrev S1x128 : Shape := ⟨2, ![1, 128]⟩
abbrev S2048x64 : Shape := ⟨2, ![2048, 64]⟩
abbrev S512x64 : Shape := ⟨2, ![512, 64]⟩
abbrev S128x64 : Shape := ⟨2, ![128, 64]⟩
abbrev S1x64 : Shape := ⟨2, ![1, 64]⟩
abbrev S2048x2 : Shape := ⟨2, ![2048, 2]⟩
abbrev S512x2 : Shape := ⟨2, ![512, 2]⟩
abbrev S64x2 : Shape := ⟨2, ![64, 2]⟩
abbrev S1x2 : Shape := ⟨2, ![1, 2]⟩

abbrev nBuf : Space → Nat
  | .hbm => 152
  | .vmem => 108
  | .smem => 0
  | _ => 0

abbrev hbmTy0_0 (i : Nat) : BufTy := match i % 128 with
  | 0 => ⟨S65536x78, .f32⟩
  | 1 => ⟨S2048x1489, .f32⟩
  | 2 => ⟨S131072x10, .f32⟩
  | 3 => ⟨S2x131072, .i32⟩
  | 4 => ⟨S65536, .i32⟩
  | 5 => ⟨S78x10, .f32⟩
  | 6 => ⟨S78, .f32⟩
  | 7 => ⟨S256x78, .f32⟩
  | 8 => ⟨S256, .f32⟩
  | 9 => ⟨S512x256, .f32⟩
  | 10 => ⟨S512, .f32⟩
  | 11 => ⟨S512, .f32⟩
  | 12 => ⟨S512, .f32⟩
  | 13 => ⟨S512, .f32⟩
  | 14 => ⟨S512, .f32⟩
  | 15 => ⟨S512x10, .f32⟩
  | 16 => ⟨S512, .f32⟩
  | 17 => ⟨S512x512, .f32⟩
  | 18 => ⟨S512, .f32⟩
  | 19 => ⟨S512x512, .f32⟩
  | 20 => ⟨S512, .f32⟩
  | 21 => ⟨S512, .f32⟩
  | 22 => ⟨S512, .f32⟩
  | 23 => ⟨S512, .f32⟩
  | 24 => ⟨S512, .f32⟩
  | 25 => ⟨S512x10, .f32⟩
  | 26 => ⟨S512, .f32⟩
  | 27 => ⟨S512x512, .f32⟩
  | 28 => ⟨S512, .f32⟩
  | 29 => ⟨S512x512, .f32⟩
  | 30 => ⟨S512, .f32⟩
  | 31 => ⟨S512, .f32⟩
  | 32 => ⟨S512, .f32⟩
  | 33 => ⟨S512, .f32⟩
  | 34 => ⟨S512, .f32⟩
  | 35 => ⟨S256x512, .f32⟩
  | 36 => ⟨S256, .f32⟩
  | 37 => ⟨S128x1489, .f32⟩
  | 38 => ⟨S128, .f32⟩
  | 39 => ⟨S256x128, .f32⟩
  | 40 => ⟨S256, .f32⟩
  | 41 => ⟨S256x512, .f32⟩
  | 42 => ⟨S256, .f32⟩
  | 43 => ⟨S128x256, .f32⟩
  | 44 => ⟨S128, .f32⟩
  | 45 => ⟨S64x128, .f32⟩
  | 46 => ⟨S64, .f32⟩
  | 47 => ⟨S2x64, .f32⟩
  | 48 => ⟨S2, .f32⟩
  | 49 => ⟨S1x131072, .i32⟩
  | 50 => ⟨S131072, .i32⟩
  | 51 => ⟨S1x131072, .i32⟩
  | 52 => ⟨S131072, .i32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S1, .i32⟩
  | 62 => ⟨S_, .i32⟩
  | 63 => ⟨S131072x1, .i32⟩
  | 64 => ⟨S131072x1, .i1⟩
  | 65 => ⟨S1x1, .i32⟩
  | 66 => ⟨S131072x1, .i32⟩
  | 67 => ⟨S131072x1, .i1⟩
  | 68 => ⟨S131072x1, .i1⟩
  | 69 => ⟨S_, .i1⟩
  | 70 => ⟨S131072, .i1⟩
  | 71 => ⟨S131072x78, .f32⟩
  | 72 => ⟨S131072x78, .i1⟩
  | 73 => ⟨S_, .f32⟩
  | 74 => ⟨S131072x78, .f32⟩
  | 75 => ⟨S131072x78, .f32⟩
  | 76 => ⟨S131072x78, .f32⟩
  | 77 => ⟨S_, .f32⟩
  | 78 => ⟨S65536x78, .f32⟩
  | 79 => ⟨S131072x1, .i32⟩
  | 80 => ⟨S65536x78, .f32⟩
  | 81 => ⟨S65536x512, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S1, .i32⟩
  | 91 => ⟨S_, .i32⟩
  | 92 => ⟨S131072x1, .i32⟩
  | 93 => ⟨S131072x1, .i1⟩
  | 94 => ⟨S1x1, .i32⟩
  | 95 => ⟨S131072x1, .i32⟩
  | 96 => ⟨S131072x1, .i1⟩
  | 97 => ⟨S131072x1, .i1⟩
  | 98 => ⟨S_, .i1⟩
  | 99 => ⟨S131072, .i1⟩
  | 100 => ⟨S131072x512, .f32⟩
  | 101 => ⟨S131072x512, .i1⟩
  | 102 => ⟨S_, .f32⟩
  | 103 => ⟨S131072x512, .f32⟩
  | 104 => ⟨S131072x512, .f32⟩
  | 105 => ⟨S131072x512, .f32⟩
  | 106 => ⟨S_, .f32⟩
  | 107 => ⟨S65536x512, .f32⟩
  | 108 => ⟨S131072x1, .i32⟩
  | 109 => ⟨S65536x512, .f32⟩
  | 110 => ⟨S65536x512, .f32⟩
  | 111 => ⟨S_, .i32⟩
  | 112 => ⟨S131072, .i32⟩
  | 113 => ⟨S131072, .i1⟩
  | 114 => ⟨S_, .i32⟩
  | 115 => ⟨S131072, .i32⟩
  | 116 => ⟨S131072, .i32⟩
  | 117 => ⟨S131072, .i32⟩
  | 118 => ⟨S131072x1, .i32⟩
  | 119 => ⟨S1, .i32⟩
  | 120 => ⟨S_, .i32⟩
  | 121 => ⟨S131072x1, .i32⟩
  | 122 => ⟨S131072x1, .i1⟩
  | 123 => ⟨S1x1, .i32⟩
  | 124 => ⟨S131072x1, .i32⟩
  | 125 => ⟨S131072x1, .i1⟩
  | 126 => ⟨S131072x1, .i1⟩
  | 127 => ⟨S_, .i1⟩
  | _ => ⟨S65536x78, .f32⟩

abbrev hbmTy0_1 (i : Nat) : BufTy := match i % 128 with
  | 0 => ⟨S131072, .i1⟩
  | 1 => ⟨S131072x512, .f32⟩
  | 2 => ⟨S131072x512, .i1⟩
  | 3 => ⟨S_, .f32⟩
  | 4 => ⟨S131072x512, .f32⟩
  | 5 => ⟨S131072x512, .f32⟩
  | 6 => ⟨S131072x512, .f32⟩
  | 7 => ⟨S_, .f32⟩
  | 8 => ⟨S65536x512, .f32⟩
  | 9 => ⟨S131072x1, .i32⟩
  | 10 => ⟨S65536x512, .f32⟩
  | 11 => ⟨S65536x512, .f32⟩
  | 12 => ⟨S_, .f32⟩
  | 13 => ⟨S2048x512, .f32⟩
  | 14 => ⟨S65536x1, .i32⟩
  | 15 => ⟨S2048x512, .f32⟩
  | 16 => ⟨S2048x256, .f32⟩
  | 17 => ⟨S2048x128, .f32⟩
  | 18 => ⟨S2048x256, .f32⟩
  | 19 => ⟨S2048x512, .f32⟩
  | 20 => ⟨S2048x256, .f32⟩
  | 21 => ⟨S2048x128, .f32⟩
  | 22 => ⟨S2048x64, .f32⟩
  | 23 => ⟨S2048x2, .f32⟩
  | _ => ⟨S65536x78, .f32⟩

abbrev hbmTy (i : Nat) : BufTy := match i / 128 with
  | 0 => hbmTy0_0 i
  | 1 => hbmTy0_1 i
  | _ => ⟨S65536x78, .f32⟩

abbrev bufTy : (tb : Table) → Fin (tcTables nBuf tb) → BufTy
  | .hbm, ⟨i, _⟩ => hbmTy i
  | .local _ .vmem, ⟨0, _⟩ => ⟨S2048x10, .f32⟩
  | .local _ .vmem, ⟨1, _⟩ => ⟨S2048x10, .f32⟩
  | .local _ .vmem, ⟨2, _⟩ => ⟨S78x10, .f32⟩
  | .local _ .vmem, ⟨3, _⟩ => ⟨S78, .f32⟩
  | .local _ .vmem, ⟨4, _⟩ => ⟨S2048x78, .f32⟩
  | .local _ .vmem, ⟨5, _⟩ => ⟨S2048x78, .f32⟩
  | .local _ .vmem, ⟨6, _⟩ => ⟨S2048x78, .f32⟩
  | .local _ .vmem, ⟨7, _⟩ => ⟨S2048x78, .f32⟩
  | .local _ .vmem, ⟨8, _⟩ => ⟨S1024x78, .f32⟩
  | .local _ .vmem, ⟨9, _⟩ => ⟨S1024x78, .f32⟩
  | .local _ .vmem, ⟨10, _⟩ => ⟨S1024x78, .f32⟩
  | .local _ .vmem, ⟨11, _⟩ => ⟨S1024x78, .f32⟩
  | .local _ .vmem, ⟨12, _⟩ => ⟨S256x78, .f32⟩
  | .local _ .vmem, ⟨13, _⟩ => ⟨S256, .f32⟩
  | .local _ .vmem, ⟨14, _⟩ => ⟨S512x256, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S512, .f32⟩
  | .local _ .vmem, ⟨19, _⟩ => ⟨S512, .f32⟩
  | .local _ .vmem, ⟨20, _⟩ => ⟨S1024x512, .f32⟩
  | .local _ .vmem, ⟨21, _⟩ => ⟨S1024x512, .f32⟩
  | .local _ .vmem, ⟨22, _⟩ => ⟨S2048x10, .f32⟩
  | .local _ .vmem, ⟨23, _⟩ => ⟨S2048x10, .f32⟩
  | .local _ .vmem, ⟨24, _⟩ => ⟨S512x10, .f32⟩
  | .local _ .vmem, ⟨25, _⟩ => ⟨S512, .f32⟩
  | .local _ .vmem, ⟨26, _⟩ => ⟨S2048x512, .f32⟩
  | .local _ .vmem, ⟨27, _⟩ => ⟨S2048x512, .f32⟩
  | .local _ .vmem, ⟨28, _⟩ => ⟨S2048x512, .f32⟩
  | .local _ .vmem, ⟨29, _⟩ => ⟨S2048x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S512x512, .f32⟩
  | .local _ .vmem, ⟨35, _⟩ => ⟨S512, .f32⟩
  | .local _ .vmem, ⟨36, _⟩ => ⟨S512x512, .f32⟩
  | .local _ .vmem, ⟨37, _⟩ => ⟨S512, .f32⟩
  | .local _ .vmem, ⟨38, _⟩ => ⟨S512, .f32⟩
  | .local _ .vmem, ⟨39, _⟩ => ⟨S512, .f32⟩
  | .local _ .vmem, ⟨40, _⟩ => ⟨S512, .f32⟩
  | .local _ .vmem, ⟨41, _⟩ => ⟨S512, .f32⟩
  | .local _ .vmem, ⟨42, _⟩ => ⟨S1024x512, .f32⟩
  | .local _ .vmem, ⟨43, _⟩ => ⟨S1024x512, .f32⟩
  | .local _ .vmem, ⟨44, _⟩ => ⟨S2048x10, .f32⟩
  | .local _ .vmem, ⟨45, _⟩ => ⟨S2048x10, .f32⟩
  | .local _ .vmem, ⟨46, _⟩ => ⟨S512x10, .f32⟩
  | .local _ .vmem, ⟨47, _⟩ => ⟨S512, .f32⟩
  | .local _ .vmem, ⟨48, _⟩ => ⟨S2048x512, .f32⟩
  | .local _ .vmem, ⟨49, _⟩ => ⟨S2048x512, .f32⟩
  | .local _ .vmem, ⟨50, _⟩ => ⟨S2048x512, .f32⟩
  | .local _ .vmem, ⟨51, _⟩ => ⟨S2048x512, .f32⟩
  | .local _ .vmem, ⟨52, _⟩ => ⟨S1024x512, .f32⟩
  | .local _ .vmem, ⟨53, _⟩ => ⟨S1024x512, .f32⟩
  | .local _ .vmem, ⟨54, _⟩ => ⟨S1024x512, .f32⟩
  | .local _ .vmem, ⟨55, _⟩ => ⟨S1024x512, .f32⟩
  | .local _ .vmem, ⟨56, _⟩ => ⟨S512x512, .f32⟩
  | .local _ .vmem, ⟨57, _⟩ => ⟨S512, .f32⟩
  | .local _ .vmem, ⟨58, _⟩ => ⟨S512x512, .f32⟩
  | .local _ .vmem, ⟨59, _⟩ => ⟨S512, .f32⟩
  | .local _ .vmem, ⟨60, _⟩ => ⟨S512, .f32⟩
  | .local _ .vmem, ⟨61, _⟩ => ⟨S512, .f32⟩
  | .local _ .vmem, ⟨62, _⟩ => ⟨S512, .f32⟩
  | .local _ .vmem, ⟨63, _⟩ => ⟨S512, .f32⟩
  | .local _ .vmem, ⟨64, _⟩ => ⟨S1024x512, .f32⟩
  | .local _ .vmem, ⟨65, _⟩ => ⟨S1024x512, .f32⟩
  | .local _ .vmem, ⟨66, _⟩ => ⟨S512x512, .f32⟩
  | .local _ .vmem, ⟨67, _⟩ => ⟨S512x512, .f32⟩
  | .local _ .vmem, ⟨68, _⟩ => ⟨S256x512, .f32⟩
  | .local _ .vmem, ⟨69, _⟩ => ⟨S256, .f32⟩
  | .local _ .vmem, ⟨70, _⟩ => ⟨S512x256, .f32⟩
  | .local _ .vmem, ⟨71, _⟩ => ⟨S512x256, .f32⟩
  | .local _ .vmem, ⟨72, _⟩ => ⟨S512x1489, .f32⟩
  | .local _ .vmem, ⟨73, _⟩ => ⟨S512x1489, .f32⟩
  | .local _ .vmem, ⟨74, _⟩ => ⟨S128x1489, .f32⟩
  | .local _ .vmem, ⟨75, _⟩ => ⟨S128, .f32⟩
  | .local _ .vmem, ⟨76, _⟩ => ⟨S512x128, .f32⟩
  | .local _ .vmem, ⟨77, _⟩ => ⟨S512x128, .f32⟩
  | .local _ .vmem, ⟨78, _⟩ => ⟨S512x128, .f32⟩
  | .local _ .vmem, ⟨79, _⟩ => ⟨S512x128, .f32⟩
  | .local _ .vmem, ⟨80, _⟩ => ⟨S256x128, .f32⟩
  | .local _ .vmem, ⟨81, _⟩ => ⟨S256, .f32⟩
  | .local _ .vmem, ⟨82, _⟩ => ⟨S512x256, .f32⟩
  | .local _ .vmem, ⟨83, _⟩ => ⟨S512x256, .f32⟩
  | .local _ .vmem, ⟨84, _⟩ => ⟨S512x512, .f32⟩
  | .local _ .vmem, ⟨85, _⟩ => ⟨S512x512, .f32⟩
  | .local _ .vmem, ⟨86, _⟩ => ⟨S256x512, .f32⟩
  | .local _ .vmem, ⟨87, _⟩ => ⟨S256, .f32⟩
  | .local _ .vmem, ⟨88, _⟩ => ⟨S512x256, .f32⟩
  | .local _ .vmem, ⟨89, _⟩ => ⟨S512x256, .f32⟩
  | .local _ .vmem, ⟨90, _⟩ => ⟨S512x256, .f32⟩
  | .local _ .vmem, ⟨91, _⟩ => ⟨S512x256, .f32⟩
  | .local _ .vmem, ⟨92, _⟩ => ⟨S128x256, .f32⟩
  | .local _ .vmem, ⟨93, _⟩ => ⟨S128, .f32⟩
  | .local _ .vmem, ⟨94, _⟩ => ⟨S512x128, .f32⟩
  | .local _ .vmem, ⟨95, _⟩ => ⟨S512x128, .f32⟩
  | .local _ .vmem, ⟨96, _⟩ => ⟨S512x128, .f32⟩
  | .local _ .vmem, ⟨97, _⟩ => ⟨S512x128, .f32⟩
  | .local _ .vmem, ⟨98, _⟩ => ⟨S64x128, .f32⟩
  | .local _ .vmem, ⟨99, _⟩ => ⟨S64, .f32⟩
  | .local _ .vmem, ⟨100, _⟩ => ⟨S512x64, .f32⟩
  | .local _ .vmem, ⟨101, _⟩ => ⟨S512x64, .f32⟩
  | .local _ .vmem, ⟨102, _⟩ => ⟨S512x64, .f32⟩
  | .local _ .vmem, ⟨103, _⟩ => ⟨S512x64, .f32⟩
  | .local _ .vmem, ⟨104, _⟩ => ⟨S2x64, .f32⟩
  | .local _ .vmem, ⟨105, _⟩ => ⟨S2, .f32⟩
  | .local _ .vmem, ⟨106, _⟩ => ⟨S512x2, .f32⟩
  | .local _ .vmem, ⟨107, _⟩ => ⟨S512x2, .f32⟩
  | _, _ => ⟨S65536x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_v0 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_call0_cst : Ref sig .tc := ⟨.hbm, 73, rfl⟩
abbrev main_call0_v15 : Ref sig .tc := ⟨.hbm, 74, rfl⟩
abbrev main_v4 : Ref sig .tc := ⟨.hbm, 75, rfl⟩
abbrev main_v5 : Ref sig .tc := ⟨.hbm, 76, rfl⟩
abbrev main_cst : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v10 : Ref sig .tc := ⟨.hbm, 104, rfl⟩
abbrev main_v11 : Ref sig .tc := ⟨.hbm, 105, rfl⟩
abbrev main_cst_0 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_call2_c : Ref sig .tc := ⟨.hbm, 111, rfl⟩
abbrev main_call2_v0 : Ref sig .tc := ⟨.hbm, 112, rfl⟩
abbrev main_call2_v1 : Ref sig .tc := ⟨.hbm, 113, rfl⟩
abbrev main_call2_c_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_c_1 : Ref sig .tc := ⟨.hbm, 119, rfl⟩
abbrev main_call2_c_2 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_3 : Ref sig .tc := ⟨.hbm, 127, rfl⟩
abbrev main_call2_v12 : Ref sig .tc := ⟨.hbm, 128, rfl⟩
abbrev main_call2_v13 : Ref sig .tc := ⟨.hbm, 129, rfl⟩
abbrev main_call2_v14 : Ref sig .tc := ⟨.hbm, 130, rfl⟩
abbrev main_call2_cst : Ref sig .tc := ⟨.hbm, 131, rfl⟩
abbrev main_call2_v15 : Ref sig .tc := ⟨.hbm, 132, rfl⟩
abbrev main_v16 : Ref sig .tc := ⟨.hbm, 133, rfl⟩
abbrev main_v17 : Ref sig .tc := ⟨.hbm, 134, rfl⟩
abbrev main_cst_1 : Ref sig .tc := ⟨.hbm, 135, rfl⟩
abbrev main_v18 : Ref sig .tc := ⟨.hbm, 136, rfl⟩
abbrev main_v19 : Ref sig .tc := ⟨.hbm, 137, rfl⟩
abbrev main_v20 : Ref sig .tc := ⟨.hbm, 138, rfl⟩
abbrev main_v21 : Ref sig .tc := ⟨.hbm, 139, rfl⟩
abbrev main_cst_2 : Ref sig .tc := ⟨.hbm, 140, rfl⟩
abbrev main_v22 : Ref sig .tc := ⟨.hbm, 141, rfl⟩
abbrev main_v23 : Ref sig .tc := ⟨.hbm, 142, rfl⟩
abbrev main_v24 : Ref sig .tc := ⟨.hbm, 143, rfl⟩
abbrev main_v25 : Ref sig .tc := ⟨.hbm, 144, rfl⟩
abbrev main_v26 : Ref sig .tc := ⟨.hbm, 145, rfl⟩
abbrev main_v27 : Ref sig .tc := ⟨.hbm, 146, rfl⟩
abbrev main_v28 : Ref sig .tc := ⟨.hbm, 147, rfl⟩
abbrev main_v29 : Ref sig .tc := ⟨.hbm, 148, rfl⟩
abbrev main_v30 : Ref sig .tc := ⟨.hbm, 149, rfl⟩
abbrev main_v31 : Ref sig .tc := ⟨.hbm, 150, rfl⟩
abbrev main_v32 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg10_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg9_0 : Ref sig .tc := ⟨.vmem, 63, rfl⟩
abbrev cc5_stg10_0 : Ref sig .tc := ⟨.vmem, 64, rfl⟩
abbrev cc5_stg10_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg3_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg3_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg2_0 : Ref sig .tc := ⟨.vmem, 81, rfl⟩
abbrev cc8_stg3_0 : Ref sig .tc := ⟨.vmem, 82, rfl⟩
abbrev cc8_stg3_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg2_0 : Ref sig .tc := ⟨.vmem, 87, rfl⟩
abbrev cc9_stg3_0 : Ref sig .tc := ⟨.vmem, 88, rfl⟩
abbrev cc9_stg3_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg2_0 : Ref sig .tc := ⟨.vmem, 93, rfl⟩
abbrev cc10_stg3_0 : Ref sig .tc := ⟨.vmem, 94, rfl⟩
abbrev cc10_stg3_1 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg2_0 : Ref sig .tc := ⟨.vmem, 99, rfl⟩
abbrev cc11_stg3_0 : Ref sig .tc := ⟨.vmem, 100, rfl⟩
abbrev cc11_stg3_1 : Ref sig .tc := ⟨.vmem, 101, rfl⟩
abbrev cc12_stg0_0 : Ref sig .tc := ⟨.vmem, 102, rfl⟩
abbrev cc12_stg0_1 : Ref sig .tc := ⟨.vmem, 103, rfl⟩
abbrev cc12_stg1_0 : Ref sig .tc := ⟨.vmem, 104, rfl⟩
abbrev cc12_stg2_0 : Ref sig .tc := ⟨.vmem, 105, rfl⟩
abbrev cc12_stg3_0 : Ref sig .tc := ⟨.vmem, 106, rfl⟩
abbrev cc12_stg3_1 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem10_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem3_1 : DmaSem sig := 49
abbrev cc4_sem4_0 : DmaSem sig := 50
abbrev cc4_sem4_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem9_0 : DmaSem sig := 63
abbrev cc5_sem10_0 : DmaSem sig := 64
abbrev cc5_sem10_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem3_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem3_1 : DmaSem sig := 77
abbrev cc8_sem0_0 : DmaSem sig := 78
abbrev cc8_sem0_1 : DmaSem sig := 79
abbrev cc8_sem1_0 : DmaSem sig := 80
abbrev cc8_sem2_0 : DmaSem sig := 81
abbrev cc8_sem3_0 : DmaSem sig := 82
abbrev cc8_sem3_1 : DmaSem sig := 83
abbrev cc9_sem0_0 : DmaSem sig := 84
abbrev cc9_sem0_1 : DmaSem sig := 85
abbrev cc9_sem1_0 : DmaSem sig := 86
abbrev cc9_sem2_0 : DmaSem sig := 87
abbrev cc9_sem3_0 : DmaSem sig := 88
abbrev cc9_sem3_1 : DmaSem sig := 89
abbrev cc10_sem0_0 : DmaSem sig := 90
abbrev cc10_sem0_1 : DmaSem sig := 91
abbrev cc10_sem1_0 : DmaSem sig := 92
abbrev cc10_sem2_0 : DmaSem sig := 93
abbrev cc10_sem3_0 : DmaSem sig := 94
abbrev cc10_sem3_1 : DmaSem sig := 95
abbrev cc11_sem0_0 : DmaSem sig := 96
abbrev cc11_sem0_1 : DmaSem sig := 97
abbrev cc11_sem1_0 : DmaSem sig := 98
abbrev cc11_sem2_0 : DmaSem sig := 99
abbrev cc11_sem3_0 : DmaSem sig := 100
abbrev cc11_sem3_1 : DmaSem sig := 101
abbrev cc12_sem0_0 : DmaSem sig := 102
abbrev cc12_sem0_1 : DmaSem sig := 103
abbrev cc12_sem1_0 : DmaSem sig := 104
abbrev cc12_sem2_0 : DmaSem sig := 105
abbrev cc12_sem3_0 : DmaSem sig := 106
abbrev cc12_sem3_1 : DmaSem sig := 107

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S78 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x78 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x78 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x78 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x78 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x78 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1024x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1024x512 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S512 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S512 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S512 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S1024x512 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S512x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1489 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x1489 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S512x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S512x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S512x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S512x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S2x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S2 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S512x2 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x78_0 : S131072.BroadcastsInDim S131072x78 (![0] : Fin 1 → Fin S131072x78.rank)
  bcast_S_S131072x78 : S_.BroadcastsInDim S131072x78 (![] : Fin 0 → Fin S131072x78.rank)
  inb_S2048x10_S2048x10_0_0 : ∀ a, (![0, 0] : Fin 2 → Nat) a + S2048x10.size a ≤ S2048x10.size a
  h_S2048x10 : 0 < S2048x10.numel
  bitsLt_bf16_f32 : FTy.bits .bf16 < FTy.bits .f32
  inb_S78x10_S78x10_0_0 : ∀ a, (![0, 0] : Fin 2 → Nat) a + S78x10.size a ≤ S78x10.size a
  h_S78x10 : 0 < S78x10.numel
  transposes_S78x10_p1_0_S10x78 : S78x10.Transposes [1, 0] S10x78
  inb_S78_S78_0 : ∀ a, (![0] : Fin 1 → Nat) a + S78.size a ≤ S78.size a
  h_S78 : 0 < S78.numel
  shapeCasts_S78_S1x78 : S78.ShapeCasts S1x78
  broadcasts_S1x78_S2048x78 : S1x78.Broadcasts S2048x78
  inb_S2048x78_S2048x78_0_0 : ∀ a, (![0, 0] : Fin 2 → Nat) a + S2048x78.size a ≤ S2048x78.size a
  h_S2048x78 : 0 < S2048x78.numel
  shapeCasts_S2048x78_S2048x78 : S2048x78.ShapeCasts S2048x78
  bcast_S_S65536x78 : S_.BroadcastsInDim S65536x78 (![] : Fin 0 → Fin S65536x78.rank)
  inb_S1024x78_S1024x78_0_0 : ∀ a, (![0, 0] : Fin 2 → Nat) a + S1024x78.size a ≤ S1024x78.size a
  h_S1024x78 : 0 < S1024x78.numel
  shapeCasts_S1024x78_S1024x78 : S1024x78.ShapeCasts S1024x78
  inb_S256x78_S256x78_0_0 : ∀ a, (![0, 0] : Fin 2 → Nat) a + S256x78.size a ≤ S256x78.size a
  h_S256x78 : 0 < S256x78.numel
  transposes_S256x78_p1_0_S78x256 : S256x78.Transposes [1, 0] S78x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  bcast_S131072_S131072x512_0 : S131072.BroadcastsInDim S131072x512 (![0] : Fin 1 → Fin S131072x512.rank)
  bcast_S_S131072x512 : S_.BroadcastsInDim S131072x512 (![] : Fin 0 → Fin S131072x512.rank)
  inb_S512x10_S512x10_0_0 : ∀ a, (![0, 0] : Fin 2 → Nat) a + S512x10.size a ≤ S512x10.size a
  h_S512x10 : 0 < S512x10.numel
  transposes_S512x10_p1_0_S10x512 : S512x10.Transposes [1, 0] S10x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bcast_S_S65536x512 : S_.BroadcastsInDim S65536x512 (![] : Fin 0 → Fin S65536x512.rank)
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  bcast_S_S2048x512 : S_.BroadcastsInDim S2048x512 (![] : Fin 0 → Fin S2048x512.rank)
  bcast_S65536_S65536x1_0 : S65536.BroadcastsInDim S65536x1 (![0] : Fin 1 → Fin S65536x1.rank)
  shapeCasts_S512x512_S512x512 : S512x512.ShapeCasts S512x512
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  broadcasts_S1x256_S512x256 : S1x256.Broadcasts S512x256
  inb_S512x1489_S512x1489_0_0 : ∀ a, (![0, 0] : Fin 2 → Nat) a + S512x1489.size a ≤ S512x1489.size a
  h_S512x1489 : 0 < S512x1489.numel
  inb_S128x1489_S128x1489_0_0 : ∀ a, (![0, 0] : Fin 2 → Nat) a + S128x1489.size a ≤ S128x1489.size a
  h_S128x1489 : 0 < S128x1489.numel
  transposes_S128x1489_p1_0_S1489x128 : S128x1489.Transposes [1, 0] S1489x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  concatenates_S2048x256_S2048x256_S2048x512_d1 : Shape.Concatenates [S2048x256, S2048x256] S2048x512 1
  shapeCasts_S512x256_S512x256 : S512x256.ShapeCasts S512x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  gather_S65536x78_S131072x1_S131072x78_1_0_n_n_0_1_178_wf : GatherDims.WF S65536x78 S131072x1 S131072x78 [1] [0] [] [0] [] 1 ![1, 78]
  dot_S2048x10_S10x78_S2048x78_1_0_0_1_n_n_wf : DotDims.WF S2048x10 S10x78 S2048x78 [1] [0] [0] [1] [] []
  scatter_S65536x78_S131072x1_S131072x78_1_0_0_1_wf : ScatterDims.WF S65536x78 S131072x1 S131072x78 [1] [0] [0] 1
  dot_S1024x78_S78x256_S1024x256_1_0_0_1_n_n_wf : DotDims.WF S1024x78 S78x256 S1024x256 [1] [0] [0] [1] [] []
  dot_S1024x256_S256x512_S1024x512_1_0_0_1_n_n_wf : DotDims.WF S1024x256 S256x512 S1024x512 [1] [0] [0] [1] [] []
  gather_S65536x512_S131072x1_S131072x512_1_0_n_n_0_1_1512_wf : GatherDims.WF S65536x512 S131072x1 S131072x512 [1] [0] [] [0] [] 1 ![1, 512]
  dot_S2048x10_S10x512_S2048x512_1_0_0_1_n_n_wf : DotDims.WF S2048x10 S10x512 S2048x512 [1] [0] [0] [1] [] []
  scatter_S65536x512_S131072x1_S131072x512_1_0_0_1_wf : ScatterDims.WF S65536x512 S131072x1 S131072x512 [1] [0] [0] 1
  dot_S1024x512_S512x512_S1024x512_1_0_0_1_n_n_wf : DotDims.WF S1024x512 S512x512 S1024x512 [1] [0] [0] [1] [] []
  scatter_S2048x512_S65536x1_S65536x512_1_0_0_1_wf : ScatterDims.WF S2048x512 S65536x1 S65536x512 [1] [0] [0] 1
  dot_S512x512_S512x256_S512x256_1_0_0_1_n_n_wf : DotDims.WF S512x512 S512x256 S512x256 [1] [0] [0] [1] [] []
  dot_S512x1489_S1489x128_S512x128_1_0_0_1_n_n_wf : DotDims.WF S512x1489 S1489x128 S512x128 [1] [0] [0] [1] [] []
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  dot_S512x128_S128x64_S512x64_1_0_0_1_n_n_wf : DotDims.WF S512x128 S128x64 S512x64 [1] [0] [0] [1] [] []
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10.size a ≤ S131072x10.size a
  hwx0_0 : ∀ i : grid0.Coords, EltTy.bits .f32 = 32 ∨ (Rect.block (s := S131072x10) S2048x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S78x10.size a ≤ S78x10.size a
  hwx0_1 : ∀ i : grid0.Coords, EltTy.bits .f32 = 32 ∨ (Rect.block (s := S78x10) S78x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S78.size a ≤ S78.size a
  hwx0_2 : ∀ i : grid0.Coords, EltTy.bits .f32 = 32 ∨ (Rect.block (s := S78) S78.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x78.size a ≤ S131072x78.size a
  hwx0_3 : ∀ i : grid0.Coords, EltTy.bits .f32 = 32 ∨ (Rect.block (s := S131072x78) S2048x78.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x78.size a ≤ S131072x78.size a
  hwx0_4 : ∀ i : grid0.Coords, EltTy.bits .f32 = 32 ∨ (Rect.block (s := S131072x78) S2048x78.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x78.size a ≤ S65536x78.size a
  hwx1_0 : ∀ i : grid1.Coords, EltTy.bits .f32 = 32 ∨ (Rect.block (s := S65536x78) S1024x78.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x78.size a ≤ S65536x78.size a
  hwx1_1 : ∀ i : grid1.Coords, EltTy.bits .f32 = 32 ∨ (Rect.block (s := S65536x78) S1024x78.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x78.size a ≤ S256x78.size a
  hwx1_2 : ∀ i : grid1.Coords, EltTy.bits .f32 = 32 ∨ (Rect.block (s := S256x78) S256x78.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512.size a ≤ S512.size a
  hwx1_9 : ∀ i : grid1.Coords, EltTy.bits .f32 = 32 ∨ (Rect.block (s := S512) S512.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x512.size a ≤ S65536x512.size a
  hwx1_10 : ∀ i : grid1.Coords, EltTy.bits .f32 = 32 ∨ (Rect.block (s := S65536x512) S1024x512.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x10.size a ≤ S131072x10.size a
  hwx2_0 : ∀ i : grid2.Coords, EltTy.bits .f32 = 32 ∨ (Rect.block (s := S131072x10) S2048x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x10.size a ≤ S512x10.size a
  hwx2_1 : ∀ i : grid2.Coords, EltTy.bits .f32 = 32 ∨ (Rect.block (s := S512x10) S512x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S131072x512.size a
  hwx2_3 : ∀ i : grid2.Coords, EltTy.bits .f32 = 32 ∨ (Rect.block (s := S131072x512) S2048x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x512.size a ≤ S131072x512.size a
  hwx2_4 : ∀ i : grid2.Coords, EltTy.bits .f32 = 32 ∨ (Rect.block (s := S131072x512) S2048x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S65536x512.size a
  hwx3_0 : ∀ i : grid3.Coords, EltTy.bits .f32 = 32 ∨ (Rect.block (s := S65536x512) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S65536x512.size a
  hwx3_1 : ∀ i : grid3.Coords, EltTy.bits .f32 = 32 ∨ (Rect.block (s := S65536x512) S1024x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512.size a ≤ S512.size a
  hwx3_3 : ∀ i : grid3.Coords, EltTy.bits .f32 = 32 ∨ (Rect.block (s := S512) S512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .f32 = 32 ∨ (Rect.block (s := S512x512) S512x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512.size a ≤ S512.size a
  hwx3_5 : ∀ i : grid3.Coords, EltTy.bits .f32 = 32 ∨ (Rect.block (s := S512) S512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512.size a ≤ S512.size a
  hwx3_6 : ∀ i : grid3.Coords, EltTy.bits .f32 = 32 ∨ (Rect.block (s := S512) S512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512.size a ≤ S512.size a
  hwx3_7 : ∀ i : grid3.Coords, EltTy.bits .f32 = 32 ∨ (Rect.block (s := S512) S512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512.size a ≤ S512.size a
  hwx3_8 : ∀ i : grid3.Coords, EltTy.bits .f32 = 32 ∨ (Rect.block (s := S512) S512.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S512.size a ≤ S512.size a
  hwx3_9 : ∀ i : grid3.Coords, EltTy.bits .f32 = 32 ∨ (Rect.block (s := S512) S512.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1024x512.size a ≤ S65536x512.size a
  hwx3_10 : ∀ i : grid3.Coords, EltTy.bits .f32 = 32 ∨ (Rect.block (s := S65536x512) S1024x512.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x10.size a ≤ S131072x10.size a
  hwx4_0 : ∀ i : grid4.Coords, EltTy.bits .f32 = 32 ∨ (Rect.block (s := S131072x10) S2048x10.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x10.size a ≤ S512x10.size a
  hwx4_1 : ∀ i : grid4.Coords, EltTy.bits .f32 = 32 ∨ (Rect.block (s := S512x10) S512x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512.size a ≤ S512.size a
  hwx4_2 : ∀ i : grid4.Coords, EltTy.bits .f32 = 32 ∨ (Rect.block (s := S512) S512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x512.size a ≤ S131072x512.size a
  hwx4_3 : ∀ i : grid4.Coords, EltTy.bits .f32 = 32 ∨ (Rect.block (s := S131072x512) S2048x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x512.size a ≤ S131072x512.size a
  hwx4_4 : ∀ i : grid4.Coords, EltTy.bits .f32 = 32 ∨ (Rect.block (s := S131072x512) S2048x512.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x512.size a ≤ S65536x512.size a
  hwx5_0 : ∀ i : grid5.Coords, EltTy.bits .f32 = 32 ∨ (Rect.block (s := S65536x512) S1024x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S65536x512.size a
  hwx5_1 : ∀ i : grid5.Coords, EltTy.bits .f32 = 32 ∨ (Rect.block (s := S65536x512) S1024x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x512.size a ≤ S512x512.size a
  hwx5_2 : ∀ i : grid5.Coords, EltTy.bits .f32 = 32 ∨ (Rect.block (s := S512x512) S512x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512.size a ≤ S512.size a
  hwx5_3 : ∀ i : grid5.Coords, EltTy.bits .f32 = 32 ∨ (Rect.block (s := S512) S512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x512.size a ≤ S512x512.size a
  hwx5_4 : ∀ i : grid5.Coords, EltTy.bits .f32 = 32 ∨ (Rect.block (s := S512x512) S512x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512.size a ≤ S512.size a
  hwx5_5 : ∀ i : grid5.Coords, EltTy.bits .f32 = 32 ∨ (Rect.block (s := S512) S512.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S512.size a ≤ S512.size a
  hwx5_6 : ∀ i : grid5.Coords, EltTy.bits .f32 = 32 ∨ (Rect.block (s := S512) S512.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512.size a ≤ S512.size a
  hwx5_7 : ∀ i : grid5.Coords, EltTy.bits .f32 = 32 ∨ (Rect.block (s := S512) S512.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S512.size a ≤ S512.size a
  hwx5_8 : ∀ i : grid5.Coords, EltTy.bits .f32 = 32 ∨ (Rect.block (s := S512) S512.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S512.size a ≤ S512.size a
  hwx5_9 : ∀ i : grid5.Coords, EltTy.bits .f32 = 32 ∨ (Rect.block (s := S512) S512.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S1024x512.size a ≤ S65536x512.size a
  hwx5_10 : ∀ i : grid5.Coords, EltTy.bits .f32 = 32 ∨ (Rect.block (s := S65536x512) S1024x512.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x512.size a ≤ S2048x512.size a
  hwx6_0 : ∀ i : grid6.Coords, EltTy.bits .f32 = 32 ∨ (Rect.block (s := S2048x512) S512x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x512.size a ≤ S256x512.size a
  hwx6_1 : ∀ i : grid6.Coords, EltTy.bits .f32 = 32 ∨ (Rect.block (s := S256x512) S256x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256.size a ≤ S256.size a
  hwx6_2 : ∀ i : grid6.Coords, EltTy.bits .f32 = 32 ∨ (Rect.block (s := S256) S256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x256.size a ≤ S2048x256.size a
  hwx6_3 : ∀ i : grid6.Coords, EltTy.bits .f32 = 32 ∨ (Rect.block (s := S2048x256) S512x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x1489.size a ≤ S2048x1489.size a
  hwx7_0 : ∀ i : grid7.Coords, EltTy.bits .f32 = 32 ∨ (Rect.block (s := S2048x1489) S512x1489.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x1489.size a ≤ S128x1489.size a
  hwx7_1 : ∀ i : grid7.Coords, EltTy.bits .f32 = 32 ∨ (Rect.block (s := S128x1489) S128x1489.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x128.size a ≤ S2048x128.size a
  hwx7_3 : ∀ i : grid7.Coords, EltTy.bits .f32 = 32 ∨ (Rect.block (s := S2048x128) S512x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x128.size a ≤ S2048x128.size a
  hwx8_0 : ∀ i : grid8.Coords, EltTy.bits .f32 = 32 ∨ (Rect.block (s := S2048x128) S512x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .f32 = 32 ∨ (Rect.block (s := S256x128) S256x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256.size a ≤ S256.size a
  hwx8_2 : ∀ i : grid8.Coords, EltTy.bits .f32 = 32 ∨ (Rect.block (s := S256) S256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x256.size a ≤ S2048x256.size a
  hwx8_3 : ∀ i : grid8.Coords, EltTy.bits .f32 = 32 ∨ (Rect.block (s := S2048x256) S512x256.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x512.size a ≤ S2048x512.size a
  hwx9_0 : ∀ i : grid9.Coords, EltTy.bits .f32 = 32 ∨ (Rect.block (s := S2048x512) S512x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x512.size a ≤ S256x512.size a
  hwx9_1 : ∀ i : grid9.Coords, EltTy.bits .f32 = 32 ∨ (Rect.block (s := S256x512) S256x512.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256.size a ≤ S256.size a
  hwx9_2 : ∀ i : grid9.Coords, EltTy.bits .f32 = 32 ∨ (Rect.block (s := S256) S256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S512x256.size a ≤ S2048x256.size a
  hwx9_3 : ∀ i : grid9.Coords, EltTy.bits .f32 = 32 ∨ (Rect.block (s := S2048x256) S512x256.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x256.size a ≤ S2048x256.size a
  hwx10_0 : ∀ i : grid10.Coords, EltTy.bits .f32 = 32 ∨ (Rect.block (s := S2048x256) S512x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x256.size a ≤ S128x256.size a
  hwx10_1 : ∀ i : grid10.Coords, EltTy.bits .f32 = 32 ∨ (Rect.block (s := S128x256) S128x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128.size a ≤ S128.size a
  hwx10_2 : ∀ i : grid10.Coords, EltTy.bits .f32 = 32 ∨ (Rect.block (s := S128) S128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S512x128.size a ≤ S2048x128.size a
  hwx10_3 : ∀ i : grid10.Coords, EltTy.bits .f32 = 32 ∨ (Rect.block (s := S2048x128) S512x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x128.size a ≤ S2048x128.size a
  hwx11_0 : ∀ i : grid11.Coords, EltTy.bits .f32 = 32 ∨ (Rect.block (s := S2048x128) S512x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x128.size a ≤ S64x128.size a
  hwx11_1 : ∀ i : grid11.Coords, EltTy.bits .f32 = 32 ∨ (Rect.block (s := S64x128) S64x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64.size a ≤ S64.size a
  hwx11_2 : ∀ i : grid11.Coords, EltTy.bits .f32 = 32 ∨ (Rect.block (s := S64) S64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S512x64.size a ≤ S2048x64.size a
  hwx11_3 : ∀ i : grid11.Coords, EltTy.bits .f32 = 32 ∨ (Rect.block (s := S2048x64) S512x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S512x64.size a ≤ S2048x64.size a
  hwx12_0 : ∀ i : grid12.Coords, EltTy.bits .f32 = 32 ∨ (Rect.block (s := S2048x64) S512x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S2x64.size a ≤ S2x64.size a
  hwx12_1 : ∀ i : grid12.Coords, EltTy.bits .f32 = 32 ∨ (Rect.block (s := S2x64) S2x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S2.size a ≤ S2.size a
  hwx12_2 : ∀ i : grid12.Coords, EltTy.bits .f32 = 32 ∨ (Rect.block (s := S2) S2.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S512x2.size a ≤ S2048x2.size a
  hwx12_3 : ∀ i : grid12.Coords, EltTy.bits .f32 = 32 ∨ (Rect.block (s := S2048x2) S512x2.size (cc12_transform_3 i) (hinb12_3 i)).WholeWords (EltTy.packing .f32)

variable [Facts₀]

def gather_S65536x78_S131072x1_S131072x78_1_0_n_n_0_1_178 : GatherDims S65536x78 S131072x1 S131072x78 where
  offsetDims := [1]
  collapsedSliceDims := [0]
  operandBatchingDims := []
  startIndicesBatchingDims := []
  startIndexMap := [0]
  indexVectorDim := 1
  sliceSizes := ![1, 78]
  wf := gather_S65536x78_S131072x1_S131072x78_1_0_n_n_0_1_178_wf
def dot_S2048x10_S10x78_S2048x78_1_0_0_1_n_n : DotDims S2048x10 S10x78 S2048x78 where
  lhsContracting := [1]
  rhsContracting := [0]
  lhsNonContracting := [0]
  rhsNonContracting := [1]
  lhsBatch := []
  rhsBatch := []
  wf := dot_S2048x10_S10x78_S2048x78_1_0_0_1_n_n_wf
def scatter_S65536x78_S131072x1_S131072x78_1_0_0_1 : ScatterDims S65536x78 S131072x1 S131072x78 where
  updateWindowDims := [1]
  insertedWindowDims := [0]
  scatterDimsToOperandDims := [0]
  indexVectorDim := 1
  wf := scatter_S65536x78_S131072x1_S131072x78_1_0_0_1_wf
def dot_S1024x78_S78x256_S1024x256_1_0_0_1_n_n : DotDims S1024x78 S78x256 S1024x256 where
  lhsContracting := [1]
  rhsContracting := [0]
  lhsNonContracting := [0]
  rhsNonContracting := [1]
  lhsBatch := []
  rhsBatch := []
  wf := dot_S1024x78_S78x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def gather_S65536x512_S131072x1_S131072x512_1_0_n_n_0_1_1512 : GatherDims S65536x512 S131072x1 S131072x512 where
  offsetDims := [1]
  collapsedSliceDims := [0]
  operandBatchingDims := []
  startIndicesBatchingDims := []
  startIndexMap := [0]
  indexVectorDim := 1
  sliceSizes := ![1, 512]
  wf := gather_S65536x512_S131072x1_S131072x512_1_0_n_n_0_1_1512_wf
def dot_S2048x10_S10x512_S2048x512_1_0_0_1_n_n : DotDims S2048x10 S10x512 S2048x512 where
  lhsContracting := [1]
  rhsContracting := [0]
  lhsNonContracting := [0]
  rhsNonContracting := [1]
  lhsBatch := []
  rhsBatch := []
  wf := dot_S2048x10_S10x512_S2048x512_1_0_0_1_n_n_wf
def scatter_S65536x512_S131072x1_S131072x512_1_0_0_1 : ScatterDims S65536x512 S131072x1 S131072x512 where
  updateWindowDims := [1]
  insertedWindowDims := [0]
  scatterDimsToOperandDims := [0]
  indexVectorDim := 1
  wf := scatter_S65536x512_S131072x1_S131072x512_1_0_0_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def scatter_S2048x512_S65536x1_S65536x512_1_0_0_1 : ScatterDims S2048x512 S65536x1 S65536x512 where
  updateWindowDims := [1]
  insertedWindowDims := [0]
  scatterDimsToOperandDims := [0]
  indexVectorDim := 1
  wf := scatter_S2048x512_S65536x1_S65536x512_1_0_0_1_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x1489_S1489x128_S512x128_1_0_0_1_n_n : DotDims S512x1489 S1489x128 S512x128 where
  lhsContracting := [1]
  rhsContracting := [0]
  lhsNonContracting := [0]
  rhsNonContracting := [1]
  lhsBatch := []
  rhsBatch := []
  wf := dot_S512x1489_S1489x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg2) S2048x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S78x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S78.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x78.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x78.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x78.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x78.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x78.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9) S1024x512.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg2) S2048x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S512x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S2048x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S2048x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v9) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg19) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg20) S512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg21) S512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg22) S512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg23) S512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg24) S512.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v15) S1024x512.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_arg2) S2048x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg25) S512x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg26) S512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S2048x512.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v17) S2048x512.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v15) S1024x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg27) S512x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg28) S512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg29) S512x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg30) S512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg31) S512.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg32) S512.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg33) S512.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg34) S512.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v21) S1024x512.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v24) S512x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg35) S256x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg36) S256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v25) S512x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_arg1) S512x1489.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg37) S128x1489.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg38) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v26) S512x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v26) S512x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg39) S256x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg40) S256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v27) S512x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v28) S512x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg41) S256x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg42) S256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v29) S512x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v29) S512x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg43) S128x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg44) S128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v30) S512x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v30) S512x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg45) S64x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg46) S64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v31) S512x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v31) S512x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg47) S2x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_arg48) S2.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v32) S512x2.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S65536x78 : Shape := ⟨2, ![65536, 78]⟩
abbrev S2048x1489 : Shape := ⟨2, ![2048, 1489]⟩
abbrev S131072x10 : Shape := ⟨2, ![131072, 10]⟩
abbrev S2x131072 : Shape := ⟨2, ![2, 131072]⟩
abbrev S65536 : Shape := ⟨1, ![65536]⟩
abbrev S78x10 : Shape := ⟨2, ![78, 10]⟩
abbrev S78 : Shape := ⟨1, ![78]⟩
abbrev S256x78 : Shape := ⟨2, ![256, 78]⟩
abbrev S256 : Shape := ⟨1, ![256]⟩
abbrev S512x256 : Shape := ⟨2, ![512, 256]⟩
abbrev S512 : Shape := ⟨1, ![512]⟩
abbrev S512x10 : Shape := ⟨2, ![512, 10]⟩
abbrev S512x512 : Shape := ⟨2, ![512, 512]⟩
abbrev S256x512 : Shape := ⟨2, ![256, 512]⟩
abbrev S128x1489 : Shape := ⟨2, ![128, 1489]⟩
abbrev S128 : Shape := ⟨1, ![128]⟩
abbrev S256x128 : Shape := ⟨2, ![256, 128]⟩
abbrev S128x256 : Shape := ⟨2, ![128, 256]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x131072 : Shape := ⟨2, ![1, 131072]⟩
abbrev S131072 : Shape := ⟨1, ![131072]⟩
abbrev S10x78 : Shape := ⟨2, ![10, 78]⟩
abbrev S131072x78 : Shape := ⟨2, ![131072, 78]⟩
abbrev S1x78 : Shape := ⟨2, ![1, 78]⟩
abbrev S_ : Shape := ⟨0, ![]⟩
abbrev S131072x1 : Shape := ⟨2, ![131072, 1]⟩
abbrev S78x256 : Shape := ⟨2, ![78, 256]⟩
abbrev S65536x256 : Shape := ⟨2, ![65536, 256]⟩
abbrev S1x256 : Shape := ⟨2, ![1, 256]⟩
abbrev S65536x512 : Shape := ⟨2, ![65536, 512]⟩
abbrev S1x512 : Shape := ⟨2, ![1, 512]⟩
abbrev S10x512 : Shape := ⟨2, ![10, 512]⟩
abbrev S131072x512 : Shape := ⟨2, ![131072, 512]⟩
abbrev S2048x512 : Shape := ⟨2, ![2048, 512]⟩
abbrev S65536x1 : Shape := ⟨2, ![65536, 1]⟩
abbrev S2048x256 : Shape := ⟨2, ![2048, 256]⟩
abbrev S1489x128 : Shape := ⟨2, ![1489, 128]⟩
abbrev S2048x128 : Shape := ⟨2, ![2048, 128]⟩
abbrev S1x128 : Shape := ⟨2, ![1, 128]⟩
abbrev S128x64 : Shape := ⟨2, ![128, 64]⟩
abbrev S2048x64 : Shape := ⟨2, ![2048, 64]⟩
abbrev S1x64 : Shape := ⟨2, ![1, 64]⟩
abbrev S64x2 : Shape := ⟨2, ![64, 2]⟩
abbrev S2048x2 : Shape := ⟨2, ![2048, 2]⟩
abbrev S1x2 : Shape := ⟨2, ![1, 2]⟩

abbrev nBuf : Space → Nat
  | .hbm => 284
  | .vmem => 0
  | .smem => 0
  | _ => 0

abbrev hbmTy0_0 (i : Nat) : BufTy := match i % 128 with
  | 0 => ⟨S65536x78, .f32⟩
  | 1 => ⟨S2048x1489, .f32⟩
  | 2 => ⟨S131072x10, .f32⟩
  | 3 => ⟨S2x131072, .i32⟩
  | 4 => ⟨S65536, .i32⟩
  | 5 => ⟨S78x10, .f32⟩
  | 6 => ⟨S78, .f32⟩
  | 7 => ⟨S256x78, .f32⟩
  | 8 => ⟨S256, .f32⟩
  | 9 => ⟨S512x256, .f32⟩
  | 10 => ⟨S512, .f32⟩
  | 11 => ⟨S512, .f32⟩
  | 12 => ⟨S512, .f32⟩
  | 13 => ⟨S512, .f32⟩
  | 14 => ⟨S512, .f32⟩
  | 15 => ⟨S512x10, .f32⟩
  | 16 => ⟨S512, .f32⟩
  | 17 => ⟨S512x512, .f32⟩
  | 18 => ⟨S512, .f32⟩
  | 19 => ⟨S512x512, .f32⟩
  | 20 => ⟨S512, .f32⟩
  | 21 => ⟨S512, .f32⟩
  | 22 => ⟨S512, .f32⟩
  | 23 => ⟨S512, .f32⟩
  | 24 => ⟨S512, .f32⟩
  | 25 => ⟨S512x10, .f32⟩
  | 26 => ⟨S512, .f32⟩
  | 27 => ⟨S512x512, .f32⟩
  | 28 => ⟨S512, .f32⟩
  | 29 => ⟨S512x512, .f32⟩
  | 30 => ⟨S512, .f32⟩
  | 31 => ⟨S512, .f32⟩
  | 32 => ⟨S512, .f32⟩
  | 33 => ⟨S512, .f32⟩
  | 34 => ⟨S512, .f32⟩
  | 35 => ⟨S256x512, .f32⟩
  | 36 => ⟨S256, .f32⟩
  | 37 => ⟨S128x1489, .f32⟩
  | 38 => ⟨S128, .f32⟩
  | 39 => ⟨S256x128, .f32⟩
  | 40 => ⟨S256, .f32⟩
  | 41 => ⟨S256x512, .f32⟩
  | 42 => ⟨S256, .f32⟩
  | 43 => ⟨S128x256, .f32⟩
  | 44 => ⟨S128, .f32⟩
  | 45 => ⟨S64x128, .f32⟩
  | 46 => ⟨S64, .f32⟩
  | 47 => ⟨S2x64, .f32⟩
  | 48 => ⟨S2, .f32⟩
  | 49 => ⟨S1x131072, .i32⟩
  | 50 => ⟨S131072, .i32⟩
  | 51 => ⟨S1x131072, .i32⟩
  | 52 => ⟨S131072, .i32⟩
  | 53 => ⟨S10x78, .f32⟩
  | 54 => ⟨S131072x78, .f32⟩
  | 55 => ⟨S1x78, .f32⟩
  | 56 => ⟨S131072x78, .f32⟩
  | 57 => ⟨S131072x78, .f32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S131072x1, .i32⟩
  | 66 => ⟨S131072x78, .f32⟩
  | 67 => ⟨S131072x78, .f32⟩
  | 68 => ⟨S_, .f32⟩
  | 69 => ⟨S131072x78, .f32⟩
  | 70 => ⟨S131072x78, .f32⟩
  | 71 => ⟨S_, .f32⟩
  | 72 => ⟨S65536x78, .f32⟩
  | 73 => ⟨S131072x1, .i32⟩
  | 74 => ⟨S65536x78, .f32⟩
  | 75 => ⟨S65536x78, .f32⟩
  | 76 => ⟨S78x256, .f32⟩
  | 77 => ⟨S65536x256, .f32⟩
  | 78 => ⟨S1x256, .f32⟩
  | 79 => ⟨S65536x256, .f32⟩
  | 80 => ⟨S65536x256, .f32⟩
  | 81 => ⟨S_, .f32⟩
  | 82 => ⟨S65536x256, .f32⟩
  | 83 => ⟨S65536x256, .f32⟩
  | 84 => ⟨S256x512, .f32⟩
  | 85 => ⟨S65536x512, .f32⟩
  | 86 => ⟨S1x512, .f32⟩
  | 87 => ⟨S65536x512, .f32⟩
  | 88 => ⟨S65536x512, .f32⟩
  | 89 => ⟨S_, .f32⟩
  | 90 => ⟨S65536x512, .f32⟩
  | 91 => ⟨S65536x512, .f32⟩
  | 92 => ⟨S1x512, .f32⟩
  | 93 => ⟨S65536x512, .f32⟩
  | 94 => ⟨S65536x512, .f32⟩
  | 95 => ⟨S_, .f32⟩
  | 96 => ⟨S512, .f32⟩
  | 97 => ⟨S512, .f32⟩
  | 98 => ⟨S512, .f32⟩
  | 99 => ⟨S1x512, .f32⟩
  | 100 => ⟨S65536x512, .f32⟩
  | 101 => ⟨S65536x512, .f32⟩
  | 102 => ⟨S1x512, .f32⟩
  | 103 => ⟨S65536x512, .f32⟩
  | 104 => ⟨S65536x512, .f32⟩
  | 105 => ⟨S1x512, .f32⟩
  | 106 => ⟨S65536x512, .f32⟩
  | 107 => ⟨S65536x512, .f32⟩
  | 108 => ⟨S10x512, .f32⟩
  | 109 => ⟨S131072x512, .f32⟩
  | 110 => ⟨S1x512, .f32⟩
  | 111 => ⟨S131072x512, .f32⟩
  | 112 => ⟨S131072x512, .f32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S131072x512, .f32⟩
  | 122 => ⟨S131072x512, .f32⟩
  | 123 => ⟨S_, .f32⟩
  | 124 => ⟨S131072x512, .f32⟩
  | 125 => ⟨S131072x512, .f32⟩
  | 126 => ⟨S_, .f32⟩
  | 127 => ⟨S65536x512, .f32⟩
  | _ => ⟨S65536x78, .f32⟩

abbrev hbmTy0_1 (i : Nat) : BufTy := match i % 128 with
  | 0 => ⟨S131072x1, .i32⟩
  | 1 => ⟨S65536x512, .f32⟩
  | 2 => ⟨S65536x512, .f32⟩
  | 3 => ⟨S512x512, .f32⟩
  | 4 => ⟨S65536x512, .f32⟩
  | 5 => ⟨S1x512, .f32⟩
  | 6 => ⟨S65536x512, .f32⟩
  | 7 => ⟨S65536x512, .f32⟩
  | 8 => ⟨S_, .f32⟩
  | 9 => ⟨S65536x512, .f32⟩
  | 10 => ⟨S65536x512, .f32⟩
  | 11 => ⟨S512x512, .f32⟩
  | 12 => ⟨S65536x512, .f32⟩
  | 13 => ⟨S1x512, .f32⟩
  | 14 => ⟨S65536x512, .f32⟩
  | 15 => ⟨S65536x512, .f32⟩
  | 16 => ⟨S_, .f32⟩
  | 17 => ⟨S65536x512, .f32⟩
  | 18 => ⟨S65536x512, .f32⟩
  | 19 => ⟨S1x512, .f32⟩
  | 20 => ⟨S65536x512, .f32⟩
  | 21 => ⟨S65536x512, .f32⟩
  | 22 => ⟨S_, .f32⟩
  | 23 => ⟨S512, .f32⟩
  | 24 => ⟨S512, .f32⟩
  | 25 => ⟨S512, .f32⟩
  | 26 => ⟨S1x512, .f32⟩
  | 27 => ⟨S65536x512, .f32⟩
  | 28 => ⟨S65536x512, .f32⟩
  | 29 => ⟨S1x512, .f32⟩
  | 30 => ⟨S65536x512, .f32⟩
  | 31 => ⟨S65536x512, .f32⟩
  | 32 => ⟨S1x512, .f32⟩
  | 33 => ⟨S65536x512, .f32⟩
  | 34 => ⟨S65536x512, .f32⟩
  | 35 => ⟨S10x512, .f32⟩
  | 36 => ⟨S131072x512, .f32⟩
  | 37 => ⟨S1x512, .f32⟩
  | 38 => ⟨S131072x512, .f32⟩
  | 39 => ⟨S131072x512, .f32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S131072x512, .f32⟩
  | 49 => ⟨S131072x512, .f32⟩
  | 50 => ⟨S_, .f32⟩
  | 51 => ⟨S131072x512, .f32⟩
  | 52 => ⟨S131072x512, .f32⟩
  | 53 => ⟨S_, .f32⟩
  | 54 => ⟨S65536x512, .f32⟩
  | 55 => ⟨S131072x1, .i32⟩
  | 56 => ⟨S65536x512, .f32⟩
  | 57 => ⟨S65536x512, .f32⟩
  | 58 => ⟨S512x512, .f32⟩
  | 59 => ⟨S65536x512, .f32⟩
  | 60 => ⟨S1x512, .f32⟩
  | 61 => ⟨S65536x512, .f32⟩
  | 62 => ⟨S65536x512, .f32⟩
  | 63 => ⟨S_, .f32⟩
  | 64 => ⟨S65536x512, .f32⟩
  | 65 => ⟨S65536x512, .f32⟩
  | 66 => ⟨S512x512, .f32⟩
  | 67 => ⟨S65536x512, .f32⟩
  | 68 => ⟨S1x512, .f32⟩
  | 69 => ⟨S65536x512, .f32⟩
  | 70 => ⟨S65536x512, .f32⟩
  | 71 => ⟨S_, .f32⟩
  | 72 => ⟨S65536x512, .f32⟩
  | 73 => ⟨S65536x512, .f32⟩
  | 74 => ⟨S1x512, .f32⟩
  | 75 => ⟨S65536x512, .f32⟩
  | 76 => ⟨S65536x512, .f32⟩
  | 77 => ⟨S_, .f32⟩
  | 78 => ⟨S512, .f32⟩
  | 79 => ⟨S512, .f32⟩
  | 80 => ⟨S512, .f32⟩
  | 81 => ⟨S1x512, .f32⟩
  | 82 => ⟨S65536x512, .f32⟩
  | 83 => ⟨S65536x512, .f32⟩
  | 84 => ⟨S1x512, .f32⟩
  | 85 => ⟨S65536x512, .f32⟩
  | 86 => ⟨S65536x512, .f32⟩
  | 87 => ⟨S1x512, .f32⟩
  | 88 => ⟨S65536x512, .f32⟩
  | 89 => ⟨S65536x512, .f32⟩
  | 90 => ⟨S_, .f32⟩
  | 91 => ⟨S2048x512, .f32⟩
  | 92 => ⟨S65536x1, .i32⟩
  | 93 => ⟨S2048x512, .f32⟩
  | 94 => ⟨S512x256, .f32⟩
  | 95 => ⟨S2048x256, .f32⟩
  | 96 => ⟨S1x256, .f32⟩
  | 97 => ⟨S2048x256, .f32⟩
  | 98 => ⟨S2048x256, .f32⟩
  | 99 => ⟨S_, .f32⟩
  | 100 => ⟨S2048x256, .f32⟩
  | 101 => ⟨S2048x256, .f32⟩
  | 102 => ⟨S1489x128, .f32⟩
  | 103 => ⟨S2048x128, .f32⟩
  | 104 => ⟨S1x128, .f32⟩
  | 105 => ⟨S2048x128, .f32⟩
  | 106 => ⟨S2048x128, .f32⟩
  | 107 => ⟨S_, .f32⟩
  | 108 => ⟨S2048x128, .f32⟩
  | 109 => ⟨S2048x128, .f32⟩
  | 110 => ⟨S128x256, .f32⟩
  | 111 => ⟨S2048x256, .f32⟩
  | 112 => ⟨S1x256, .f32⟩
  | 113 => ⟨S2048x256, .f32⟩
  | 114 => ⟨S2048x256, .f32⟩
  | 115 => ⟨S_, .f32⟩
  | 116 => ⟨S2048x256, .f32⟩
  | 117 => ⟨S2048x256, .f32⟩
  | 118 => ⟨S2048x512, .f32⟩
  | 119 => ⟨S512x256, .f32⟩
  | 120 => ⟨S2048x256, .f32⟩
  | 121 => ⟨S1x256, .f32⟩
  | 122 => ⟨S2048x256, .f32⟩
  | 123 => ⟨S2048x256, .f32⟩
  | 124 => ⟨S_, .f32⟩
  | 125 => ⟨S2048x256, .f32⟩
  | 126 => ⟨S2048x256, .f32⟩
  | 127 => ⟨S256x128, .f32⟩
  | _ => ⟨S65536x78, .f32⟩

abbrev hbmTy0_2 (i : Nat) : BufTy := match i % 128 with
  | 0 => ⟨S2048x128, .f32⟩
  | 1 => ⟨S1x128, .f32⟩
  | 2 => ⟨S2048x128, .f32⟩
  | 3 => ⟨S2048x128, .f32⟩
  | 4 => ⟨S_, .f32⟩
  | 5 => ⟨S2048x128, .f32⟩
  | 6 => ⟨S2048x128, .f32⟩
  | 7 => ⟨S128x64, .f32⟩
  | 8 => ⟨S2048x64, .f32⟩
  | 9 => ⟨S1x64, .f32⟩
  | 10 => ⟨S2048x64, .f32⟩
  | 11 => ⟨S2048x64, .f32⟩
  | 12 => ⟨S_, .f32⟩
  | 13 => ⟨S2048x64, .f32⟩
  | 14 => ⟨S2048x64, .f32⟩
  | 15 => ⟨S64x2, .f32⟩
  | 16 => ⟨S2048x2, .f32⟩
  | 17 => ⟨S1x2, .f32⟩
  | 18 => ⟨S2048x2, .f32⟩
  | 19 => ⟨S2048x2, .f32⟩
  | 20 => ⟨S2048x2, .f32⟩
  | 21 => ⟨S2048x2, .f32⟩
  | 22 => ⟨S_, .f32⟩
  | 23 => ⟨S2048x2, .f32⟩
  | 24 => ⟨S2048x2, .f32⟩
  | 25 => ⟨S_, .f32⟩
  | 26 => ⟨S2048x2, .f32⟩
  | 27 => ⟨S2048x2, .f32⟩
  | _ => ⟨S65536x78, .f32⟩

abbrev hbmTy (i : Nat) : BufTy := match i / 128 with
  | 0 => hbmTy0_0 i
  | 1 => hbmTy0_1 i
  | 2 => hbmTy0_2 i
  | _ => ⟨S65536x78, .f32⟩

abbrev bufTy : (tb : Table) → Fin (tcTables nBuf tb) → BufTy
  | .hbm, ⟨i, _⟩ => hbmTy i
  | _, _ => ⟨S65536x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_v0 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_c : Ref sig .tc := ⟨.hbm, 58, rfl⟩
abbrev main_v9 : Ref sig .tc := ⟨.hbm, 59, rfl⟩
abbrev main_v10 : Ref sig .tc := ⟨.hbm, 60, rfl⟩
abbrev main_c_0 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_call0_cst : Ref sig .tc := ⟨.hbm, 68, rfl⟩
abbrev main_call0_v0 : Ref sig .tc := ⟨.hbm, 69, rfl⟩
abbrev main_v17 : Ref sig .tc := ⟨.hbm, 70, rfl⟩
abbrev main_cst : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_call1_cst : Ref sig .tc := ⟨.hbm, 81, rfl⟩
abbrev main_call1_v0 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_call2_cst : Ref sig .tc := ⟨.hbm, 89, rfl⟩
abbrev main_call2_v0 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_1 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_c_2 : Ref sig .tc := ⟨.hbm, 113, rfl⟩
abbrev main_v54 : Ref sig .tc := ⟨.hbm, 114, rfl⟩
abbrev main_v55 : Ref sig .tc := ⟨.hbm, 115, rfl⟩
abbrev main_c_3 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_call3_cst : Ref sig .tc := ⟨.hbm, 123, rfl⟩
abbrev main_call3_v0 : Ref sig .tc := ⟨.hbm, 124, rfl⟩
abbrev main_v62 : Ref sig .tc := ⟨.hbm, 125, rfl⟩
abbrev main_cst_4 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_call4_cst : Ref sig .tc := ⟨.hbm, 136, rfl⟩
abbrev main_call4_v0 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_call5_cst : Ref sig .tc := ⟨.hbm, 144, rfl⟩
abbrev main_call5_v0 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_5 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_c_6 : Ref sig .tc := ⟨.hbm, 168, rfl⟩
abbrev main_v99 : Ref sig .tc := ⟨.hbm, 169, rfl⟩
abbrev main_v100 : Ref sig .tc := ⟨.hbm, 170, rfl⟩
abbrev main_c_7 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_call6_cst : Ref sig .tc := ⟨.hbm, 178, rfl⟩
abbrev main_call6_v0 : Ref sig .tc := ⟨.hbm, 179, rfl⟩
abbrev main_v107 : Ref sig .tc := ⟨.hbm, 180, rfl⟩
abbrev main_cst_8 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_call7_cst : Ref sig .tc := ⟨.hbm, 191, rfl⟩
abbrev main_call7_v0 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_call8_cst : Ref sig .tc := ⟨.hbm, 199, rfl⟩
abbrev main_call8_v0 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_cst_9 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_cst_10 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_call9_cst : Ref sig .tc := ⟨.hbm, 227, rfl⟩
abbrev main_call9_v0 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_call10_cst : Ref sig .tc := ⟨.hbm, 235, rfl⟩
abbrev main_call10_v0 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_call11_cst : Ref sig .tc := ⟨.hbm, 243, rfl⟩
abbrev main_call11_v0 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_call12_cst : Ref sig .tc := ⟨.hbm, 252, rfl⟩
abbrev main_call12_v0 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_call13_cst : Ref sig .tc := ⟨.hbm, 260, rfl⟩
abbrev main_call13_v0 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_call14_cst : Ref sig .tc := ⟨.hbm, 268, rfl⟩
abbrev main_call14_v0 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_cst_11 : Ref sig .tc := ⟨.hbm, 278, rfl⟩
abbrev main_v186 : Ref sig .tc := ⟨.hbm, 279, rfl⟩
abbrev main_v187 : Ref sig .tc := ⟨.hbm, 280, rfl⟩
abbrev main_cst_12 : Ref sig .tc := ⟨.hbm, 281, rfl⟩
abbrev main_v188 : Ref sig .tc := ⟨.hbm, 282, rfl⟩
abbrev main_v189 : Ref sig .tc := ⟨.hbm, 283, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  transposes_S78x10_S10x78_1_0 : S78x10.Transposes [1, 0] S10x78
  bcast_S78_S1x78_1 : S78.BroadcastsInDim S1x78 (![1] : Fin 1 → Fin S1x78.rank)
  bcast_S1x78_S131072x78_0_1 : S1x78.BroadcastsInDim S131072x78 (![0, 1] : Fin 2 → Fin S131072x78.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S131072x78 : S_.BroadcastsInDim S131072x78 (![] : Fin 0 → Fin S131072x78.rank)
  bcast_S_S65536x78 : S_.BroadcastsInDim S65536x78 (![] : Fin 0 → Fin S65536x78.rank)
  transposes_S256x78_S78x256_1_0 : S256x78.Transposes [1, 0] S78x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S_S512 : S_.BroadcastsInDim S512 (![] : Fin 0 → Fin S512.rank)
  transposes_S512x10_S10x512_1_0 : S512x10.Transposes [1, 0] S10x512
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  transposes_S512x512_S512x512_1_0 : S512x512.Transposes [1, 0] S512x512
  bcast_S_S2048x512 : S_.BroadcastsInDim S2048x512 (![] : Fin 0 → Fin S2048x512.rank)
  bcast_S65536_S65536x1_0 : S65536.BroadcastsInDim S65536x1 (![0] : Fin 1 → Fin S65536x1.rank)
  transposes_S256x512_S512x256_1_0 : S256x512.Transposes [1, 0] S512x256
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  transposes_S128x1489_S1489x128_1_0 : S128x1489.Transposes [1, 0] S1489x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  transposes_S256x128_S128x256_1_0 : S256x128.Transposes [1, 0] S128x256
  concatenates_S2048x256_S2048x256_S2048x512_d1 : Shape.Concatenates [S2048x256, S2048x256] S2048x512 1
  transposes_S128x256_S256x128_1_0 : S128x256.Transposes [1, 0] S256x128
  transposes_S64x128_S128x64_1_0 : S64x128.Transposes [1, 0] S128x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  transposes_S2x64_S64x2_1_0 : S2x64.Transposes [1, 0] S64x2
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  bcast_S_S2048x2 : S_.BroadcastsInDim S2048x2 (![] : Fin 0 → Fin S2048x2.rank)
  dot_S131072x10_S10x78_S131072x78_1_0_0_1_n_n_wf : DotDims.WF S131072x10 S10x78 S131072x78 [1] [0] [0] [1] [] []
  gather_S65536x78_S131072x1_S131072x78_1_0_n_n_0_1_178_wf : GatherDims.WF S65536x78 S131072x1 S131072x78 [1] [0] [] [0] [] 1 ![1, 78]
  scatter_S65536x78_S131072x1_S131072x78_1_0_0_1_wf : ScatterDims.WF S65536x78 S131072x1 S131072x78 [1] [0] [0] 1
  dot_S65536x78_S78x256_S65536x256_1_0_0_1_n_n_wf : DotDims.WF S65536x78 S78x256 S65536x256 [1] [0] [0] [1] [] []
  dot_S65536x256_S256x512_S65536x512_1_0_0_1_n_n_wf : DotDims.WF S65536x256 S256x512 S65536x512 [1] [0] [0] [1] [] []
  dot_S131072x10_S10x512_S131072x512_1_0_0_1_n_n_wf : DotDims.WF S131072x10 S10x512 S131072x512 [1] [0] [0] [1] [] []
  gather_S65536x512_S131072x1_S131072x512_1_0_n_n_0_1_1512_wf : GatherDims.WF S65536x512 S131072x1 S131072x512 [1] [0] [] [0] [] 1 ![1, 512]
  scatter_S65536x512_S131072x1_S131072x512_1_0_0_1_wf : ScatterDims.WF S65536x512 S131072x1 S131072x512 [1] [0] [0] 1
  dot_S65536x512_S512x512_S65536x512_1_0_0_1_n_n_wf : DotDims.WF S65536x512 S512x512 S65536x512 [1] [0] [0] [1] [] []
  scatter_S2048x512_S65536x1_S65536x512_1_0_0_1_wf : ScatterDims.WF S2048x512 S65536x1 S65536x512 [1] [0] [0] 1
  dot_S2048x512_S512x256_S2048x256_1_0_0_1_n_n_wf : DotDims.WF S2048x512 S512x256 S2048x256 [1] [0] [0] [1] [] []
  dot_S2048x1489_S1489x128_S2048x128_1_0_0_1_n_n_wf : DotDims.WF S2048x1489 S1489x128 S2048x128 [1] [0] [0] [1] [] []
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S2048x128_S128x64_S2048x64_1_0_0_1_n_n_wf : DotDims.WF S2048x128 S128x64 S2048x64 [1] [0] [0] [1] [] []
  dot_S2048x64_S64x2_S2048x2_1_0_0_1_n_n_wf : DotDims.WF S2048x64 S64x2 S2048x2 [1] [0] [0] [1] [] []

variable [Facts₀]

def dot_S131072x10_S10x78_S131072x78_1_0_0_1_n_n : DotDims S131072x10 S10x78 S131072x78 where
  lhsContracting := [1]
  rhsContracting := [0]
  lhsNonContracting := [0]
  rhsNonContracting := [1]
  lhsBatch := []
  rhsBatch := []
  wf := dot_S131072x10_S10x78_S131072x78_1_0_0_1_n_n_wf
def gather_S65536x78_S131072x1_S131072x78_1_0_n_n_0_1_178 : GatherDims S65536x78 S131072x1 S131072x78 where
  offsetDims := [1]
  collapsedSliceDims := [0]
  operandBatchingDims := []
  startIndicesBatchingDims := []
  startIndexMap := [0]
  indexVectorDim := 1
  sliceSizes := ![1, 78]
  wf := gather_S65536x78_S131072x1_S131072x78_1_0_n_n_0_1_178_wf
def scatter_S65536x78_S131072x1_S131072x78_1_0_0_1 : ScatterDims S65536x78 S131072x1 S131072x78 where
  updateWindowDims := [1]
  insertedWindowDims := [0]
  scatterDimsToOperandDims := [0]
  indexVectorDim := 1
  wf := scatter_S65536x78_S131072x1_S131072x78_1_0_0_1_wf
def dot_S65536x78_S78x256_S65536x256_1_0_0_1_n_n : DotDims S65536x78 S78x256 S65536x256 where
  lhsContracting := [1]
  rhsContracting := [0]
  lhsNonContracting := [0]
  rhsNonContracting := [1]
  lhsBatch := []
  rhsBatch := []
  wf := dot_S65536x78_S78x256_S65536x256_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S131072x10_S10x512_S131072x512_1_0_0_1_n_n : DotDims S131072x10 S10x512 S131072x512 where
  lhsContracting := [1]
  rhsContracting := [0]
  lhsNonContracting := [0]
  rhsNonContracting := [1]
  lhsBatch := []
  rhsBatch := []
  wf := dot_S131072x10_S10x512_S131072x512_1_0_0_1_n_n_wf
def gather_S65536x512_S131072x1_S131072x512_1_0_n_n_0_1_1512 : GatherDims S65536x512 S131072x1 S131072x512 where
  offsetDims := [1]
  collapsedSliceDims := [0]
  operandBatchingDims := []
  startIndicesBatchingDims := []
  startIndexMap := [0]
  indexVectorDim := 1
  sliceSizes := ![1, 512]
  wf := gather_S65536x512_S131072x1_S131072x512_1_0_n_n_0_1_1512_wf
def scatter_S65536x512_S131072x1_S131072x512_1_0_0_1 : ScatterDims S65536x512 S131072x1 S131072x512 where
  updateWindowDims := [1]
  insertedWindowDims := [0]
  scatterDimsToOperandDims := [0]
  indexVectorDim := 1
  wf := scatter_S65536x512_S131072x1_S131072x512_1_0_0_1_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def scatter_S2048x512_S65536x1_S65536x512_1_0_0_1 : ScatterDims S2048x512 S65536x1 S65536x512 where
  updateWindowDims := [1]
  insertedWindowDims := [0]
  scatterDimsToOperandDims := [0]
  indexVectorDim := 1
  wf := scatter_S2048x512_S65536x1_S65536x512_1_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x1489_S1489x128_S2048x128_1_0_0_1_n_n : DotDims S2048x1489 S1489x128 S2048x128 where
  lhsContracting := [1]
  rhsContracting := [0]
  lhsNonContracting := [0]
  rhsNonContracting := [1]
  lhsBatch := []
  rhsBatch := []
  wf := dot_S2048x1489_S1489x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

class Facts : Prop extends Facts₀ where

variable [Facts]
-- ==== Proof.KernelWalkKeep.lean ====
/-
  The kernel program's buffers from one segment boundary to the next: which references a step rewrites, and that every
  other reference, the argument arrays above all, reads the same before and after the step.
-/
import proofs.«423804_j46926812676623_1_alg».proof.Proof.Gen.KernelIdeal.Frame

set_option maxRecDepth 16384

noncomputable section

namespace Cert.KernelIdeal.Walk

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg) (c : Dev nD)

/-!
  # What each step of the program leaves unchanged

  The buffer contents at the boundaries of the program's segments are a fold from the launch memory: a stretch of host
  operations rewrites the buffers its operations write, a kernel region rewrites its output array. Every other buffer
  keeps its contents across the step: for a stretch, any reference outside the list of its results; for a region, any
  reference other than its output array (an input array is read, never written; a buffer that is none of its arrays
  is bypassed). The argument arrays are written by no step, so at every boundary they hold what they held at launch.
-/

/-! ## The stretches of host operations -/

/-- The results of the first stretch: the two rows of the edge list, sliced and flattened. -/
abbrev ops0_W : List (Ref sig .tc) := [main_v0, main_v1, main_v2, main_v3]
/-- The results of the first row gather (the rows of the 78-wide node table at the edges' sources). -/
abbrev ops0_1_W : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v4]
/-- The results of the first scatter-add to the target nodes. -/
abbrev ops1_W : List (Ref sig .tc) := [main_cst, main_v6, main_v7, main_v8]
/-- The results of the second row gather. -/
abbrev ops2_W : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v10]
/-- The results of the second scatter-add. -/
abbrev ops3_W : List (Ref sig .tc) := [main_cst_0, main_v12, main_v13, main_v14]
/-- The results of the third row gather. -/
abbrev ops4_W : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v16]
/-- The results of the third scatter-add. -/
abbrev ops5_W : List (Ref sig .tc) := [main_cst_1, main_v18, main_v19, main_v20]
/-- The results of the pool over the graphs. -/
abbrev ops6_W : List (Ref sig .tc) := [main_cst_2, main_v22, main_v23, main_v24]
/-- The result of the concatenation. -/
abbrev ops9_W : List (Ref sig .tc) := [main_v28]

theorem ops0_writes : (hostOps0 : List (HloOp τ sig (Elt F))).Forall fun op =>
    op.writes ⊆ (ops0_W.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops0_1_writes : (hostOps0_1 : List (HloOp τ sig (Elt F))).Forall fun op =>
    op.writes ⊆ (ops0_1_W.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops1_writes : (hostOps1 : List (HloOp τ sig (Elt F))).Forall fun op =>
    op.writes ⊆ (ops1_W.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops2_writes : (hostOps2 : List (HloOp τ sig (Elt F))).Forall fun op =>
    op.writes ⊆ (ops2_W.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops3_writes : (hostOps3 : List (HloOp τ sig (Elt F))).Forall fun op =>
    op.writes ⊆ (ops3_W.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops4_writes : (hostOps4 : List (HloOp τ sig (Elt F))).Forall fun op =>
    op.writes ⊆ (ops4_W.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops5_writes : (hostOps5 : List (HloOp τ sig (Elt F))).Forall fun op =>
    op.writes ⊆ (ops5_W.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops6_writes : (hostOps6 : List (HloOp τ sig (Elt F))).Forall fun op =>
    op.writes ⊆ (ops6_W.map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem ops9_writes : (hostOps9 : List (HloOp τ sig (Elt F))).Forall fun op =>
    op.writes ⊆ (ops9_W.map (Proc.devRef (τ := τ) .tc)).toFinset := by
  simp only [hostOps9, List.Forall, StableHlo.binary_writes, Finset.singleton_subset_iff, List.mem_toFinset]
  exact List.mem_map_of_mem (by decide)

/-! ## A kernel region leaves each of its input arrays as it found it -/

theorem W3_in (w : Fin cfg0.W) (hin : (cfg0.win w).isOut = false) :
    W3 m ρ c (Proc.devRef .tc (Pipeline.arrRef spec0 w)) = W2 m ρ c (Proc.devRef .tc (Pipeline.arrRef spec0 w)) :=
  (W3_arr m ρ c w).trans (((dat0 (V2 m ρ) c).arrAt_in w hin _).trans (A_eq0 (V2 m ρ) c w))
theorem W5_in (w : Fin cfg1.W) (hin : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hin _).trans (A_eq1 (V4 m ρ) c w))
theorem W7_in (w : Fin cfg2.W) (hin : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hin _).trans (A_eq2 (V6 m ρ) c w))
theorem W9_in (w : Fin cfg3.W) (hin : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hin _).trans (A_eq3 (V8 m ρ) c w))
theorem W11_in (w : Fin cfg4.W) (hin : (cfg4.win w).isOut = false) :
    W11 m ρ c (Proc.devRef .tc (Pipeline.arrRef spec4 w)) = W10 m ρ c (Proc.devRef .tc (Pipeline.arrRef spec4 w)) :=
  (W11_arr m ρ c w).trans (((dat4 (V10 m ρ) c).arrAt_in w hin _).trans (A_eq4 (V10 m ρ) c w))
theorem W13_in (w : Fin cfg5.W) (hin : (cfg5.win w).isOut = false) :
    W13 m ρ c (Proc.devRef .tc (Pipeline.arrRef spec5 w)) = W12 m ρ c (Proc.devRef .tc (Pipeline.arrRef spec5 w)) :=
  (W13_arr m ρ c w).trans (((dat5 (V12 m ρ) c).arrAt_in w hin _).trans (A_eq5 (V12 m ρ) c w))
theorem W15_in (w : Fin cfg6.W) (hin : (cfg6.win w).isOut = false) :
    W15 m ρ c (Proc.devRef .tc (Pipeline.arrRef spec6 w)) = W14 m ρ c (Proc.devRef .tc (Pipeline.arrRef spec6 w)) :=
  (W15_arr m ρ c w).trans (((dat6 (V14 m ρ) c).arrAt_in w hin _).trans (A_eq6 (V14 m ρ) c w))
theorem W16_in (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (V15 m ρ) c).arrAt_in w hin _).trans (A_eq7 (V15 m ρ) c w))
theorem W17_in (w : Fin cfg8.W) (hin : (cfg8.win w).isOut = false) :
    W17 m ρ c (Proc.devRef .tc (Pipeline.arrRef spec8 w)) = W16 m ρ c (Proc.devRef .tc (Pipeline.arrRef spec8 w)) :=
  (W17_arr m ρ c w).trans (((dat8 (V16 m ρ) c).arrAt_in w hin _).trans (A_eq8 (V16 m ρ) c w))
theorem W19_in (w : Fin cfg9.W) (hin : (cfg9.win w).isOut = false) :
    W19 m ρ c (Proc.devRef .tc (Pipeline.arrRef spec9 w)) = W18 m ρ c (Proc.devRef .tc (Pipeline.arrRef spec9 w)) :=
  (W19_arr m ρ c w).trans (((dat9 (V18 m ρ) c).arrAt_in w hin _).trans (A_eq9 (V18 m ρ) c w))
theorem W20_in (w : Fin cfg10.W) (hin : (cfg10.win w).isOut = false) :
    W20 m ρ c (Proc.devRef .tc (Pipeline.arrRef spec10 w)) = W19 m ρ c (Proc.devRef .tc (Pipeline.arrRef spec10 w)) :=
  (W20_arr m ρ c w).trans (((dat10 (V19 m ρ) c).arrAt_in w hin _).trans (A_eq10 (V19 m ρ) c w))
theorem W21_in (w : Fin cfg11.W) (hin : (cfg11.win w).isOut = false) :
    W21 m ρ c (Proc.devRef .tc (Pipeline.arrRef spec11 w)) = W20 m ρ c (Proc.devRef .tc (Pipeline.arrRef spec11 w)) :=
  (W21_arr m ρ c w).trans (((dat11 (V20 m ρ) c).arrAt_in w hin _).trans (A_eq11 (V20 m ρ) c w))
theorem W22_in (w : Fin cfg12.W) (hin : (cfg12.win w).isOut = false) :
    W22 m ρ c (Proc.devRef .tc (Pipeline.arrRef spec12 w)) = W21 m ρ c (Proc.devRef .tc (Pipeline.arrRef spec12 w)) :=
  (W22_arr m ρ c w).trans (((dat12 (V21 m ρ) c).arrAt_in w hin _).trans (A_eq12 (V21 m ρ) c w))

/-! ## The steps, one by one: a reference the step does not write reads the same before and after -/

theorem W1_of (r : Ref sig .tc) (h : r ∉ ops0_W) : W1 m ρ c (Proc.devRef .tc r) = W0 m ρ c (Proc.devRef .tc r) :=
  StableHlo.after_of_writes_sub hostOps0 _ ops0_writes h
theorem W2_of (r : Ref sig .tc) (h : r ∉ ops0_1_W) : W2 m ρ c (Proc.devRef .tc r) = W1 m ρ c (Proc.devRef .tc r) :=
  StableHlo.after_of_writes_sub hostOps0_1 _ ops0_1_writes h
theorem W3_of (r : Ref sig .tc) (h : r ≠ main_v5) : W3 m ρ c (Proc.devRef .tc r) = W2 m ρ c (Proc.devRef .tc r) := by
  by_cases hr : ∃ w, Pipeline.arrRef spec0 w = r
  · obtain ⟨w, rfl⟩ := hr
    exact W3_in m ρ c w (by revert w; decide)
  · exact W3_of_ne m ρ c r fun w e => hr ⟨w, e⟩
theorem W4_of (r : Ref sig .tc) (h : r ∉ ops1_W) : W4 m ρ c (Proc.devRef .tc r) = W3 m ρ c (Proc.devRef .tc r) :=
  StableHlo.after_of_writes_sub hostOps1 _ ops1_writes h
theorem W5_of (r : Ref sig .tc) (h : r ≠ main_v9) : W5 m ρ c (Proc.devRef .tc r) = W4 m ρ c (Proc.devRef .tc r) := by
  by_cases hr : ∃ w, Pipeline.arrRef spec1 w = r
  · obtain ⟨w, rfl⟩ := hr
    exact W5_in m ρ c w (by revert w; decide)
  · exact W5_of_ne m ρ c r fun w e => hr ⟨w, e⟩
theorem W6_of (r : Ref sig .tc) (h : r ∉ ops2_W) : W6 m ρ c (Proc.devRef .tc r) = W5 m ρ c (Proc.devRef .tc r) :=
  StableHlo.after_of_writes_sub hostOps2 _ ops2_writes h
theorem W7_of (r : Ref sig .tc) (h : r ≠ main_v11) : W7 m ρ c (Proc.devRef .tc r) = W6 m ρ c (Proc.devRef .tc r) := by
  by_cases hr : ∃ w, Pipeline.arrRef spec2 w = r
  · obtain ⟨w, rfl⟩ := hr
    exact W7_in m ρ c w (by revert w; decide)
  · exact W7_of_ne m ρ c r fun w e => hr ⟨w, e⟩
theorem W8_of (r : Ref sig .tc) (h : r ∉ ops3_W) : W8 m ρ c (Proc.devRef .tc r) = W7 m ρ c (Proc.devRef .tc r) :=
  StableHlo.after_of_writes_sub hostOps3 _ ops3_writes h
theorem W9_of (r : Ref sig .tc) (h : r ≠ main_v15) : W9 m ρ c (Proc.devRef .tc r) = W8 m ρ c (Proc.devRef .tc r) := by
  by_cases hr : ∃ w, Pipeline.arrRef spec3 w = r
  · obtain ⟨w, rfl⟩ := hr
    exact W9_in m ρ c w (by revert w; decide)
  · exact W9_of_ne m ρ c r fun w e => hr ⟨w, e⟩
theorem W10_of (r : Ref sig .tc) (h : r ∉ ops4_W) : W10 m ρ c (Proc.devRef .tc r) = W9 m ρ c (Proc.devRef .tc r) :=
  StableHlo.after_of_writes_sub hostOps4 _ ops4_writes h
theorem W11_of (r : Ref sig .tc) (h : r ≠ main_v17) : W11 m ρ c (Proc.devRef .tc r) = W10 m ρ c (Proc.devRef .tc r) := by
  by_cases hr : ∃ w, Pipeline.arrRef spec4 w = r
  · obtain ⟨w, rfl⟩ := hr
    exact W11_in m ρ c w (by revert w; decide)
  · exact W11_of_ne m ρ c r fun w e => hr ⟨w, e⟩
theorem W12_of (r : Ref sig .tc) (h : r ∉ ops5_W) : W12 m ρ c (Proc.devRef .tc r) = W11 m ρ c (Proc.devRef .tc r) :=
  StableHlo.after_of_writes_sub hostOps5 _ ops5_writes h
theorem W13_of (r : Ref sig .tc) (h : r ≠ main_v21) : W13 m ρ c (Proc.devRef .tc r) = W12 m ρ c (Proc.devRef .tc r) := by
  by_cases hr : ∃ w, Pipeline.arrRef spec5 w = r
  · obtain ⟨w, rfl⟩ := hr
    exact W13_in m ρ c w (by revert w; decide)
  · exact W13_of_ne m ρ c r fun w e => hr ⟨w, e⟩
theorem W14_of (r : Ref sig .tc) (h : r ∉ ops6_W) : W14 m ρ c (Proc.devRef .tc r) = W13 m ρ c (Proc.devRef .tc r) :=
  StableHlo.after_of_writes_sub hostOps6 _ ops6_writes h
theorem W15_of (r : Ref sig .tc) (h : r ≠ main_v25) : W15 m ρ c (Proc.devRef .tc r) = W14 m ρ c (Proc.devRef .tc r) := by
  by_cases hr : ∃ w, Pipeline.arrRef spec6 w = r
  · obtain ⟨w, rfl⟩ := hr
    exact W15_in m ρ c w (by revert w; decide)
  · exact W15_of_ne m ρ c r fun w e => hr ⟨w, e⟩
theorem W16_of (r : Ref sig .tc) (h : r ≠ main_v26) : W16 m ρ c (Proc.devRef .tc r) = W15 m ρ c (Proc.devRef .tc r) := by
  by_cases hr : ∃ w, Pipeline.arrRef spec7 w = r
  · obtain ⟨w, rfl⟩ := hr
    exact W16_in m ρ c w (by revert w; decide)
  · exact W16_of_ne m ρ c r fun w e => hr ⟨w, e⟩
theorem W17_of (r : Ref sig .tc) (h : r ≠ main_v27) : W17 m ρ c (Proc.devRef .tc r) = W16 m ρ c (Proc.devRef .tc r) := by
  by_cases hr : ∃ w, Pipeline.arrRef spec8 w = r
  · obtain ⟨w, rfl⟩ := hr
    exact W17_in m ρ c w (by revert w; decide)
  · exact W17_of_ne m ρ c r fun w e => hr ⟨w, e⟩
theorem W18_of (r : Ref sig .tc) (h : r ∉ ops9_W) : W18 m ρ c (Proc.devRef .tc r) = W17 m ρ c (Proc.devRef .tc r) :=
  StableHlo.after_of_writes_sub hostOps9 _ ops9_writes h
theorem W19_of (r : Ref sig .tc) (h : r ≠ main_v29) : W19 m ρ c (Proc.devRef .tc r) = W18 m ρ c (Proc.devRef .tc r) := by
  by_cases hr : ∃ w, Pipeline.arrRef spec9 w = r
  · obtain ⟨w, rfl⟩ := hr
    exact W19_in m ρ c w (by revert w; decide)
  · exact W19_of_ne m ρ c r fun w e => hr ⟨w, e⟩
theorem W20_of (r : Ref sig .tc) (h : r ≠ main_v30) : W20 m ρ c (Proc.devRef .tc r) = W19 m ρ c (Proc.devRef .tc r) := by
  by_cases hr : ∃ w, Pipeline.arrRef spec10 w = r
  · obtain ⟨w, rfl⟩ := hr
    exact W20_in m ρ c w (by revert w; decide)
  · exact W20_of_ne m ρ c r fun w e => hr ⟨w, e⟩
theorem W21_of (r : Ref sig .tc) (h : r ≠ main_v31) : W21 m ρ c (Proc.devRef .tc r) = W20 m ρ c (Proc.devRef .tc r) := by
  by_cases hr : ∃ w, Pipeline.arrRef spec11 w = r
  · obtain ⟨w, rfl⟩ := hr
    exact W21_in m ρ c w (by revert w; decide)
  · exact W21_of_ne m ρ c r fun w e => hr ⟨w, e⟩
theorem W22_of (r : Ref sig .tc) (h : r ≠ main_v32) : W22 m ρ c (Proc.devRef .tc r) = W21 m ρ c (Proc.devRef .tc r) := by
  by_cases hr : ∃ w, Pipeline.arrRef spec12 w = r
  · obtain ⟨w, rfl⟩ := hr
    exact W22_in m ρ c w (by revert w; decide)
  · exact W22_of_ne m ρ c r fun w e => hr ⟨w, e⟩

/-! ## The argument arrays hold their launch contents at every boundary

The argument arrays are the first 49 of the device's buffers; every result of a host operation and every region's
output array comes after them. So no step writes an argument array. -/

theorem not_mem_of_idx_lt {W : List (Ref sig .tc)} (hW : ∀ x ∈ W, 49 ≤ x.idx.val) {r : Ref sig .tc} (h : r.idx.val < 49) :
    r ∉ W := fun hm => absurd h (Nat.not_lt.mpr (hW r hm))
theorem ne_of_idx_lt {y : Ref sig .tc} (hy : 49 ≤ y.idx.val) {r : Ref sig .tc} (h : r.idx.val < 49) : r ≠ y :=
  fun e => absurd (e ▸ h) (Nat.not_lt.mpr hy)

theorem arg_W0 (r : Ref sig .tc) : W0 m ρ c (Proc.devRef .tc r) = m ((c.tc : Thread nD τ).loc r) := rfl
theorem arg_W1 (r : Ref sig .tc) (h : r.idx.val < 49) : W1 m ρ c (Proc.devRef .tc r) = m ((c.tc : Thread nD τ).loc r) :=
  (W1_of m ρ c r (not_mem_of_idx_lt (by decide) h)).trans (arg_W0 m ρ c r)
theorem arg_W2 (r : Ref sig .tc) (h : r.idx.val < 49) : W2 m ρ c (Proc.devRef .tc r) = m ((c.tc : Thread nD τ).loc r) :=
  (W2_of m ρ c r (not_mem_of_idx_lt (by decide) h)).trans (arg_W1 m ρ c r h)
theorem arg_W3 (r : Ref sig .tc) (h : r.idx.val < 49) : W3 m ρ c (Proc.devRef .tc r) = m ((c.tc : Thread nD τ).loc r) :=
  (W3_of m ρ c r (ne_of_idx_lt (by decide) h)).trans (arg_W2 m ρ c r h)
theorem arg_W4 (r : Ref sig .tc) (h : r.idx.val < 49) : W4 m ρ c (Proc.devRef .tc r) = m ((c.tc : Thread nD τ).loc r) :=
  (W4_of m ρ c r (not_mem_of_idx_lt (by decide) h)).trans (arg_W3 m ρ c r h)
theorem arg_W5 (r : Ref sig .tc) (h : r.idx.val < 49) : W5 m ρ c (Proc.devRef .tc r) = m ((c.tc : Thread nD τ).loc r) :=
  (W5_of m ρ c r (ne_of_idx_lt (by decide) h)).trans (arg_W4 m ρ c r h)
theorem arg_W6 (r : Ref sig .tc) (h : r.idx.val < 49) : W6 m ρ c (Proc.devRef .tc r) = m ((c.tc : Thread nD τ).loc r) :=
  (W6_of m ρ c r (not_mem_of_idx_lt (by decide) h)).trans (arg_W5 m ρ c r h)
theorem arg_W7 (r : Ref sig .tc) (h : r.idx.val < 49) : W7 m ρ c (Proc.devRef .tc r) = m ((c.tc : Thread nD τ).loc r) :=
  (W7_of m ρ c r (ne_of_idx_lt (by decide) h)).trans (arg_W6 m ρ c r h)
theorem arg_W8 (r : Ref sig .tc) (h : r.idx.val < 49) : W8 m ρ c (Proc.devRef .tc r) = m ((c.tc : Thread nD τ).loc r) :=
  (W8_of m ρ c r (not_mem_of_idx_lt (by decide) h)).trans (arg_W7 m ρ c r h)
theorem arg_W9 (r : Ref sig .tc) (h : r.idx.val < 49) : W9 m ρ c (Proc.devRef .tc r) = m ((c.tc : Thread nD τ).loc r) :=
  (W9_of m ρ c r (ne_of_idx_lt (by decide) h)).trans (arg_W8 m ρ c r h)
theorem arg_W10 (r : Ref sig .tc) (h : r.idx.val < 49) : W10 m ρ c (Proc.devRef .tc r) = m ((c.tc : Thread nD τ).loc r) :=
  (W10_of m ρ c r (not_mem_of_idx_lt (by decide) h)).trans (arg_W9 m ρ c r h)
theorem arg_W11 (r : Ref sig .tc) (h : r.idx.val < 49) : W11 m ρ c (Proc.devRef .tc r) = m ((c.tc : Thread nD τ).loc r) :=
  (W11_of m ρ c r (ne_of_idx_lt (by decide) h)).trans (arg_W10 m ρ c r h)
theorem arg_W12 (r : Ref sig .tc) (h : r.idx.val < 49) : W12 m ρ c (Proc.devRef .tc r) = m ((c.tc : Thread nD τ).loc r) :=
  (W12_of m ρ c r (not_mem_of_idx_lt (by decide) h)).trans (arg_W11 m ρ c r h)
theorem arg_W13 (r : Ref sig .tc) (h : r.idx.val < 49) : W13 m ρ c (Proc.devRef .tc r) = m ((c.tc : Thread nD τ).loc r) :=
  (W13_of m ρ c r (ne_of_idx_lt (by decide) h)).trans (arg_W12 m ρ c r h)
theorem arg_W14 (r : Ref sig .tc) (h : r.idx.val < 49) : W14 m ρ c (Proc.devRef .tc r) = m ((c.tc : Thread nD τ).loc r) :=
  (W14_of m ρ c r (not_mem_of_idx_lt (by decide) h)).trans (arg_W13 m ρ c r h)
theorem arg_W15 (r : Ref sig .tc) (h : r.idx.val < 49) : W15 m ρ c (Proc.devRef .tc r) = m ((c.tc : Thread nD τ).loc r) :=
  (W15_of m ρ c r (ne_of_idx_lt (by decide) h)).trans (arg_W14 m ρ c r h)
theorem arg_W16 (r : Ref sig .tc) (h : r.idx.val < 49) : W16 m ρ c (Proc.devRef .tc r) = m ((c.tc : Thread nD τ).loc r) :=
  (W16_of m ρ c r (ne_of_idx_lt (by decide) h)).trans (arg_W15 m ρ c r h)
theorem arg_W17 (r : Ref sig .tc) (h : r.idx.val < 49) : W17 m ρ c (Proc.devRef .tc r) = m ((c.tc : Thread nD τ).loc r) :=
  (W17_of m ρ c r (ne_of_idx_lt (by decide) h)).trans (arg_W16 m ρ c r h)
theorem arg_W18 (r : Ref sig .tc) (h : r.idx.val < 49) : W18 m ρ c (Proc.devRef .tc r) = m ((c.tc : Thread nD τ).loc r) :=
  (W18_of m ρ c r (not_mem_of_idx_lt (by decide) h)).trans (arg_W17 m ρ c r h)
theorem arg_W19 (r : Ref sig .tc) (h : r.idx.val < 49) : W19 m ρ c (Proc.devRef .tc r) = m ((c.tc : Thread nD τ).loc r) :=
  (W19_of m ρ c r (ne_of_idx_lt (by decide) h)).trans (arg_W18 m ρ c r h)
theorem arg_W20 (r : Ref sig .tc) (h : r.idx.val < 49) : W20 m ρ c (Proc.devRef .tc r) = m ((c.tc : Thread nD τ).loc r) :=
  (W20_of m ρ c r (ne_of_idx_lt (by decide) h)).trans (arg_W19 m ρ c r h)
theorem arg_W21 (r : Ref sig .tc) (h : r.idx.val < 49) : W21 m ρ c (Proc.devRef .tc r) = m ((c.tc : Thread nD τ).loc r) :=
  (W21_of m ρ c r (ne_of_idx_lt (by decide) h)).trans (arg_W20 m ρ c r h)

end Cert.KernelIdeal.Walk

end
-- ==== Proof.Spec.lean ====
/-
  The layers of the network as functions of whole arrays over the extended reals, index by index.

  A node or graph feature table is a rectangle [rows, features]; a weight matrix is stored [out, in], so a linear
  layer is  (x · wᵀ + b)(p, q) = Σ_k x(p, k) · w(q, k) + b(q).

  * an edge message:      relu(h_src + (edge_attr · ewᵀ + eb))
  * a node update:        batch-norm(relu(relu((h + agg) · w1ᵀ + b1) · w2ᵀ + b2)), the batch norm with running
                          statistics:  ((z − mean) · rsqrt(var + ε)) · gamma + beta
  * a dense layer with a relu, and the last dense layer with the logistic function 1 / (1 + e^(−y)).

  Both programs compute exactly these, in this order of operations; sums over the contracted axis are finite sums in
  the commutative monoid of the extended reals, so how either program schedules them does not matter.
-/
import Idealize.ShloMosaic.PureOps.Ideal
import Idealize.ShloMosaic.Lib.ValueIdx

noncomputable section

namespace Cert.Spec

open Idealize.ShloMosaic Idealize.ShloMosaic.ValueIdx

/-- The f32 word of the batch norm's ε (the same word in both programs: it is never evaluated). -/
abbrev eps : EReal := Ideal.ofBits .f32 0x3727C5AC#32

/-- A linear layer with the weight stored [out, in]: Σ_k x(p, k) · w(q, k) + b(q). -/
def lin {M K N : Nat} (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => (∑ k : Fin K, x (ix2 (i 0) k) * w (ix2 (i 1) k)) + b (ix1 (i 1))

/-- The message of edge `e`: relu of the source node's row plus the edge's linear features. -/
def edgeMsg {E K C : Nat} (ea : (⟨2, ![E, K]⟩ : Shape).Idx → EReal) (ew : (⟨2, ![C, K]⟩ : Shape).Idx → EReal)
    (eb : (⟨1, ![C]⟩ : Shape).Idx → EReal) (hs : (⟨2, ![E, C]⟩ : Shape).Idx → EReal) : (⟨2, ![E, C]⟩ : Shape).Idx → EReal :=
  fun i => max (hs i + lin ea ew eb i) 0

/-- The node update: two dense layers with relus on the node's row plus its aggregated messages, then the batch
    norm with running statistics. -/
def nodeMlp {N Ci Ch Co : Nat} (h agg : (⟨2, ![N, Ci]⟩ : Shape).Idx → EReal)
    (w1 : (⟨2, ![Ch, Ci]⟩ : Shape).Idx → EReal) (b1 : (⟨1, ![Ch]⟩ : Shape).Idx → EReal)
    (w2 : (⟨2, ![Co, Ch]⟩ : Shape).Idx → EReal) (b2 : (⟨1, ![Co]⟩ : Shape).Idx → EReal)
    (bg bb bm bv : (⟨1, ![Co]⟩ : Shape).Idx → EReal) : (⟨2, ![N, Co]⟩ : Shape).Idx → EReal :=
  fun i =>
    ((max (lin (fun j => max (lin (fun l => h l + agg l) w1 b1 j) 0) w2 b2 i) 0 - bm (ix1 (i 1)))
        * Ideal.rsqrt (bv (ix1 (i 1)) + eps)) * bg (ix1 (i 1)) + bb (ix1 (i 1))

/-- A dense layer with a relu. -/
def linRelu {M K N : Nat} (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => max (lin x w b i) 0

/-- The last dense layer, with the logistic function. -/
def linSigmoid {M K N : Nat} (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => Ideal.logistic (lin x w b i)

end Cert.Spec

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.LibDense.lean ====
/-
  A dense layer, a relu and the logistic function as each program spells them, read as whole arrays.

  The host spells  x · wᵀ + b  as a `dot_general` with the transposed weight plus the bias laid along the rows by two
  `broadcast_in_dim`s; a kernel spells it, on a block of rows, as a `tpu.matmul` of the operands cast to bf16 (the
  cast is the identity on the extended reals) into the zero accumulator plus the bias recast as a one-row matrix and
  broadcast. Both are `Spec.lin`. A relu is a maximum with a zero splat; the host's logistic is  1 / (1 + e^(−y)).
-/
import proofs.«423804_j46926812676623_1_alg».proof.Proof.Spec
import proofs.«423804_j46926812676623_1_alg».proof.Proof.LibPlainDot
import Idealize.ShloMosaic.Lib.IdealHost

noncomputable section

namespace Cert.LibDense

open Idealize.ShloMosaic Idealize.ShloMosaic.ValueIdx Cert.LibPlainDot

variable {M K N : Nat}

/-- The host's dense layer is `Spec.lin`. -/
theorem host_lin (x : FVec Ideal ⟨2, ![M, K]⟩ .f32) (w : FVec Ideal ⟨2, ![N, K]⟩ .f32) (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (DotDims.plain M K N) none x (transpose ⟨2, ![K, N]⟩ [1, 0] w hT))
        (broadcastInDim ⟨2, ![M, N]⟩ ![0, 1] h2 (broadcastInDim ⟨2, ![1, N]⟩ ![1] h1 b))
      = Cert.Spec.lin x w b := by
  funext i
  obtain ⟨p, q, rfl⟩ : ∃ (p : Fin M) (q : Fin N), i = ix2 p q := ⟨i 0, i 1, eq_ix2 i⟩
  show FloatOps.dotGeneral (DotDims.plain M K N) none .single x (transpose ⟨2, ![K, N]⟩ [1, 0] w hT) (ix2 p q)
      + broadcastInDim ⟨2, ![M, N]⟩ ![0, 1] h2 (broadcastInDim ⟨2, ![1, N]⟩ ![1] h1 b) (ix2 p q) = _
  rw [dotGeneral_plain, rowBroadcastInDim_apply]
  show (∑ k : Fin K, x (ix2 p k) * transpose ⟨2, ![K, N]⟩ [1, 0] w hT (ix2 k q)) + b (ix1 q)
      = (∑ k : Fin K, x (ix2 p k) * w (ix2 q k)) + b (ix1 q)
  refine congrArg (· + b (ix1 q)) (Finset.sum_congr rfl fun k _ => ?_)
  exact congrArg (x (ix2 p k) * ·) (transpose2_apply w hT k q)

/-- A kernel's dense layer on a block of rows is `Spec.lin` of the block. -/
theorem kernel_lin (x : FVec Ideal ⟨2, ![M, K]⟩ .f32) (w : FVec Ideal ⟨2, ![N, K]⟩ .f32) (b : FVec Ideal ⟨1, ![N]⟩ .f32)
    (hx : FTy.bf16.bits < FTy.f32.bits) (hw : FTy.bf16.bits < FTy.f32.bits)
    (hT : (⟨2, ![N, K]⟩ : Shape).Transposes [1, 0] ⟨2, ![K, N]⟩)
    (h1 : (⟨1, ![N]⟩ : Shape).ShapeCasts ⟨2, ![1, N]⟩) (h2 : (⟨2, ![1, N]⟩ : Shape).Broadcasts ⟨2, ![M, N]⟩) :
    addf (matmul (DotDims.plain M K N) none (truncf .bf16 x hx) (transpose ⟨2, ![K, N]⟩ [1, 0] (truncf .bf16 w hw) hT)
          (constant ⟨2, ![M, N]⟩ .f32 0x00000000#32))
        (broadcastTo ⟨2, ![M, N]⟩ (shapeCast ⟨2, ![1, N]⟩ b h1) h2)
      = Cert.Spec.lin x w b := by
  funext i
  obtain ⟨p, q, rfl⟩ : ∃ (p : Fin M) (q : Fin N), i = ix2 p q := ⟨i 0, i 1, eq_ix2 i⟩
  show FloatOps.matmul (DotDims.plain M K N) none (truncf .bf16 x hx) (transpose ⟨2, ![K, N]⟩ [1, 0] (truncf .bf16 w hw) hT)
        (constant ⟨2, ![M, N]⟩ .f32 0x00000000#32) (ix2 p q)
      + broadcastTo ⟨2, ![M, N]⟩ (shapeCast ⟨2, ![1, N]⟩ b h1) h2 (ix2 p q) = _
  rw [matmul_plain_zero, rowBroadcastTo_apply]
  show (∑ k : Fin K, truncf .bf16 x hx (ix2 p k) * transpose ⟨2, ![K, N]⟩ [1, 0] (truncf .bf16 w hw) hT (ix2 k q)) + b (ix1 q)
      = (∑ k : Fin K, x (ix2 p k) * w (ix2 q k)) + b (ix1 q)
  refine congrArg (· + b (ix1 q)) (Finset.sum_congr rfl fun k _ => ?_)
  exact congrArg (x (ix2 p k) * ·) (transpose2_apply (truncf .bf16 w hw) hT k q)

variable {s : Shape}

/-- The host's relu: a maximum with the broadcast zero constant. -/
theorem host_relu (y : FVec Ideal s .f32) (h : (⟨0, ![]⟩ : Shape).BroadcastsInDim s ![]) :
    maximumf y (broadcastInDim s ![] h (constant ⟨0, ![]⟩ .f32 0x00000000#32)) = fun i => max (y i) 0 := by
  funext i
  show max (y i) (Ideal.ofBits .f32 0x00000000#32) = _
  rw [Ideal.ofBits_zero_f32]

/-- A kernel's relu: a maximum with the zero splat. -/
theorem kernel_relu (y : FVec Ideal s .f32) :
    maximumf y (broadcast s (Scalar.ofBits (F := Ideal) .f32 0x00000000#32)) = fun i => max (y i) 0 := by
  funext i
  show max (y i) (Ideal.ofBits .f32 0x00000000#32) = _
  rw [Ideal.ofBits_zero_f32]

/-- The host's logistic function, spelt with negate, exponential, add and divide, is the logistic function. -/
theorem host_logistic (y : FVec Ideal s .f32) (h : (⟨0, ![]⟩ : Shape).BroadcastsInDim s ![]) :
    Host.divf (broadcastInDim s ![] h (constant ⟨0, ![]⟩ .f32 0x3F800000#32))
        (addf (broadcastInDim s ![] h (constant ⟨0, ![]⟩ .f32 0x3F800000#32)) (Host.exp (Host.negf y)))
      = fun i => Ideal.logistic (y i) := by
  funext i
  show Ideal.div (Ideal.ofBits .f32 0x3F800000#32) (Ideal.ofBits .f32 0x3F800000#32 + Ideal.exp (-(y i))) = _
  rw [Ideal.ofBits_one_f32]
  rfl

/-! ## The layers as the host spells them -/

section HostLayers

variable {M K N : Nat}

/-- The host's batch norm with running statistics, each statistic a row laid along the rows. -/
theorem host_bn (z : FVec Ideal ⟨2, ![M, N]⟩ .f32) (bm bv bg bb : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨1, ![N]⟩ ![]) :
    addf (mulf (mulf (subf z (broadcastInDim ⟨2, ![M, N]⟩ ![0, 1] h2 (broadcastInDim ⟨2, ![1, N]⟩ ![1] h1 bm)))
            (broadcastInDim ⟨2, ![M, N]⟩ ![0, 1] h2 (broadcastInDim ⟨2, ![1, N]⟩ ![1] h1
              (Host.rsqrt (addf bv (broadcastInDim ⟨1, ![N]⟩ ![] h0 (constant ⟨0, ![]⟩ .f32 0x3727C5AC#32)))))))
          (broadcastInDim ⟨2, ![M, N]⟩ ![0, 1] h2 (broadcastInDim ⟨2, ![1, N]⟩ ![1] h1 bg)))
        (broadcastInDim ⟨2, ![M, N]⟩ ![0, 1] h2 (broadcastInDim ⟨2, ![1, N]⟩ ![1] h1 bb))
      = fun i => ((z i - bm (ix1 (i 1))) * Ideal.rsqrt (bv (ix1 (i 1)) + Cert.Spec.eps)) * bg (ix1 (i 1)) + bb (ix1 (i 1)) := by
  funext i
  obtain ⟨p, q, rfl⟩ : ∃ (p : Fin M) (q : Fin N), i = ix2 p q := ⟨i 0, i 1, eq_ix2 i⟩
  show ((z (ix2 p q) - broadcastInDim ⟨2, ![M, N]⟩ ![0, 1] h2 (broadcastInDim ⟨2, ![1, N]⟩ ![1] h1 bm) (ix2 p q))
        * broadcastInDim ⟨2, ![M, N]⟩ ![0, 1] h2 (broadcastInDim ⟨2, ![1, N]⟩ ![1] h1
            (Host.rsqrt (addf bv (broadcastInDim ⟨1, ![N]⟩ ![] h0 (constant ⟨0, ![]⟩ .f32 0x3727C5AC#32))))) (ix2 p q))
        * broadcastInDim ⟨2, ![M, N]⟩ ![0, 1] h2 (broadcastInDim ⟨2, ![1, N]⟩ ![1] h1 bg) (ix2 p q)
      + broadcastInDim ⟨2, ![M, N]⟩ ![0, 1] h2 (broadcastInDim ⟨2, ![1, N]⟩ ![1] h1 bb) (ix2 p q) = _
  rw [rowBroadcastInDim_apply bm h1 h2 p q, rowBroadcastInDim_apply bg h1 h2 p q, rowBroadcastInDim_apply bb h1 h2 p q,
    rowBroadcastInDim_apply (Host.rsqrt (addf bv (broadcastInDim ⟨1, ![N]⟩ ![] h0 (constant ⟨0, ![]⟩ .f32 0x3727C5AC#32)))) h1 h2 p q]
  rfl

/-- The host's edge message. -/
theorem host_edge (g : FVec Ideal ⟨2, ![M, N]⟩ .f32) (x : FVec Ideal ⟨2, ![M, K]⟩ .f32) (w : FVec Ideal ⟨2, ![N, K]⟩ .f32) (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (hz : (⟨0, ![]⟩ : Shape).BroadcastsInDim ⟨2, ![M, N]⟩ ![]) :
    maximumf (addf g (addf (Host.dotGeneral (DotDims.plain M K N) none x (transpose ⟨2, ![K, N]⟩ [1, 0] w hT))
        (broadcastInDim ⟨2, ![M, N]⟩ ![0, 1] h2 (broadcastInDim ⟨2, ![1, N]⟩ ![1] h1 b))))
      (broadcastInDim ⟨2, ![M, N]⟩ ![] hz (constant ⟨0, ![]⟩ .f32 0x00000000#32))
      = Cert.Spec.edgeMsg x w b g := by
  rw [host_lin, host_relu]
  rfl

/-- The host's dense layer with a relu. -/
theorem host_linRelu (x : FVec Ideal ⟨2, ![M, K]⟩ .f32) (w : FVec Ideal ⟨2, ![N, K]⟩ .f32) (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (hz : (⟨0, ![]⟩ : Shape).BroadcastsInDim ⟨2, ![M, N]⟩ ![]) :
    maximumf (addf (Host.dotGeneral (DotDims.plain M K N) none x (transpose ⟨2, ![K, N]⟩ [1, 0] w hT))
        (broadcastInDim ⟨2, ![M, N]⟩ ![0, 1] h2 (broadcastInDim ⟨2, ![1, N]⟩ ![1] h1 b)))
      (broadcastInDim ⟨2, ![M, N]⟩ ![] hz (constant ⟨0, ![]⟩ .f32 0x00000000#32))
      = Cert.Spec.linRelu x w b := by
  rw [host_lin, host_relu]
  rfl

/-- The host's last dense layer with the logistic function. -/
theorem host_linSigmoid (x : FVec Ideal ⟨2, ![M, K]⟩ .f32) (w : FVec Ideal ⟨2, ![N, K]⟩ .f32) (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (ho : (⟨0, ![]⟩ : Shape).BroadcastsInDim ⟨2, ![M, N]⟩ ![]) :
    Host.divf (broadcastInDim ⟨2, ![M, N]⟩ ![] ho (constant ⟨0, ![]⟩ .f32 0x3F800000#32))
      (addf (broadcastInDim ⟨2, ![M, N]⟩ ![] ho (constant ⟨0, ![]⟩ .f32 0x3F800000#32))
        (Host.exp (Host.negf (addf (Host.dotGeneral (DotDims.plain M K N) none x (transpose ⟨2, ![K, N]⟩ [1, 0] w hT))
          (broadcastInDim ⟨2, ![M, N]⟩ ![0, 1] h2 (broadcastInDim ⟨2, ![1, N]⟩ ![1] h1 b))))))
      = Cert.Spec.linSigmoid x w b := by
  rw [host_lin, host_logistic]
  rfl

variable {Ci Ch Co : Nat}

/-- The host's node update. -/
theorem host_node (h agg : FVec Ideal ⟨2, ![M, Ci]⟩ .f32) (w1 : FVec Ideal ⟨2, ![Ch, Ci]⟩ .f32) (b1 : FVec Ideal ⟨1, ![Ch]⟩ .f32)
    (w2 : FVec Ideal ⟨2, ![Co, Ch]⟩ .f32) (b2 bg bb bm bv : FVec Ideal ⟨1, ![Co]⟩ .f32)
    (hT1 : (⟨2, ![Ch, Ci]⟩ : Shape).Transposes [1, 0] ⟨2, ![Ci, Ch]⟩)
    (h11 : (⟨1, ![Ch]⟩ : Shape).BroadcastsInDim ⟨2, ![1, Ch]⟩ ![1]) (h12 : (⟨2, ![1, Ch]⟩ : Shape).BroadcastsInDim ⟨2, ![M, Ch]⟩ ![0, 1])
    (hz1 : (⟨0, ![]⟩ : Shape).BroadcastsInDim ⟨2, ![M, Ch]⟩ ![])
    (hT2 : (⟨2, ![Co, Ch]⟩ : Shape).Transposes [1, 0] ⟨2, ![Ch, Co]⟩)
    (h21 : (⟨1, ![Co]⟩ : Shape).BroadcastsInDim ⟨2, ![1, Co]⟩ ![1]) (h22 : (⟨2, ![1, Co]⟩ : Shape).BroadcastsInDim ⟨2, ![M, Co]⟩ ![0, 1])
    (hz2 : (⟨0, ![]⟩ : Shape).BroadcastsInDim ⟨2, ![M, Co]⟩ ![])
    (h0 : (⟨0, ![]⟩ : Shape).BroadcastsInDim ⟨1, ![Co]⟩ ![]) :
    addf (mulf (mulf (subf
        (maximumf (addf (Host.dotGeneral (DotDims.plain M Ch Co) none
            (maximumf (addf (Host.dotGeneral (DotDims.plain M Ci Ch) none (addf h agg) (transpose ⟨2, ![Ci, Ch]⟩ [1, 0] w1 hT1))
                (broadcastInDim ⟨2, ![M, Ch]⟩ ![0, 1] h12 (broadcastInDim ⟨2, ![1, Ch]⟩ ![1] h11 b1)))
              (broadcastInDim ⟨2, ![M, Ch]⟩ ![] hz1 (constant ⟨0, ![]⟩ .f32 0x00000000#32)))
            (transpose ⟨2, ![Ch, Co]⟩ [1, 0] w2 hT2))
            (broadcastInDim ⟨2, ![M, Co]⟩ ![0, 1] h22 (broadcastInDim ⟨2, ![1, Co]⟩ ![1] h21 b2)))
          (broadcastInDim ⟨2, ![M, Co]⟩ ![] hz2 (constant ⟨0, ![]⟩ .f32 0x00000000#32)))
        (broadcastInDim ⟨2, ![M, Co]⟩ ![0, 1] h22 (broadcastInDim ⟨2, ![1, Co]⟩ ![1] h21 bm)))
        (broadcastInDim ⟨2, ![M, Co]⟩ ![0, 1] h22 (broadcastInDim ⟨2, ![1, Co]⟩ ![1] h21
          (Host.rsqrt (addf bv (broadcastInDim ⟨1, ![Co]⟩ ![] h0 (constant ⟨0, ![]⟩ .f32 0x3727C5AC#32)))))))
        (broadcastInDim ⟨2, ![M, Co]⟩ ![0, 1] h22 (broadcastInDim ⟨2, ![1, Co]⟩ ![1] h21 bg)))
      (broadcastInDim ⟨2, ![M, Co]⟩ ![0, 1] h22 (broadcastInDim ⟨2, ![1, Co]⟩ ![1] h21 bb))
      = Cert.Spec.nodeMlp h agg w1 b1 w2 b2 bg bb bm bv := by
  rw [host_bn, host_lin (M := M) (K := Ci) (N := Ch), host_relu, host_lin, host_relu]
  rfl

end HostLayers

end Cert.LibDense

end
-- ==== Proof.RegionEdge0.lean ====
/-
  The edge messages of the first graph convolution, read off the kernel's pipeline.

  The kernel walks the 131072 edges in 64 row blocks of 2048. At block t it holds rows 2048·t … 2048·t + 2047 of the edge
  features and of the gathered source rows, and the whole edge weight and bias, and stores
  relu(h_src + (edge_attr · ewᵀ + eb)) of those rows into the same rows of the result. The message of edge e reads only
  row e of the two row-blocked arrays, so what block t writes back is block t of the edge messages of the whole arrays;
  the 64 blocks tile the result, which therefore ends holding the edge messages.
-/
import proofs.«423804_j46926812676623_1_alg».proof.Proof.Gen.KernelIdeal.Frame
import proofs.«423804_j46926812676623_1_alg».proof.Proof.Spec
import proofs.«423804_j46926812676623_1_alg».proof.Proof.LibDense
import Idealize.ShloMosaic.Lib.Pipeline.Value

set_option maxRecDepth 16384

noncomputable section

namespace Cert.KernelIdeal.RegionVal

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The body's payload on a block of rows -/

/-- On a block of rows the body computes the edge messages of the block: a dense layer of the edge features (the
    casts to bf16 are the identity on the extended reals), added to the source rows, then a relu. -/
theorem edge0_pay (x0 : Vec Ideal S2048x10 .f32) (x1 : Vec Ideal S78x10 .f32) (x2 : Vec Ideal S78 .f32)
    (x3 : Vec Ideal S2048x78 .f32) : k0_pay1 x0 x1 x2 x3 = Cert.Spec.edgeMsg x0 x1 x2 x3 := by
  show maximumf (addf (shapeCast S2048x78 x3 shapeCasts_S2048x78_S2048x78)
        (addf (matmul dot_S2048x10_S10x78_S2048x78_1_0_0_1_n_n none (truncf .bf16 x0 bitsLt_bf16_f32)
            (transpose S10x78 [1, 0] (truncf .bf16 x1 bitsLt_bf16_f32) transposes_S78x10_p1_0_S10x78)
            (constant S2048x78 .f32 0x00000000#32))
          (broadcastTo S2048x78 (shapeCast S1x78 x2 shapeCasts_S78_S1x78) broadcasts_S1x78_S2048x78)))
      (broadcast S2048x78 (Scalar.ofBits (F := Ideal) .f32 0x00000000#32)) = _
  rw [show dot_S2048x10_S10x78_S2048x78_1_0_0_1_n_n = DotDims.plain 2048 10 78 from rfl]
  rw [Cert.LibDense.kernel_lin, shapeCast_self, Cert.LibDense.kernel_relu]
  rfl

/-- The edge message at row p of a block and at row P of the arrays agree once the block's rows are the arrays'
    rows there: the message reads one row of the edge features and of the source rows, and the whole weight and bias. -/
theorem edge0_rows {E R K C : Nat} (ea : (⟨2, ![E, K]⟩ : Shape).Idx → EReal) (ew : (⟨2, ![C, K]⟩ : Shape).Idx → EReal)
    (eb : (⟨1, ![C]⟩ : Shape).Idx → EReal) (hs : (⟨2, ![E, C]⟩ : Shape).Idx → EReal)
    (bea : (⟨2, ![R, K]⟩ : Shape).Idx → EReal) (bhs : (⟨2, ![R, C]⟩ : Shape).Idx → EReal)
    (p : Fin R) (P : Fin E) (q : Fin C)
    (hea : ∀ k : Fin K, bea (ix2 p k) = ea (ix2 P k)) (hhs : bhs (ix2 p q) = hs (ix2 P q)) :
    Cert.Spec.edgeMsg bea ew eb bhs (ix2 p q) = Cert.Spec.edgeMsg ea ew eb hs (ix2 P q) := by
  show max (bhs (ix2 p q) + ((∑ k : Fin K, bea (ix2 p k) * ew (ix2 q k)) + eb (ix1 q))) 0
      = max (hs (ix2 P q) + ((∑ k : Fin K, ea (ix2 P k) * ew (ix2 q k)) + eb (ix1 q))) 0
  rw [hhs]
  simp only [hea]

/-! ## The index maps -/

theorem edge0_z2 : (![0, 0] : Fin 2 → Nat) = fun _ => 0 := funext fun a => by fin_cases a <;> rfl
theorem edge0_z1 : (![0] : Fin 1 → Nat) = fun _ => 0 := funext fun a => by fin_cases a <;> rfl

/-- The printed index maps, decided over the grid: the edge features, the source rows and the result move together
    down the rows, one block a point; the weight and the bias stay at block 0. -/
theorem edge0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## The input blocks as rows of the arrays -/

/-- Row p of block t of the edge features is row 2048·t + p of the array. -/
theorem edge0_attr_blk (c : Dev nD) (t : Fin cfg0.N) (p : Fin 2048) (P : Fin 131072) (hP : P.val = t.val * 2048 + p.val)
    (k : Fin 10) :
    (iblk0 (F := Ideal) V c 0 t : Vec Ideal S2048x10 .f32) (ix2 p k) = (V c main_arg2 : S131072x10.Idx → EReal) (ix2 P k) := by
  obtain ⟨e00, e01, -⟩ := edge0_idx t
  show (V c main_arg2 : S131072x10.Idx → EReal) (((cfg0.win 0).blk t).view.emb (ix2 p k)) = _
  refine congrArg _ (funext fun a => Fin.ext ?_)
  match a with
  | ⟨0, _⟩ => show win0_0.index t (0 : Fin 2) * 2048 + 1 * p.val = P.val; omega
  | ⟨1, _⟩ => show win0_0.index t (1 : Fin 2) * 10 + 1 * k.val = k.val; omega

/-- Row p of block t of the source rows is row 2048·t + p of the array. -/
theorem edge0_src_blk (c : Dev nD) (t : Fin cfg0.N) (p : Fin 2048) (P : Fin 131072) (hP : P.val = t.val * 2048 + p.val)
    (q : Fin 78) :
    (iblk0 (F := Ideal) V c 3 t : Vec Ideal S2048x78 .f32) (ix2 p q) = (V c main_v4 : S131072x78.Idx → EReal) (ix2 P q) := by
  obtain ⟨-, -, -, -, -, e30, e31, -⟩ := edge0_idx t
  show (V c main_v4 : S131072x78.Idx → EReal) (((cfg0.win 3).blk t).view.emb (ix2 p q)) = _
  refine congrArg _ (funext fun a => Fin.ext ?_)
  match a with
  | ⟨0, _⟩ => show win0_3.index t (0 : Fin 2) * 2048 + 1 * p.val = P.val; omega
  | ⟨1, _⟩ => show win0_3.index t (1 : Fin 2) * 78 + 1 * q.val = q.val; omega

/-- The weight's one block is the weight. -/
theorem edge0_weight_blk (c : Dev nD) (t : Fin cfg0.N) :
    (iblk0 (F := Ideal) V c 1 t : Vec Ideal S78x10 .f32) = (V c main_arg5 : S78x10.Idx → EReal) := by
  obtain ⟨-, -, e10, e11, -⟩ := edge0_idx t
  funext y
  show (V c main_arg5 : S78x10.Idx → EReal) (((cfg0.win 1).blk t).view.emb y) = _
  refine congrArg _ (funext fun a => Fin.ext ?_)
  match a with
  | ⟨0, _⟩ => show win0_1.index t (0 : Fin 2) * 78 + 1 * (y 0).val = (y 0).val; omega
  | ⟨1, _⟩ => show win0_1.index t (1 : Fin 2) * 10 + 1 * (y 1).val = (y 1).val; omega

/-- The bias's one block is the bias. -/
theorem edge0_bias_blk (c : Dev nD) (t : Fin cfg0.N) :
    (iblk0 (F := Ideal) V c 2 t : Vec Ideal S78 .f32) = (V c main_arg6 : S78.Idx → EReal) := by
  obtain ⟨-, -, -, -, e20, -⟩ := edge0_idx t
  funext y
  show (V c main_arg6 : S78.Idx → EReal) (((cfg0.win 2).blk t).view.emb y) = _
  refine congrArg _ (funext fun a => Fin.ext ?_)
  match a with
  | ⟨0, _⟩ => show win0_2.index t (0 : Fin 1) * 78 + 1 * (y 0).val = (y 0).val; omega

/-! ## What a point writes back -/

/-- What point t writes back is block t of the edge messages of the four arrays as the region finds them. -/
theorem edge0_flushed (c : Dev nD) (t : Fin cfg0.N) :
    (dat0 (F := Ideal) V c).flushed 4 t
      = ((cfg0.win 4).blk t).view.read (Elt Ideal)
          (Cert.Spec.edgeMsg (V c main_arg2) (V c main_arg5) (V c main_arg6) (V c main_v4)) := by
  show (cfg0.win 4).cut (grid0.coords t) ((dat0 V c).after 4 t) = _
  rw [after0_4]
  unfold out0_4
  rw [View.canon_unit_zero edge0_z2]
  simp only [View.ld_unit_zero (S := S2048x10) edge0_z2, View.ld_unit_zero (S := S78x10) edge0_z2,
    View.ld_unit_zero (S := S78) edge0_z1, View.ld_unit_zero (S := S2048x78) edge0_z2]
  rw [edge0_pay, edge0_weight_blk V c t, edge0_bias_blk V c t]
  obtain ⟨-, -, -, -, -, -, -, e40, e41⟩ := edge0_idx t
  have hN : cfg0.N = 64 := N_0
  have ht : t.val < 64 := lt_of_lt_of_eq t.isLt hN
  funext j
  have hj0 : (j 0).val < 2048 := (j 0).isLt
  have hj1 : (j 1).val < 78 := (j 1).isLt
  obtain ⟨p, hp⟩ : ∃ p : Fin 2048, p.val = (j 0).val := ⟨⟨(j 0).val, hj0⟩, rfl⟩
  obtain ⟨q, hq⟩ : ∃ q : Fin 78, q.val = (j 1).val := ⟨⟨(j 1).val, hj1⟩, rfl⟩
  obtain ⟨P, hP⟩ : ∃ P : Fin 131072, P.val = t.val * 2048 + p.val := ⟨⟨t.val * 2048 + p.val, by omega⟩, rfl⟩
  have hjj : ((cfg0.win 4).xinj (grid0.coords t) j : S2048x78.Idx) = ix2 p q := by
    funext a; apply Fin.ext
    match a with
    | ⟨0, _⟩ => exact hp.symm
    | ⟨1, _⟩ => exact hq.symm
  have hii : (((cfg0.win 4).blk t).view.emb j : S131072x78.Idx) = ix2 P q := by
    funext a; apply Fin.ext
    match a with
    | ⟨0, _⟩ => show win0_4.index t (0 : Fin 2) * 2048 + 1 * (j 0).val = P.val; omega
    | ⟨1, _⟩ => show win0_4.index t (1 : Fin 2) * 78 + 1 * (j 1).val = q.val; omega
  show Cert.Spec.edgeMsg (E := 2048) (K := 10) (C := 78) (iblk0 V c 0 t) (V c main_arg5) (V c main_arg6) (iblk0 V c 3 t)
        ((cfg0.win 4).xinj (grid0.coords t) j)
      = Cert.Spec.edgeMsg (E := 131072) (K := 10) (C := 78) (V c main_arg2) (V c main_arg5) (V c main_arg6) (V c main_v4)
        (((cfg0.win 4).blk t).view.emb j)
  rw [hjj, hii]
  exact edge0_rows _ _ _ _ _ _ p P q (fun k => edge0_attr_blk V c t p P hP k) (edge0_src_blk V c t p P hP q)

/-! ## The blocks cover the array -/

/-- A row of the result is in point t's block iff it is one of the block's 2048 rows. -/
theorem edge0_mem_blk (t : Fin cfg0.N) (i : S131072x78.Idx) :
    i ∈ ((cfg0.win 4).blk t).view.set ↔ ∀ a : Fin 2, win0_4.index t a * S2048x78.size a ≤ (i a).val
      ∧ (i a).val < win0_4.index t a * S2048x78.size a + S2048x78.size a := by
  show i ∈ ((View.whole main_v5).slice (win0_4.rect t)).set ↔ _
  rw [View.set_slice_whole, Rect.mem_set_unit]
  exact Iff.rfl

/-- Row r of the result is written back by point r / 2048. -/
theorem edge0_cover (i : S131072x78.Idx) :
    ∃ t : Fin cfg0.N, (cfg0.win 4).flush t = true ∧ i ∈ ((cfg0.win 4).blk t).view.set := by
  have hi0 : (i 0).val < 131072 := (i 0).isLt
  have hi1 : (i 1).val < 78 := (i 1).isLt
  have hN : cfg0.N = 64 := N_0
  obtain ⟨t, ht⟩ : ∃ t : Fin cfg0.N, t.val = (i 0).val / 2048 :=
    ⟨⟨(i 0).val / 2048, lt_of_lt_of_eq (show (i 0).val / 2048 < 64 by omega) hN.symm⟩, rfl⟩
  obtain ⟨-, -, -, -, -, -, -, e40, e41⟩ := edge0_idx t
  refine ⟨t, flush0_4 t, ?_⟩
  rw [edge0_mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 78 ≤ (i 1).val ∧ (i 1).val < win0_4.index t (1 : Fin 2) * 78 + 78
    omega

/-! ## The array after the region -/

/-- The result array after the region holds the edge messages of the arrays the region finds. -/
theorem region0 (c : Dev nD) :
    (dat0 (F := Ideal) V c).arrAt 4 cfg0.N
      = Cert.Spec.edgeMsg (V c main_arg2) (V c main_arg5) (V c main_arg6) (V c main_v4) :=
  (dat0 (F := Ideal) V c).arrAt_eq_of_cover 4 _ (fun t _ => edge0_flushed V c t) (fun i => edge0_cover i)

end Cert.KernelIdeal.RegionVal

end
-- ==== Proof.RegionNodeLib.lean ====
/-
  The node update reads its node rows and its aggregated messages one row at a time: the value at (p, q) depends on
  row p of the two tables only (and on the weights, biases and statistics). So the update of a block of rows is the
  same block of the update of the whole tables.
-/
import proofs.«423804_j46926812676623_1_alg».proof.Proof.Spec

noncomputable section

namespace Cert.Spec

open Idealize.ShloMosaic Idealize.ShloMosaic.ValueIdx

/-- If row `p` of the blocks `x`, `xa` is row `r p` of the tables `h`, `agg`, the node update of the blocks at (p, q) is the
    node update of the tables at (r p, q). -/
theorem nodeMlp_rows {N M Ci Ch Co : Nat} (h agg : (⟨2, ![N, Ci]⟩ : Shape).Idx → EReal)
    (x xa : (⟨2, ![M, Ci]⟩ : Shape).Idx → EReal)
    (w1 : (⟨2, ![Ch, Ci]⟩ : Shape).Idx → EReal) (b1 : (⟨1, ![Ch]⟩ : Shape).Idx → EReal)
    (w2 : (⟨2, ![Co, Ch]⟩ : Shape).Idx → EReal) (b2 : (⟨1, ![Co]⟩ : Shape).Idx → EReal)
    (bg bb bm bv : (⟨1, ![Co]⟩ : Shape).Idx → EReal) (r : Fin M → Fin N)
    (hx : ∀ (p : Fin M) (k : Fin Ci), x (ix2 p k) = h (ix2 (r p) k))
    (hxa : ∀ (p : Fin M) (k : Fin Ci), xa (ix2 p k) = agg (ix2 (r p) k)) (p : Fin M) (q : Fin Co) :
    nodeMlp x xa w1 b1 w2 b2 bg bb bm bv (ix2 p q) = nodeMlp h agg w1 b1 w2 b2 bg bb bm bv (ix2 (r p) q) := by
  show ((max ((∑ k : Fin Ch, max ((∑ l : Fin Ci, (x (ix2 p l) + xa (ix2 p l)) * w1 (ix2 k l)) + b1 (ix1 k)) 0
            * w2 (ix2 q k)) + b2 (ix1 q)) 0 - bm (ix1 q)) * Ideal.rsqrt (bv (ix1 q) + eps)) * bg (ix1 q) + bb (ix1 q)
      = ((max ((∑ k : Fin Ch, max ((∑ l : Fin Ci, (h (ix2 (r p) l) + agg (ix2 (r p) l)) * w1 (ix2 k l)) + b1 (ix1 k)) 0
            * w2 (ix2 q k)) + b2 (ix1 q)) 0 - bm (ix1 q)) * Ideal.rsqrt (bv (ix1 q) + eps)) * bg (ix1 q) + bb (ix1 q)
  simp only [hx, hxa]

end Cert.Spec

end
-- ==== Proof.RegionNode1Pay.lean ====
/-
  The first node update's kernel body on one block of 1024 rows: what it stores, as a function of the ten blocks it loads.

  The body adds the aggregated messages to the node rows (78 features), applies two dense layers (78 → 256 → 512, weights
  stored [out, in]) each followed by a relu, and then the batch norm with running statistics,
  ((z − mean) · rsqrt(var + ε)) · gamma + beta, the four statistics rows laid along the block's rows. Index by index this
  is the node update of the specification, read on the block.
-/
import proofs.«423804_j46926812676623_1_alg».proof.Proof.Gen.KernelIdeal.Skeleton
import proofs.«423804_j46926812676623_1_alg».proof.Proof.LibDense

set_option maxRecDepth 16384

noncomputable section

namespace Cert.KernelIdeal.RegionVal

open Idealize.ShloMosaic Idealize.ShloMosaic.ValueIdx
open Cert.KernelIdeal Cert.KernelIdeal.Gen

/-- The stored value of the first node update's body, from the blocks of the node rows `x0`, the aggregated messages
    `x1`, the two layers' weights and biases `x2 x3 x4 x5` and the batch norm's gamma, beta, mean and variance
    `x6 x7 x8 x9`, is the node update of those blocks. -/
theorem payload_n1 (x0 x1 : Vec Ideal S1024x78 .f32) (x2 : Vec Ideal S256x78 .f32) (x3 : Vec Ideal S256 .f32)
    (x4 : Vec Ideal S512x256 .f32) (x5 x6 x7 x8 x9 : Vec Ideal S512 .f32) :
    k1_pay1 (k1_pay2 x0 x1 x2 x3 x4 x5 x9 x8 x6) x7
      = Cert.Spec.nodeMlp x0 x1 x2 x3 x4 x5 x6 x7 x8 x9 := by
  unfold k1_pay1 k1_pay2
  dsimp only
  -- the two matrix products have plain dimension numbers; the cast of the messages' block to its own shape is the identity
  rw [show dot_S1024x78_S78x256_S1024x256_1_0_0_1_n_n = DotDims.plain 1024 78 256 from rfl,
    show dot_S1024x256_S256x512_S1024x512_1_0_0_1_n_n = DotDims.plain 1024 256 512 from rfl,
    shapeCast_self x1]
  -- each dense layer is the specification's linear layer, each maximum with the zero splat a relu
  rw [Cert.LibDense.kernel_lin, Cert.LibDense.kernel_relu, Cert.LibDense.kernel_lin, Cert.LibDense.kernel_relu]
  funext i
  obtain ⟨p, q, rfl⟩ : ∃ (p : Fin 1024) (q : Fin 512), i = ix2 p q := ⟨i 0, i 1, eq_ix2 i⟩
  -- the batch norm at (p, q): each statistics row, laid along the rows, reads at q
  simp only [addf_apply, mulf_apply, subf_apply]
  rw [Cert.LibPlainDot.rowBroadcastTo_apply, Cert.LibPlainDot.rowBroadcastTo_apply,
    Cert.LibPlainDot.rowBroadcastTo_apply, Cert.LibPlainDot.rowBroadcastTo_apply]
  rfl

end Cert.KernelIdeal.RegionVal

end
-- ==== Proof.RegionNode1.lean ====
/-
  The first node-update region: the array its 64 points write back is the node update of the region's ten arrays.

  Each point t works on rows 1024·t … 1024·t + 1023: it loads that block of the node rows (78 features) and of the
  aggregated messages, and the two layers' weights and biases (78 → 256 → 512) and the batch norm's four statistics rows
  whole; what its body stores is the node update of those blocks, and the node update at (p, q) reads only row p of the
  two tables, so the stored block is block t of the node update of the whole arrays. The 64 row blocks cover the 65536 rows.
-/
import proofs.«423804_j46926812676623_1_alg».proof.Proof.Gen.KernelIdeal.Frame
import Idealize.ShloMosaic.Lib.Pipeline.Value
import proofs.«423804_j46926812676623_1_alg».proof.Proof.RegionNodeLib
import proofs.«423804_j46926812676623_1_alg».proof.Proof.RegionNode1Pay

set_option maxRecDepth 16384

noncomputable section

namespace Cert.KernelIdeal.RegionVal

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem zero2_n1 : (![0, 0] : Fin 2 → Nat) = fun _ => 0 :=
  funext fun a => match a with | ⟨0, _⟩ => rfl | ⟨1, _⟩ => rfl

theorem zero1_n1 : (![0] : Fin 1 → Nat) = fun _ => 0 :=
  funext fun a => match a with | ⟨0, _⟩ => rfl

/-- What the body leaves in the output block is the node update of the ten blocks it loads: its one store covers the
    block and its loads read the whole staging buffers. -/
theorem block_n1 (x0 x1 : Vec Ideal S1024x78 .f32) (x2 : Vec Ideal S256x78 .f32) (x3 : Vec Ideal S256 .f32)
    (x4 : Vec Ideal S512x256 .f32) (x5 x6 x7 x8 x9 : Vec Ideal S512 .f32) :
    out1_10 x0 x1 x2 x3 x4 x5 x6 x7 x8 x9 = Cert.Spec.nodeMlp x0 x1 x2 x3 x4 x5 x6 x7 x8 x9 := by
  unfold out1_10
  rw [View.canon_unit_zero zero2_n1]
  simp only [View.ld_unit_zero (S := S1024x78) zero2_n1, View.ld_unit_zero (S := S256x78) zero2_n1,
    View.ld_unit_zero (S := S256) zero1_n1, View.ld_unit_zero (S := S512x256) zero2_n1,
    View.ld_unit_zero (S := S512) zero1_n1]
  exact payload_n1 x0 x1 x2 x3 x4 x5 x6 x7 x8 x9

/-- The index maps over the grid: the row-block windows (the node rows, the aggregated messages, the output) sit at
    block t along the rows and block 0 along the features; the weights, biases and statistics at block 0. -/
theorem index_n1 : ∀ t : Fin cfg1.N,
    win1_10.index t (0 : Fin 2) = t.val ∧ win1_10.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 1) = 0
    ∧ win1_8.index t (0 : Fin 1) = 0
    ∧ win1_9.index t (0 : Fin 1) = 0 :=
  (by decide +kernel : ∀ t : Fin grid1.N, _)

/-- Row p of point t's block is row 1024·t + p of the arrays. -/
def row_n1 (t : Fin cfg1.N) (p : Fin 1024) : Fin 65536 :=
  ⟨t.val * 1024 + p.val, by
    have ht : t.val < 64 := lt_of_lt_of_eq t.isLt N_1
    have hp : p.val < 1024 := p.isLt
    omega⟩

/-- The node rows' block at point t: rows 1024·t … of the array. -/
theorem rows0_n1 (c : Dev nD) (t : Fin cfg1.N) (p : Fin 1024) (k : Fin 78) :
    iblk1 V c 0 t (ix2 p k) = V c main_arg0 (ix2 (row_n1 t p) k) := by
  obtain ⟨-, -, e0, e1, -⟩ := index_n1 t
  show V c main_arg0 (((cfg1.win 0).blk t).view.emb (ix2 p k)) = V c main_arg0 (ix2 (row_n1 t p) k)
  refine congrArg (V c main_arg0) (funext fun a => Fin.ext ?_)
  match a with
  | ⟨0, _⟩ => show win1_0.index t (0 : Fin 2) * 1024 + 1 * p.val = t.val * 1024 + p.val; omega
  | ⟨1, _⟩ => show win1_0.index t (1 : Fin 2) * 78 + 1 * k.val = k.val; omega

/-- The aggregated messages' block at point t: the same rows of their array. -/
theorem rows1_n1 (c : Dev nD) (t : Fin cfg1.N) (p : Fin 1024) (k : Fin 78) :
    iblk1 V c 1 t (ix2 p k) = V c main_v8 (ix2 (row_n1 t p) k) := by
  obtain ⟨-, -, -, -, e0, e1, -⟩ := index_n1 t
  show V c main_v8 (((cfg1.win 1).blk t).view.emb (ix2 p k)) = V c main_v8 (ix2 (row_n1 t p) k)
  refine congrArg (V c main_v8) (funext fun a => Fin.ext ?_)
  match a with
  | ⟨0, _⟩ => show win1_1.index t (0 : Fin 2) * 1024 + 1 * p.val = t.val * 1024 + p.val; omega
  | ⟨1, _⟩ => show win1_1.index t (1 : Fin 2) * 78 + 1 * k.val = k.val; omega

/-- The first layer's weight is loaded whole at every point. -/
theorem whole2_n1 (c : Dev nD) (t : Fin cfg1.N) : iblk1 V c 2 t = V c main_arg7 := by
  obtain ⟨-, -, -, -, -, -, e0, e1, -⟩ := index_n1 t
  funext y
  show V c main_arg7 (((cfg1.win 2).blk t).view.emb y) = V c main_arg7 y
  refine congrArg (V c main_arg7) (funext fun a => Fin.ext ?_)
  match a with
  | ⟨0, _⟩ => show win1_2.index t (0 : Fin 2) * 256 + 1 * (y 0).val = (y 0).val; omega
  | ⟨1, _⟩ => show win1_2.index t (1 : Fin 2) * 78 + 1 * (y 1).val = (y 1).val; omega

/-- The first layer's bias, whole. -/
theorem whole3_n1 (c : Dev nD) (t : Fin cfg1.N) : iblk1 V c 3 t = V c main_arg8 := by
  obtain ⟨-, -, -, -, -, -, -, -, e0, -⟩ := index_n1 t
  funext y
  show V c main_arg8 (((cfg1.win 3).blk t).view.emb y) = V c main_arg8 y
  refine congrArg (V c main_arg8) (funext fun a => Fin.ext ?_)
  match a with
  | ⟨0, _⟩ => show win1_3.index t (0 : Fin 1) * 256 + 1 * (y 0).val = (y 0).val; omega

/-- The second layer's weight, whole. -/
theorem whole4_n1 (c : Dev nD) (t : Fin cfg1.N) : iblk1 V c 4 t = V c main_arg9 := by
  obtain ⟨-, -, -, -, -, -, -, -, -, e0, e1, -⟩ := index_n1 t
  funext y
  show V c main_arg9 (((cfg1.win 4).blk t).view.emb y) = V c main_arg9 y
  refine congrArg (V c main_arg9) (funext fun a => Fin.ext ?_)
  match a with
  | ⟨0, _⟩ => show win1_4.index t (0 : Fin 2) * 512 + 1 * (y 0).val = (y 0).val; omega
  | ⟨1, _⟩ => show win1_4.index t (1 : Fin 2) * 256 + 1 * (y 1).val = (y 1).val; omega

/-- The second layer's bias, whole. -/
theorem whole5_n1 (c : Dev nD) (t : Fin cfg1.N) : iblk1 V c 5 t = V c main_arg10 := by
  obtain ⟨-, -, -, -, -, -, -, -, -, -, -, e0, -⟩ := index_n1 t
  funext y
  show V c main_arg10 (((cfg1.win 5).blk t).view.emb y) = V c main_arg10 y
  refine congrArg (V c main_arg10) (funext fun a => Fin.ext ?_)
  match a with
  | ⟨0, _⟩ => show win1_5.index t (0 : Fin 1) * 512 + 1 * (y 0).val = (y 0).val; omega

/-- The batch norm's gamma, whole. -/
theorem whole6_n1 (c : Dev nD) (t : Fin cfg1.N) : iblk1 V c 6 t = V c main_arg11 := by
  obtain ⟨-, -, -, -, -, -, -, -, -, -, -, -, e0, -⟩ := index_n1 t
  funext y
  show V c main_arg11 (((cfg1.win 6).blk t).view.emb y) = V c main_arg11 y
  refine congrArg (V c main_arg11) (funext fun a => Fin.ext ?_)
  match a with
  | ⟨0, _⟩ => show win1_6.index t (0 : Fin 1) * 512 + 1 * (y 0).val = (y 0).val; omega

/-- The batch norm's beta, whole. -/
theorem whole7_n1 (c : Dev nD) (t : Fin cfg1.N) : iblk1 V c 7 t = V c main_arg12 := by
  obtain ⟨-, -, -, -, -, -, -, -, -, -, -, -, -, e0, -⟩ := index_n1 t
  funext y
  show V c main_arg12 (((cfg1.win 7).blk t).view.emb y) = V c main_arg12 y
  refine congrArg (V c main_arg12) (funext fun a => Fin.ext ?_)
  match a with
  | ⟨0, _⟩ => show win1_7.index t (0 : Fin 1) * 512 + 1 * (y 0).val = (y 0).val; omega

/-- The batch norm's running mean, whole. -/
theorem whole8_n1 (c : Dev nD) (t : Fin cfg1.N) : iblk1 V c 8 t = V c main_arg13 := by
  obtain ⟨-, -, -, -, -, -, -, -, -, -, -, -, -, -, e0, -⟩ := index_n1 t
  funext y
  show V c main_arg13 (((cfg1.win 8).blk t).view.emb y) = V c main_arg13 y
  refine congrArg (V c main_arg13) (funext fun a => Fin.ext ?_)
  match a with
  | ⟨0, _⟩ => show win1_8.index t (0 : Fin 1) * 512 + 1 * (y 0).val = (y 0).val; omega

/-- The batch norm's running variance, whole. -/
theorem whole9_n1 (c : Dev nD) (t : Fin cfg1.N) : iblk1 V c 9 t = V c main_arg14 := by
  obtain ⟨-, -, -, -, -, -, -, -, -, -, -, -, -, -, -, e0⟩ := index_n1 t
  funext y
  show V c main_arg14 (((cfg1.win 9).blk t).view.emb y) = V c main_arg14 y
  refine congrArg (V c main_arg14) (funext fun a => Fin.ext ?_)
  match a with
  | ⟨0, _⟩ => show win1_9.index t (0 : Fin 1) * 512 + 1 * (y 0).val = (y 0).val; omega

/-- Element (p, q) of the output's block at point t sits at (1024·t + p, q) of its array. -/
theorem emb_n1 (t : Fin cfg1.N) (p : Fin 1024) (q : Fin 512) :
    (((cfg1.win 10).blk t).view.emb (ix2 p q) : S65536x512.Idx) = ix2 (row_n1 t p) q := by
  obtain ⟨e0, e1, -⟩ := index_n1 t
  funext a
  apply Fin.ext
  match a with
  | ⟨0, _⟩ => show win1_10.index t (0 : Fin 2) * 1024 + 1 * p.val = t.val * 1024 + p.val; omega
  | ⟨1, _⟩ => show win1_10.index t (1 : Fin 2) * 512 + 1 * q.val = q.val; omega

/-- WHAT POINT t WRITES BACK is block t of the node update of the ten arrays as the region finds them. -/
theorem flushed_n1 (c : Dev nD) (t : Fin cfg1.N) :
    (dat1 V c).flushed 10 t = ((cfg1.win 10).blk t).view.read (Elt Ideal)
      (Cert.Spec.nodeMlp (V c main_arg0) (V c main_v8) (V c main_arg7) (V c main_arg8) (V c main_arg9) (V c main_arg10)
        (V c main_arg11) (V c main_arg12) (V c main_arg13) (V c main_arg14)) := by
  show (cfg1.win 10).cut (grid1.coords t) ((dat1 V c).after 10 t) = _
  rw [after1_10, block_n1, whole2_n1 V c t, whole3_n1 V c t, whole4_n1 V c t, whole5_n1 V c t, whole6_n1 V c t,
    whole7_n1 V c t, whole8_n1 V c t, whole9_n1 V c t]
  funext j
  obtain ⟨p, q, rfl⟩ : ∃ (p : Fin 1024) (q : Fin 512), j = ix2 p q := ⟨j 0, j 1, eq_ix2 j⟩
  show Cert.Spec.nodeMlp (iblk1 V c 0 t) (iblk1 V c 1 t) (V c main_arg7) (V c main_arg8) (V c main_arg9) (V c main_arg10)
        (V c main_arg11) (V c main_arg12) (V c main_arg13) (V c main_arg14) (ix2 p q)
      = Cert.Spec.nodeMlp (V c main_arg0) (V c main_v8) (V c main_arg7) (V c main_arg8) (V c main_arg9) (V c main_arg10)
        (V c main_arg11) (V c main_arg12) (V c main_arg13) (V c main_arg14) (((cfg1.win 10).blk t).view.emb (ix2 p q))
  rw [emb_n1 t p q]
  exact Cert.Spec.nodeMlp_rows (V c main_arg0) (V c main_v8) (iblk1 V c 0 t) (iblk1 V c 1 t) (V c main_arg7) (V c main_arg8)
    (V c main_arg9) (V c main_arg10) (V c main_arg11) (V c main_arg12) (V c main_arg13) (V c main_arg14) (row_n1 t)
    (rows0_n1 V c t) (rows1_n1 V c t) p q

/-- An index of the output array is in point t's block iff each coordinate is in the block's range on its axis. -/
theorem mem_blk_n1 (t : Fin cfg1.N) (i : S65536x512.Idx) :
    i ∈ ((cfg1.win 10).blk t).view.set ↔ ∀ a : Fin 2, win1_10.index t a * S1024x512.size a ≤ (i a).val
      ∧ (i a).val < win1_10.index t a * S1024x512.size a + S1024x512.size a := by
  show i ∈ ((View.whole main_v9).slice (win1_10.rect t)).set ↔ _
  rw [View.set_slice_whole, Rect.mem_set_unit]
  exact Iff.rfl

/-- The 64 row blocks cover the array: row r is in the block of point r / 1024. -/
theorem cover_n1 (i : S65536x512.Idx) :
    ∃ t : Fin cfg1.N, (cfg1.win 10).flush t = true ∧ i ∈ ((cfg1.win 10).blk t).view.set := by
  have hi0 : (i 0).val < 65536 := (i 0).isLt
  have hi1 : (i 1).val < 512 := (i 1).isLt
  have hN : cfg1.N = 64 := N_1
  obtain ⟨t, ht⟩ : ∃ t : Fin cfg1.N, t.val = (i 0).val / 1024 := ⟨⟨(i 0).val / 1024, by rw [hN]; omega⟩, rfl⟩
  obtain ⟨e0, e1, -⟩ := index_n1 t
  refine ⟨t, flush1_10 t, ?_⟩
  rw [mem_blk_n1]
  intro a
  match a with
  | ⟨0, _⟩ =>
    show win1_10.index t (0 : Fin 2) * 1024 ≤ (i 0).val ∧ (i 0).val < win1_10.index t (0 : Fin 2) * 1024 + 1024
    omega
  | ⟨1, _⟩ =>
    show win1_10.index t (1 : Fin 2) * 512 ≤ (i 1).val ∧ (i 1).val < win1_10.index t (1 : Fin 2) * 512 + 512
    omega

/-- THE ARRAY after the region: the node update of the ten arrays. -/
theorem region1 (c : Dev nD) :
    (dat1 (F := Ideal) V c).arrAt 10 cfg1.N
      = Cert.Spec.nodeMlp (V c main_arg0) (V c main_v8) (V c main_arg7) (V c main_arg8) (V c main_arg9) (V c main_arg10)
          (V c main_arg11) (V c main_arg12) (V c main_arg13) (V c main_arg14) :=
  (dat1 V c).arrAt_eq_of_cover 10 _ (fun t _ => flushed_n1 V c t) cover_n1

end Cert.KernelIdeal.RegionVal

end
-- ==== Proof.RegionNode3Pay.lean ====
/-
  The node update's kernel body on one block of 1024 rows: what it stores, as a function of the ten blocks it loads.

  The body adds the aggregated messages to the node rows, applies two dense layers (512 → 512 → 512, weights stored
  [out, in]) each followed by a relu, and then the batch norm with running statistics,
  ((z − mean) · rsqrt(var + ε)) · gamma + beta, the four statistics rows laid along the block's rows. Index by index this
  is the node update of the specification, read on the block.
-/
import proofs.«423804_j46926812676623_1_alg».proof.Proof.Gen.KernelIdeal.Skeleton
import proofs.«423804_j46926812676623_1_alg».proof.Proof.LibDense

set_option maxRecDepth 16384

noncomputable section

namespace Cert.KernelIdeal.RegionVal

open Idealize.ShloMosaic Idealize.ShloMosaic.ValueIdx
open Cert.KernelIdeal Cert.KernelIdeal.Gen

/-- The stored value of the node update's body, from the blocks of the node rows `x0`, the aggregated messages `x1`,
    the two layers' weights and biases `x2 x3 x4 x5` and the batch norm's gamma, beta, mean and variance
    `x6 x7 x8 x9`, is the node update of those blocks. -/
theorem payload_n3 (x0 x1 : Vec Ideal S1024x512 .f32) (x2 : Vec Ideal S512x512 .f32) (x3 : Vec Ideal S512 .f32)
    (x4 : Vec Ideal S512x512 .f32) (x5 x6 x7 x8 x9 : Vec Ideal S512 .f32) :
    k3_pay1 (k3_pay2 x0 x1 x2 x3 x4 x5 x9 x8) (k3_pay3 x6) x7
      = Cert.Spec.nodeMlp x0 x1 x2 x3 x4 x5 x6 x7 x8 x9 := by
  unfold k3_pay1 k3_pay2 k3_pay3
  dsimp only
  -- the two matrix products have plain dimension numbers; the casts of the two row blocks to their own shape are the identity
  rw [show dot_S1024x512_S512x512_S1024x512_1_0_0_1_n_n = DotDims.plain 1024 512 512 from rfl,
    shapeCast_self x0, shapeCast_self x1]
  -- each dense layer is the specification's linear layer, each maximum with the zero splat a relu
  rw [Cert.LibDense.kernel_lin, Cert.LibDense.kernel_relu, Cert.LibDense.kernel_lin, Cert.LibDense.kernel_relu]
  funext i
  obtain ⟨p, q, rfl⟩ : ∃ (p : Fin 1024) (q : Fin 512), i = ix2 p q := ⟨i 0, i 1, eq_ix2 i⟩
  -- the batch norm at (p, q): each statistics row, laid along the rows, reads at q
  simp only [addf_apply, mulf_apply, subf_apply]
  rw [Cert.LibPlainDot.rowBroadcastTo_apply, Cert.LibPlainDot.rowBroadcastTo_apply,
    Cert.LibPlainDot.rowBroadcastTo_apply, Cert.LibPlainDot.rowBroadcastTo_apply]
  rfl

end Cert.KernelIdeal.RegionVal

end
-- ==== Proof.RegionNode3.lean ====
/-
  The second node-update region: the array its 64 points write back is the node update of the region's ten arrays.

  Each point t works on rows 1024·t … 1024·t + 1023: it loads that block of the node rows and of the aggregated messages,
  and the two layers' weights and biases and the batch norm's four statistics rows whole; what its body stores is the
  node update of those blocks, and the node update at (p, q) reads only row p of the two tables, so the stored block is
  block t of the node update of the whole arrays. The 64 row blocks cover the 65536 rows.
-/
import proofs.«423804_j46926812676623_1_alg».proof.Proof.Gen.KernelIdeal.Frame
import Idealize.ShloMosaic.Lib.Pipeline.Value
import proofs.«423804_j46926812676623_1_alg».proof.Proof.RegionNodeLib
import proofs.«423804_j46926812676623_1_alg».proof.Proof.RegionNode3Pay

set_option maxRecDepth 16384

noncomputable section

namespace Cert.KernelIdeal.RegionVal

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem zero2_n3 : (![0, 0] : Fin 2 → Nat) = fun _ => 0 :=
  funext fun a => match a with | ⟨0, _⟩ => rfl | ⟨1, _⟩ => rfl

theorem zero1_n3 : (![0] : Fin 1 → Nat) = fun _ => 0 :=
  funext fun a => match a with | ⟨0, _⟩ => rfl

/-- What the body leaves in the output block is the node update of the ten blocks it loads: its one store covers the
    block and its loads read the whole staging buffers. -/
theorem block_n3 (x0 x1 : Vec Ideal S1024x512 .f32) (x2 : Vec Ideal S512x512 .f32) (x3 : Vec Ideal S512 .f32)
    (x4 : Vec Ideal S512x512 .f32) (x5 x6 x7 x8 x9 : Vec Ideal S512 .f32) :
    out3_10 x0 x1 x2 x3 x4 x5 x6 x7 x8 x9 = Cert.Spec.nodeMlp x0 x1 x2 x3 x4 x5 x6 x7 x8 x9 := by
  unfold out3_10
  rw [View.canon_unit_zero zero2_n3]
  simp only [View.ld_unit_zero (S := S1024x512) zero2_n3, View.ld_unit_zero (S := S512x512) zero2_n3,
    View.ld_unit_zero (S := S512) zero1_n3]
  exact payload_n3 x0 x1 x2 x3 x4 x5 x6 x7 x8 x9

/-- The index maps over the grid: the row-block windows (the node rows, the aggregated messages, the output) sit at
    block t along the rows and block 0 along the features; the weights, biases and statistics at block 0. -/
theorem index_n3 : ∀ t : Fin cfg3.N,
    win3_10.index t (0 : Fin 2) = t.val ∧ win3_10.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 1) = 0
    ∧ win3_7.index t (0 : Fin 1) = 0
    ∧ win3_8.index t (0 : Fin 1) = 0
    ∧ win3_9.index t (0 : Fin 1) = 0 :=
  (by decide +kernel : ∀ t : Fin grid3.N, _)

/-- Row p of point t's block is row 1024·t + p of the arrays. -/
def row_n3 (t : Fin cfg3.N) (p : Fin 1024) : Fin 65536 :=
  ⟨t.val * 1024 + p.val, by
    have ht : t.val < 64 := lt_of_lt_of_eq t.isLt N_3
    have hp : p.val < 1024 := p.isLt
    omega⟩

/-- The node rows' block at point t: rows 1024·t … of the array. -/
theorem rows0_n3 (c : Dev nD) (t : Fin cfg3.N) (p : Fin 1024) (k : Fin 512) :
    iblk3 V c 0 t (ix2 p k) = V c main_v9 (ix2 (row_n3 t p) k) := by
  obtain ⟨-, -, e0, e1, -⟩ := index_n3 t
  show V c main_v9 (((cfg3.win 0).blk t).view.emb (ix2 p k)) = V c main_v9 (ix2 (row_n3 t p) k)
  refine congrArg (V c main_v9) (funext fun a => Fin.ext ?_)
  match a with
  | ⟨0, _⟩ => show win3_0.index t (0 : Fin 2) * 1024 + 1 * p.val = t.val * 1024 + p.val; omega
  | ⟨1, _⟩ => show win3_0.index t (1 : Fin 2) * 512 + 1 * k.val = k.val; omega

/-- The aggregated messages' block at point t: the same rows of their array. -/
theorem rows1_n3 (c : Dev nD) (t : Fin cfg3.N) (p : Fin 1024) (k : Fin 512) :
    iblk3 V c 1 t (ix2 p k) = V c main_v14 (ix2 (row_n3 t p) k) := by
  obtain ⟨-, -, -, -, e0, e1, -⟩ := index_n3 t
  show V c main_v14 (((cfg3.win 1).blk t).view.emb (ix2 p k)) = V c main_v14 (ix2 (row_n3 t p) k)
  refine congrArg (V c main_v14) (funext fun a => Fin.ext ?_)
  match a with
  | ⟨0, _⟩ => show win3_1.index t (0 : Fin 2) * 1024 + 1 * p.val = t.val * 1024 + p.val; omega
  | ⟨1, _⟩ => show win3_1.index t (1 : Fin 2) * 512 + 1 * k.val = k.val; omega

/-- The first layer's weight is loaded whole at every point. -/
theorem whole2_n3 (c : Dev nD) (t : Fin cfg3.N) : iblk3 V c 2 t = V c main_arg17 := by
  obtain ⟨-, -, -, -, -, -, e0, e1, -⟩ := index_n3 t
  funext y
  show V c main_arg17 (((cfg3.win 2).blk t).view.emb y) = V c main_arg17 y
  refine congrArg (V c main_arg17) (funext fun a => Fin.ext ?_)
  match a with
  | ⟨0, _⟩ => show win3_2.index t (0 : Fin 2) * 512 + 1 * (y 0).val = (y 0).val; omega
  | ⟨1, _⟩ => show win3_2.index t (1 : Fin 2) * 512 + 1 * (y 1).val = (y 1).val; omega

/-- The first layer's bias, whole. -/
theorem whole3_n3 (c : Dev nD) (t : Fin cfg3.N) : iblk3 V c 3 t = V c main_arg18 := by
  obtain ⟨-, -, -, -, -, -, -, -, e0, -⟩ := index_n3 t
  funext y
  show V c main_arg18 (((cfg3.win 3).blk t).view.emb y) = V c main_arg18 y
  refine congrArg (V c main_arg18) (funext fun a => Fin.ext ?_)
  match a with
  | ⟨0, _⟩ => show win3_3.index t (0 : Fin 1) * 512 + 1 * (y 0).val = (y 0).val; omega

/-- The second layer's weight, whole. -/
theorem whole4_n3 (c : Dev nD) (t : Fin cfg3.N) : iblk3 V c 4 t = V c main_arg19 := by
  obtain ⟨-, -, -, -, -, -, -, -, -, e0, e1, -⟩ := index_n3 t
  funext y
  show V c main_arg19 (((cfg3.win 4).blk t).view.emb y) = V c main_arg19 y
  refine congrArg (V c main_arg19) (funext fun a => Fin.ext ?_)
  match a with
  | ⟨0, _⟩ => show win3_4.index t (0 : Fin 2) * 512 + 1 * (y 0).val = (y 0).val; omega
  | ⟨1, _⟩ => show win3_4.index t (1 : Fin 2) * 512 + 1 * (y 1).val = (y 1).val; omega

/-- The second layer's bias, whole. -/
theorem whole5_n3 (c : Dev nD) (t : Fin cfg3.N) : iblk3 V c 5 t = V c main_arg20 := by
  obtain ⟨-, -, -, -, -, -, -, -, -, -, -, e0, -⟩ := index_n3 t
  funext y
  show V c main_arg20 (((cfg3.win 5).blk t).view.emb y) = V c main_arg20 y
  refine congrArg (V c main_arg20) (funext fun a => Fin.ext ?_)
  match a with
  | ⟨0, _⟩ => show win3_5.index t (0 : Fin 1) * 512 + 1 * (y 0).val = (y 0).val; omega

/-- The batch norm's gamma, whole. -/
theorem whole6_n3 (c : Dev nD) (t : Fin cfg3.N) : iblk3 V c 6 t = V c main_arg21 := by
  obtain ⟨-, -, -, -, -, -, -, -, -, -, -, -, e0, -⟩ := index_n3 t
  funext y
  show V c main_arg21 (((cfg3.win 6).blk t).view.emb y) = V c main_arg21 y
  refine congrArg (V c main_arg21) (funext fun a => Fin.ext ?_)
  match a with
  | ⟨0, _⟩ => show win3_6.index t (0 : Fin 1) * 512 + 1 * (y 0).val = (y 0).val; omega

/-- The batch norm's beta, whole. -/
theorem whole7_n3 (c : Dev nD) (t : Fin cfg3.N) : iblk3 V c 7 t = V c main_arg22 := by
  obtain ⟨-, -, -, -, -, -, -, -, -, -, -, -, -, e0, -⟩ := index_n3 t
  funext y
  show V c main_arg22 (((cfg3.win 7).blk t).view.emb y) = V c main_arg22 y
  refine congrArg (V c main_arg22) (funext fun a => Fin.ext ?_)
  match a with
  | ⟨0, _⟩ => show win3_7.index t (0 : Fin 1) * 512 + 1 * (y 0).val = (y 0).val; omega

/-- The batch norm's running mean, whole. -/
theorem whole8_n3 (c : Dev nD) (t : Fin cfg3.N) : iblk3 V c 8 t = V c main_arg23 := by
  obtain ⟨-, -, -, -, -, -, -, -, -, -, -, -, -, -, e0, -⟩ := index_n3 t
  funext y
  show V c main_arg23 (((cfg3.win 8).blk t).view.emb y) = V c main_arg23 y
  refine congrArg (V c main_arg23) (funext fun a => Fin.ext ?_)
  match a with
  | ⟨0, _⟩ => show win3_8.index t (0 : Fin 1) * 512 + 1 * (y 0).val = (y 0).val; omega

/-- The batch norm's running variance, whole. -/
theorem whole9_n3 (c : Dev nD) (t : Fin cfg3.N) : iblk3 V c 9 t = V c main_arg24 := by
  obtain ⟨-, -, -, -, -, -, -, -, -, -, -, -, -, -, -, e0⟩ := index_n3 t
  funext y
  show V c main_arg24 (((cfg3.win 9).blk t).view.emb y) = V c main_arg24 y
  refine congrArg (V c main_arg24) (funext fun a => Fin.ext ?_)
  match a with
  | ⟨0, _⟩ => show win3_9.index t (0 : Fin 1) * 512 + 1 * (y 0).val = (y 0).val; omega

/-- Element (p, q) of the output's block at point t sits at (1024·t + p, q) of its array. -/
theorem emb_n3 (t : Fin cfg3.N) (p : Fin 1024) (q : Fin 512) :
    (((cfg3.win 10).blk t).view.emb (ix2 p q) : S65536x512.Idx) = ix2 (row_n3 t p) q := by
  obtain ⟨e0, e1, -⟩ := index_n3 t
  funext a
  apply Fin.ext
  match a with
  | ⟨0, _⟩ => show win3_10.index t (0 : Fin 2) * 1024 + 1 * p.val = t.val * 1024 + p.val; omega
  | ⟨1, _⟩ => show win3_10.index t (1 : Fin 2) * 512 + 1 * q.val = q.val; omega

/-- WHAT POINT t WRITES BACK is block t of the node update of the ten arrays as the region finds them. -/
theorem flushed_n3 (c : Dev nD) (t : Fin cfg3.N) :
    (dat3 V c).flushed 10 t = ((cfg3.win 10).blk t).view.read (Elt Ideal)
      (Cert.Spec.nodeMlp (V c main_v9) (V c main_v14) (V c main_arg17) (V c main_arg18) (V c main_arg19) (V c main_arg20)
        (V c main_arg21) (V c main_arg22) (V c main_arg23) (V c main_arg24)) := by
  show (cfg3.win 10).cut (grid3.coords t) ((dat3 V c).after 10 t) = _
  rw [after3_10, block_n3, whole2_n3 V c t, whole3_n3 V c t, whole4_n3 V c t, whole5_n3 V c t, whole6_n3 V c t,
    whole7_n3 V c t, whole8_n3 V c t, whole9_n3 V c t]
  funext j
  obtain ⟨p, q, rfl⟩ : ∃ (p : Fin 1024) (q : Fin 512), j = ix2 p q := ⟨j 0, j 1, eq_ix2 j⟩
  show Cert.Spec.nodeMlp (iblk3 V c 0 t) (iblk3 V c 1 t) (V c main_arg17) (V c main_arg18) (V c main_arg19) (V c main_arg20)
        (V c main_arg21) (V c main_arg22) (V c main_arg23) (V c main_arg24) (ix2 p q)
      = Cert.Spec.nodeMlp (V c main_v9) (V c main_v14) (V c main_arg17) (V c main_arg18) (V c main_arg19) (V c main_arg20)
        (V c main_arg21) (V c main_arg22) (V c main_arg23) (V c main_arg24) (((cfg3.win 10).blk t).view.emb (ix2 p q))
  rw [emb_n3 t p q]
  exact Cert.Spec.nodeMlp_rows (V c main_v9) (V c main_v14) (iblk3 V c 0 t) (iblk3 V c 1 t) (V c main_arg17) (V c main_arg18)
    (V c main_arg19) (V c main_arg20) (V c main_arg21) (V c main_arg22) (V c main_arg23) (V c main_arg24) (row_n3 t)
    (rows0_n3 V c t) (rows1_n3 V c t) p q

/-- An index of the output array is in point t's block iff each coordinate is in the block's range on its axis. -/
theorem mem_blk_n3 (t : Fin cfg3.N) (i : S65536x512.Idx) :
    i ∈ ((cfg3.win 10).blk t).view.set ↔ ∀ a : Fin 2, win3_10.index t a * S1024x512.size a ≤ (i a).val
      ∧ (i a).val < win3_10.index t a * S1024x512.size a + S1024x512.size a := by
  show i ∈ ((View.whole main_v15).slice (win3_10.rect t)).set ↔ _
  rw [View.set_slice_whole, Rect.mem_set_unit]
  exact Iff.rfl

/-- The 64 row blocks cover the array: row r is in the block of point r / 1024. -/
theorem cover_n3 (i : S65536x512.Idx) :
    ∃ t : Fin cfg3.N, (cfg3.win 10).flush t = true ∧ i ∈ ((cfg3.win 10).blk t).view.set := by
  have hi0 : (i 0).val < 65536 := (i 0).isLt
  have hi1 : (i 1).val < 512 := (i 1).isLt
  have hN : cfg3.N = 64 := N_3
  obtain ⟨t, ht⟩ : ∃ t : Fin cfg3.N, t.val = (i 0).val / 1024 := ⟨⟨(i 0).val / 1024, by rw [hN]; omega⟩, rfl⟩
  obtain ⟨e0, e1, -⟩ := index_n3 t
  refine ⟨t, flush3_10 t, ?_⟩
  rw [mem_blk_n3]
  intro a
  match a with
  | ⟨0, _⟩ =>
    show win3_10.index t (0 : Fin 2) * 1024 ≤ (i 0).val ∧ (i 0).val < win3_10.index t (0 : Fin 2) * 1024 + 1024
    omega
  | ⟨1, _⟩ =>
    show win3_10.index t (1 : Fin 2) * 512 ≤ (i 1).val ∧ (i 1).val < win3_10.index t (1 : Fin 2) * 512 + 512
    omega

/-- THE ARRAY after the region: the node update of the ten arrays. -/
theorem region3 (c : Dev nD) :
    (dat3 (F := Ideal) V c).arrAt 10 cfg3.N
      = Cert.Spec.nodeMlp (V c main_v9) (V c main_v14) (V c main_arg17) (V c main_arg18) (V c main_arg19) (V c main_arg20)
          (V c main_arg21) (V c main_arg22) (V c main_arg23) (V c main_arg24) :=
  (dat3 V c).arrAt_eq_of_cover 10 _ (fun t _ => flushed_n3 V c t) cover_n3

end Cert.KernelIdeal.RegionVal

end
-- ==== Proof.RegionLin6.lean ====
/-
  Region 6: a dense layer with a relu on a table of 2048 rows, computed in four blocks of 512 rows.

  The weight [256, 512] and the bias [256] are read whole at every point; point t reads rows 512·t … 512·t + 511 of
  the input [2048, 512] and writes the same rows of the output [2048, 256]. A dense layer at (p, q) reads only row p
  of its input, so what point t writes is block t of the layer applied to the whole table, and the four blocks cover
  the output.
-/
import proofs.«423804_j46926812676623_1_alg».proof.Proof.Gen.KernelIdeal.Frame
import proofs.«423804_j46926812676623_1_alg».proof.Proof.Spec
import proofs.«423804_j46926812676623_1_alg».proof.Proof.LibDense
import Idealize.ShloMosaic.Lib.Pipeline.Value

set_option maxRecDepth 16384

noncomputable section

namespace Cert.KernelIdeal.RegionVal

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole rank-2 rectangle. -/
theorem lin6_zero2 : (![0, 0] : Fin 2 → Nat) = fun _ => 0 := funext fun a => by fin_cases a <;> rfl
/-- The zero offset of a whole rank-1 rectangle. -/
theorem lin6_zero1 : (![0] : Fin 1 → Nat) = fun _ => 0 := funext fun a => by fin_cases a; rfl

/-- The body's payload on a block of rows is the dense layer with its relu on that block. -/
theorem lin6_pay (x0 : Vec Ideal S512x512 .f32) (x1 : Vec Ideal S256x512 .f32) (x2 : Vec Ideal S256 .f32) :
    k6_pay1 x0 x1 x2 = Cert.Spec.linRelu x0 x1 x2 := by
  unfold k6_pay1
  dsimp only
  rw [shapeCast_self]
  rw [show dot_S512x512_S512x256_S512x256_1_0_0_1_n_n = DotDims.plain 512 512 256 from rfl]
  rw [Cert.LibDense.kernel_lin, Cert.LibDense.kernel_relu]
  rfl

/-- A dense layer at (p, q) reads only row p of its input: if row p of a block is row r of the table, the layer of
    the block at (p, q) is the layer of the table at (r, q). -/
theorem lin6_row {M Mb K N : Nat} (X : (⟨2, ![M, K]⟩ : Shape).Idx → EReal) (xb : (⟨2, ![Mb, K]⟩ : Shape).Idx → EReal)
    (w : (⟨2, ![N, K]⟩ : Shape).Idx → EReal) (b : (⟨1, ![N]⟩ : Shape).Idx → EReal) (p : Fin Mb) (r : Fin M) (q : Fin N)
    (hx : ∀ k : Fin K, xb (ix2 p k) = X (ix2 r k)) :
    Cert.Spec.lin xb w b (ix2 p q) = Cert.Spec.lin X w b (ix2 r q) := by
  show (∑ k : Fin K, xb (ix2 p k) * w (ix2 q k)) + b (ix1 q) = (∑ k : Fin K, X (ix2 r k) * w (ix2 q k)) + b (ix1 q)
  simp only [hx]

/-- The printed index maps, decided over the four points: the input's and the output's block of rows is block t, and
    the weight and the bias are the one block there is. -/
theorem lin6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- The weight's block at every point is the weight. -/
theorem lin6_weight (c : Dev nD) (t : Fin cfg6.N) : iblk6 (F := Ideal) V c 1 t = V c main_arg35 := by
  obtain ⟨-, -, e0, e1, -, -, -⟩ := lin6_idx t
  funext y
  show V c main_arg35 (((cfg6.win 1).blk t).view.emb y) = V c main_arg35 y
  congr 1
  funext a; apply Fin.ext
  match a with
  | ⟨0, _⟩ => show win6_1.index t (0 : Fin 2) * 256 + 1 * (y 0).val = (y 0).val; omega
  | ⟨1, _⟩ => show win6_1.index t (1 : Fin 2) * 512 + 1 * (y 1).val = (y 1).val; omega

/-- The bias's block at every point is the bias. -/
theorem lin6_bias (c : Dev nD) (t : Fin cfg6.N) : iblk6 (F := Ideal) V c 2 t = V c main_arg36 := by
  obtain ⟨-, -, -, -, e0, -, -⟩ := lin6_idx t
  funext y
  show V c main_arg36 (((cfg6.win 2).blk t).view.emb y) = V c main_arg36 y
  congr 1
  funext a; apply Fin.ext
  match a with
  | ⟨0, _⟩ => show win6_2.index t (0 : Fin 1) * 256 + 1 * (y 0).val = (y 0).val; omega

/-- Row p of the input's block at point t is row 512·t + p of the input. -/
theorem lin6_input (c : Dev nD) (t : Fin cfg6.N) (p : Fin 512) (r : Fin 2048) (hr : r.val = t.val * 512 + p.val) (k : Fin 512) :
    iblk6 (F := Ideal) V c 0 t (ix2 p k) = V c main_v24 (ix2 r k) := by
  obtain ⟨e0, e1, -, -, -, -, -⟩ := lin6_idx t
  show V c main_v24 (((cfg6.win 0).blk t).view.emb (ix2 p k)) = V c main_v24 (ix2 r k)
  congr 1
  funext a; apply Fin.ext
  match a with
  | ⟨0, _⟩ => show win6_0.index t (0 : Fin 2) * 512 + 1 * p.val = r.val; omega
  | ⟨1, _⟩ => show win6_0.index t (1 : Fin 2) * 512 + 1 * k.val = k.val; omega

/-- Row p of the output's block at point t is row 512·t + p of the output. -/
theorem lin6_output (t : Fin cfg6.N) (p : Fin 512) (r : Fin 2048) (hr : r.val = t.val * 512 + p.val) (q : Fin 256) :
    ((cfg6.win 3).blk t).view.emb (ix2 p q) = ix2 r q := by
  obtain ⟨-, -, -, -, -, e0, e1⟩ := lin6_idx t
  funext a; apply Fin.ext
  match a with
  | ⟨0, _⟩ => show win6_3.index t (0 : Fin 2) * 512 + 1 * p.val = r.val; omega
  | ⟨1, _⟩ => show win6_3.index t (1 : Fin 2) * 256 + 1 * q.val = q.val; omega

/-- What point t writes back is block t of the dense layer with its relu applied to the whole table. -/
theorem lin6_flushed (c : Dev nD) (t : Fin cfg6.N) :
    (dat6 (F := Ideal) V c).flushed 3 t
      = ((cfg6.win 3).blk t).view.read (Elt Ideal) (Cert.Spec.linRelu (V c main_v24) (V c main_arg35) (V c main_arg36)) := by
  show (cfg6.win 3).cut (grid6.coords t) ((dat6 (F := Ideal) V c).after 3 t) = _
  rw [after6_3]
  unfold out6_3
  rw [View.canon_unit_zero lin6_zero2]
  simp only [View.ld_unit_zero (S := S512x512) lin6_zero2, View.ld_unit_zero (S := S256x512) lin6_zero2,
    View.ld_unit_zero (S := S256) lin6_zero1]
  rw [lin6_pay, lin6_weight, lin6_bias]
  funext j
  obtain ⟨p, q, rfl⟩ : ∃ (p : Fin 512) (q : Fin 256), j = ix2 p q := ⟨j 0, j 1, eq_ix2 j⟩
  have ht : t.val < 4 := lt_of_lt_of_eq t.isLt N_6
  have hp : p.val < 512 := p.isLt
  obtain ⟨r, hr⟩ : ∃ r : Fin 2048, r.val = t.val * 512 + p.val := ⟨⟨t.val * 512 + p.val, by omega⟩, rfl⟩
  show max (Cert.Spec.lin (iblk6 (F := Ideal) V c 0 t) (V c main_arg35) (V c main_arg36) (ix2 p q)) 0
      = Cert.Spec.linRelu (V c main_v24) (V c main_arg35) (V c main_arg36) (((cfg6.win 3).blk t).view.emb (ix2 p q))
  rw [lin6_output t p r hr q, lin6_row (V c main_v24) (iblk6 (F := Ideal) V c 0 t) (V c main_arg35) (V c main_arg36) p r q
    (lin6_input V c t p r hr)]
  rfl

/-- An index of the output is in point t's block iff each coordinate is in the block's range on its axis. -/
theorem lin6_mem_blk (t : Fin cfg6.N) (i : S2048x256.Idx) :
    i ∈ ((cfg6.win 3).blk t).view.set ↔ ∀ a : Fin 2, win6_3.index t a * S512x256.size a ≤ (i a).val ∧ (i a).val < win6_3.index t a * S512x256.size a + S512x256.size a := by
  show i ∈ ((View.whole main_v25).slice (win6_3.rect t)).set ↔ _
  rw [View.set_slice_whole, Rect.mem_set_unit]
  exact Iff.rfl

/-- The four blocks of rows cover the output: row r is in block r / 512. -/
theorem lin6_cover (i : S2048x256.Idx) :
    ∃ t : Fin cfg6.N, (cfg6.win 3).flush t = true ∧ i ∈ ((cfg6.win 3).blk t).view.set := by
  have hi0 : (i 0).val < 2048 := (i 0).isLt
  have hi1 : (i 1).val < 256 := (i 1).isLt
  obtain ⟨t, ht⟩ : ∃ t : Fin cfg6.N, t.val = (i 0).val / 512 :=
    ⟨⟨(i 0).val / 512, lt_of_lt_of_eq (by omega : (i 0).val / 512 < 4) N_6.symm⟩, rfl⟩
  obtain ⟨-, -, -, -, -, e0, e1⟩ := lin6_idx t
  refine ⟨t, flush6_3 t, ?_⟩
  rw [lin6_mem_blk]
  intro a
  match a with
  | ⟨0, _⟩ => show win6_3.index t (0 : Fin 2) * 512 ≤ (i 0).val ∧ (i 0).val < win6_3.index t (0 : Fin 2) * 512 + 512; omega
  | ⟨1, _⟩ => show win6_3.index t (1 : Fin 2) * 256 ≤ (i 1).val ∧ (i 1).val < win6_3.index t (1 : Fin 2) * 256 + 256; omega

/-- The output table after the region is the dense layer with its relu of the input table. -/
theorem region6 (c : Dev nD) :
    (dat6 (F := Ideal) V c).arrAt 3 cfg6.N
      = Cert.Spec.linRelu (V c main_v24) (V c main_arg35) (V c main_arg36) :=
  (dat6 (F := Ideal) V c).arrAt_eq_of_cover 3 (Cert.Spec.linRelu (V c main_v24) (V c main_arg35) (V c main_arg36))
    (fun t _ => lin6_flushed V c t) lin6_cover

end Cert.KernelIdeal.RegionVal

end
-- ==== Proof.Regions.lean ====
/-
  Each of the thirteen regions' output array, at the region's exit, is its layer of the arrays the region was entered
  with: the three edge-message regions, the three node-update regions and the seven dense regions, gathered here.
-/
import proofs.«423804_j46926812676623_1_alg».proof.Proof.RegionEdge0
import proofs.«423804_j46926812676623_1_alg».proof.Proof.RegionNode1
import proofs.«423804_j46926812676623_1_alg».proof.Proof.RegionEdge2
import proofs.«423804_j46926812676623_1_alg».proof.Proof.RegionNode3
import proofs.«423804_j46926812676623_1_alg».proof.Proof.RegionEdge4
import proofs.«423804_j46926812676623_1_alg».proof.Proof.RegionNode5
import proofs.«423804_j46926812676623_1_alg».proof.Proof.RegionLin6
import proofs.«423804_j46926812676623_1_alg».proof.Proof.RegionLin7
import proofs.«423804_j46926812676623_1_alg».proof.Proof.RegionLin8
import proofs.«423804_j46926812676623_1_alg».proof.Proof.RegionLin9
import proofs.«423804_j46926812676623_1_alg».proof.Proof.RegionLin10
import proofs.«423804_j46926812676623_1_alg».proof.Proof.RegionLin11
import proofs.«423804_j46926812676623_1_alg».proof.Proof.RegionLin12
-- ==== Proof.KernelNet.lean ====
/-
  The network the kernel program computes, as one tower of named values of the argument arrays.

  Three rounds of message passing (gather the source rows, an edge message per edge, a scatter-add to the target nodes, a
  node update), a scatter-add pool over the graphs, a dense layer on the pooled rows, two dense layers on the fingerprints,
  their concatenation, and four dense layers, the last with the logistic function. The row gather is jnp.take's: the
  gathered row where the wrapped index passes its range test, a fill value elsewhere.
-/
import proofs.«423804_j46926812676623_1_alg».proof.Proof.Gen.KernelIdeal
import proofs.«423804_j46926812676623_1_alg».proof.Proof.Spec

set_option maxRecDepth 16384

noncomputable section

namespace Cert.KernelIdeal.Net

open Idealize.ShloMosaic Idealize.ShloMosaic.TcCoe Idealize.SL.Sem
open Cert.KernelIdeal Cert.KernelIdeal.Gen

variable (m : (ℓ : Loc nD τ sig) → Buf (Elt Ideal) ℓ) (c : Dev nD)

/-- An argument array at launch. -/
abbrev A (b : Ref sig .tc) : Buf (Elt Ideal) ((c.tc : Thread nD τ).loc b) := m ((c.tc : Thread nD τ).loc b)

/-- The source and target node of every edge. -/
def src : IVec S131072 32 := shapeCast S131072 (extractStridedSlice S1x131072 ![0, 0] (A m c main_arg3) slices_S2x131072_S1x131072_0_0) shapeCasts_S1x131072_S131072
def dst : IVec S131072 32 := shapeCast S131072 (extractStridedSlice S1x131072 ![1, 0] (A m c main_arg3) slices_S2x131072_S1x131072_1_0) shapeCasts_S1x131072_S131072

/-- The source index with a negative one wrapped by the table's height, as a column of start indices. -/
def idx : IVec S131072x1 32 :=
  broadcastInDim S131072x1 ![0] bcast_S131072_S131072x1_0
    (select (cmpi .slt (src m c) (broadcastInDim S131072 ![] bcast_S_S131072 (constantI S_ 32 0#32)))
      (addi (src m c) (broadcastInDim S131072 ![] bcast_S_S131072 (constantI S_ 32 65536#32))) (src m c))

/-- The range test of the wrapped index, one bit per edge. -/
def inb : IVec S131072 1 :=
  Host.reduce IntOp.andi
    (andi (cmpi .sge (idx m c) (broadcastInDim S131072x1 ![] bcast_S_S131072x1 (constantI S_ 32 0#32)))
      (cmpi .sle (idx m c) (broadcastInDim S131072x1 ![0, 1] bcast_S1x1_S131072x1_0_1 (broadcastInDim S1x1 ![1] bcast_S1_S1x1_1 (constantI S1 32 65535#32)))))
    (constantI S_ 1 1#1) reducesTo_S131072x1_S131072_d1 h_S_

/-- jnp.take of the rows of a 78-wide table. -/
def take78 (h : FVec Ideal S65536x78 .f32) : FVec Ideal S131072x78 .f32 :=
  select (broadcastInDim S131072x78 ![0] bcast_S131072_S131072x78_0 (inb m c))
    (Host.gather gather_S65536x78_S131072x1_S131072x78_1_0_n_n_0_1_178 h (idx m c))
    (broadcastInDim S131072x78 ![] bcast_S_S131072x78 (constant S_ .f32 0x7FC00000#32))
/-- jnp.take of the rows of a 512-wide table. -/
def take512 (h : FVec Ideal S65536x512 .f32) : FVec Ideal S131072x512 .f32 :=
  select (broadcastInDim S131072x512 ![0] bcast_S131072_S131072x512_0 (inb m c))
    (Host.gather gather_S65536x512_S131072x1_S131072x512_1_0_n_n_0_1_1512 h (idx m c))
    (broadcastInDim S131072x512 ![] bcast_S_S131072x512 (constant S_ .f32 0x7FC00000#32))

/-- The target nodes as a column of scatter indices. -/
def dstc : IVec S131072x1 32 := broadcastInDim S131072x1 ![0] bcast_S131072_S131072x1_0 (dst m c)

def m1 : FVec Ideal S131072x78 .f32 := Cert.Spec.edgeMsg (A m c main_arg2) (A m c main_arg5) (A m c main_arg6) (take78 m c (A m c main_arg0))
def agg1 : FVec Ideal S65536x78 .f32 :=
  Host.scatterAdd scatter_S65536x78_S131072x1_S131072x78_1_0_0_1 (broadcastInDim S65536x78 ![] bcast_S_S65536x78 (constant S_ .f32 0x00000000#32)) (dstc m c) (m1 m c)
def h1 : FVec Ideal S65536x512 .f32 :=
  Cert.Spec.nodeMlp (A m c main_arg0) (agg1 m c) (A m c main_arg7) (A m c main_arg8) (A m c main_arg9) (A m c main_arg10) (A m c main_arg11) (A m c main_arg12) (A m c main_arg13) (A m c main_arg14)
def m2 : FVec Ideal S131072x512 .f32 := Cert.Spec.edgeMsg (A m c main_arg2) (A m c main_arg15) (A m c main_arg16) (take512 m c (h1 m c))
def agg2 : FVec Ideal S65536x512 .f32 :=
  Host.scatterAdd scatter_S65536x512_S131072x1_S131072x512_1_0_0_1 (broadcastInDim S65536x512 ![] bcast_S_S65536x512 (constant S_ .f32 0x00000000#32)) (dstc m c) (m2 m c)
def h2 : FVec Ideal S65536x512 .f32 :=
  Cert.Spec.nodeMlp (h1 m c) (agg2 m c) (A m c main_arg17) (A m c main_arg18) (A m c main_arg19) (A m c main_arg20) (A m c main_arg21) (A m c main_arg22) (A m c main_arg23) (A m c main_arg24)
def m3 : FVec Ideal S131072x512 .f32 := Cert.Spec.edgeMsg (A m c main_arg2) (A m c main_arg25) (A m c main_arg26) (take512 m c (h2 m c))
def agg3 : FVec Ideal S65536x512 .f32 :=
  Host.scatterAdd scatter_S65536x512_S131072x1_S131072x512_1_0_0_1 (broadcastInDim S65536x512 ![] bcast_S_S65536x512 (constant S_ .f32 0x00000000#32)) (dstc m c) (m3 m c)
def h3 : FVec Ideal S65536x512 .f32 :=
  Cert.Spec.nodeMlp (h2 m c) (agg3 m c) (A m c main_arg27) (A m c main_arg28) (A m c main_arg29) (A m c main_arg30) (A m c main_arg31) (A m c main_arg32) (A m c main_arg33) (A m c main_arg34)

/-- The pool over the graphs. -/
def g0 : FVec Ideal S2048x512 .f32 :=
  Host.scatterAdd scatter_S2048x512_S65536x1_S65536x512_1_0_0_1 (broadcastInDim S2048x512 ![] bcast_S_S2048x512 (constant S_ .f32 0x00000000#32))
    (broadcastInDim S65536x1 ![0] bcast_S65536_S65536x1_0 (A m c main_arg4)) (h3 m c)
def g : FVec Ideal S2048x256 .f32 := Cert.Spec.linRelu (g0 m c) (A m c main_arg35) (A m c main_arg36)
def fp1 : FVec Ideal S2048x128 .f32 := Cert.Spec.linRelu (A m c main_arg1) (A m c main_arg37) (A m c main_arg38)
def fp2 : FVec Ideal S2048x256 .f32 := Cert.Spec.linRelu (fp1 m c) (A m c main_arg39) (A m c main_arg40)
def y0 : FVec Ideal S2048x512 .f32 :=
  concatenate S2048x512 1 [⟨S2048x256, g m c⟩, ⟨S2048x256, fp2 m c⟩] concatenates_S2048x256_S2048x256_S2048x512_d1
def y1 : FVec Ideal S2048x256 .f32 := Cert.Spec.linRelu (y0 m c) (A m c main_arg41) (A m c main_arg42)
def y2 : FVec Ideal S2048x128 .f32 := Cert.Spec.linRelu (y1 m c) (A m c main_arg43) (A m c main_arg44)
def y3 : FVec Ideal S2048x64 .f32 := Cert.Spec.linRelu (y2 m c) (A m c main_arg45) (A m c main_arg46)
/-- The result. -/
def y4 : FVec Ideal S2048x2 .f32 := Cert.Spec.linSigmoid (y3 m c) (A m c main_arg47) (A m c main_arg48)

end Cert.KernelIdeal.Net

end
-- ==== Proof.KernelWalkTail.lean ====
/-
  The second half of the walk through the kernel program: from the third node update's rows to the network's result.

  After the third node update the program pools the rows over the graphs with a scatter-add, runs a dense layer with a
  relu on the pooled rows and two on the fingerprints, lays the two 256-wide results side by side, and runs four more
  dense layers, the last with the logistic function. Each step's result array is read at the step's exit: a stretch of
  host operations leaves its operations' values, a kernel region leaves its layer of the arrays it finds at entry;
  the arrays a step reads are the previous steps' results, kept by the steps in between, and argument arrays, which
  hold their launch contents throughout.
-/
import proofs.«423804_j46926812676623_1_alg».proof.Proof.KernelWalkKeep
import proofs.«423804_j46926812676623_1_alg».proof.Proof.Regions
import proofs.«423804_j46926812676623_1_alg».proof.Proof.KernelNet
import Idealize.ShloMosaic.Lib.StableHlo.Run

set_option maxRecDepth 16384

noncomputable section

namespace Cert.KernelIdeal.Walk

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## The pool over the graphs -/

/-- After the pooling stretch its result holds the scatter-add, over the graphs, of the third node update's rows onto
    zeros. -/
theorem pool_value (h13 : W13 (F := Ideal) m ρ c (Proc.devRef .tc main_v21) = Cert.KernelIdeal.Net.h3 m c) :
    W14 (F := Ideal) m ρ c (Proc.devRef .tc main_v24) = Cert.KernelIdeal.Net.g0 m c := by
  show StableHlo.after hostOps6 (W13 m ρ c) (Proc.devRef .tc main_v24) = _
  after_results
  rw [h13, arg_W13 m ρ c main_arg4 (by decide)]
  rfl

/-! ## The dense layer on the pooled rows, and the two on the fingerprints -/

/-- The first dense region's result is the dense layer with a relu on the pooled rows. -/
theorem g_value (h14 : W14 (F := Ideal) m ρ c (Proc.devRef .tc main_v24) = Cert.KernelIdeal.Net.g0 m c) :
    W15 (F := Ideal) m ρ c (Proc.devRef .tc main_v25) = Cert.KernelIdeal.Net.g m c := by
  refine (W15_arr m ρ c 3).trans ?_
  rw [Cert.KernelIdeal.RegionVal.region6 (V14 m ρ) c]
  show Cert.Spec.linRelu (W14 m ρ c (Proc.devRef .tc main_v24)) (W14 m ρ c (Proc.devRef .tc main_arg35))
      (W14 m ρ c (Proc.devRef .tc main_arg36)) = _
  rw [h14, arg_W14 m ρ c main_arg35 (by decide), arg_W14 m ρ c main_arg36 (by decide)]
  rfl

/-- The second dense region's result is the first fingerprint layer. -/
theorem fp1_value : W16 (F := Ideal) m ρ c (Proc.devRef .tc main_v26) = Cert.KernelIdeal.Net.fp1 m c := by
  refine (W16_arr m ρ c 3).trans ?_
  rw [Cert.KernelIdeal.RegionVal.region7 (V15 m ρ) c]
  show Cert.Spec.linRelu (W15 m ρ c (Proc.devRef .tc main_arg1)) (W15 m ρ c (Proc.devRef .tc main_arg37))
      (W15 m ρ c (Proc.devRef .tc main_arg38)) = _
  rw [arg_W15 m ρ c main_arg1 (by decide), arg_W15 m ρ c main_arg37 (by decide), arg_W15 m ρ c main_arg38 (by decide)]
  rfl

/-- The third dense region's result is the second fingerprint layer. -/
theorem fp2_value : W17 (F := Ideal) m ρ c (Proc.devRef .tc main_v27) = Cert.KernelIdeal.Net.fp2 m c := by
  refine (W17_arr m ρ c 3).trans ?_
  rw [Cert.KernelIdeal.RegionVal.region8 (V16 m ρ) c]
  show Cert.Spec.linRelu (W16 m ρ c (Proc.devRef .tc main_v26)) (W16 m ρ c (Proc.devRef .tc main_arg39))
      (W16 m ρ c (Proc.devRef .tc main_arg40)) = _
  rw [fp1_value m ρ c, arg_W16 m ρ c main_arg39 (by decide), arg_W16 m ρ c main_arg40 (by decide)]
  rfl

/-- The pooled rows' dense layer is still in its array after the two fingerprint regions. -/
theorem g_kept (h15 : W15 (F := Ideal) m ρ c (Proc.devRef .tc main_v25) = Cert.KernelIdeal.Net.g m c) :
    W17 (F := Ideal) m ρ c (Proc.devRef .tc main_v25) = Cert.KernelIdeal.Net.g m c :=
  (W17_of m ρ c main_v25 (by decide)).trans ((W16_of m ρ c main_v25 (by decide)).trans h15)

/-! ## The concatenation and the four last dense layers -/

/-- After the concatenating stretch its result holds the two 256-wide halves side by side. -/
theorem y0_value (h15 : W15 (F := Ideal) m ρ c (Proc.devRef .tc main_v25) = Cert.KernelIdeal.Net.g m c) :
    W18 (F := Ideal) m ρ c (Proc.devRef .tc main_v28) = Cert.KernelIdeal.Net.y0 m c := by
  show StableHlo.after hostOps9 (W17 m ρ c) (Proc.devRef .tc main_v28) = _
  after_results
  rw [g_kept m ρ c h15, fp2_value m ρ c]
  rfl

theorem y1_value (h18 : W18 (F := Ideal) m ρ c (Proc.devRef .tc main_v28) = Cert.KernelIdeal.Net.y0 m c) :
    W19 (F := Ideal) m ρ c (Proc.devRef .tc main_v29) = Cert.KernelIdeal.Net.y1 m c := by
  refine (W19_arr m ρ c 3).trans ?_
  rw [Cert.KernelIdeal.RegionVal.region9 (V18 m ρ) c]
  show Cert.Spec.linRelu (W18 m ρ c (Proc.devRef .tc main_v28)) (W18 m ρ c (Proc.devRef .tc main_arg41))
      (W18 m ρ c (Proc.devRef .tc main_arg42)) = _
  rw [h18, arg_W18 m ρ c main_arg41 (by decide), arg_W18 m ρ c main_arg42 (by decide)]
  rfl

theorem y2_value (h19 : W19 (F := Ideal) m ρ c (Proc.devRef .tc main_v29) = Cert.KernelIdeal.Net.y1 m c) :
    W20 (F := Ideal) m ρ c (Proc.devRef .tc main_v30) = Cert.KernelIdeal.Net.y2 m c := by
  refine (W20_arr m ρ c 3).trans ?_
  rw [Cert.KernelIdeal.RegionVal.region10 (V19 m ρ) c]
  show Cert.Spec.linRelu (W19 m ρ c (Proc.devRef .tc main_v29)) (W19 m ρ c (Proc.devRef .tc main_arg43))
      (W19 m ρ c (Proc.devRef .tc main_arg44)) = _
  rw [h19, arg_W19 m ρ c main_arg43 (by decide), arg_W19 m ρ c main_arg44 (by decide)]
  rfl

theorem y3_value (h20 : W20 (F := Ideal) m ρ c (Proc.devRef .tc main_v30) = Cert.KernelIdeal.Net.y2 m c) :
    W21 (F := Ideal) m ρ c (Proc.devRef .tc main_v31) = Cert.KernelIdeal.Net.y3 m c := by
  refine (W21_arr m ρ c 3).trans ?_
  rw [Cert.KernelIdeal.RegionVal.region11 (V20 m ρ) c]
  show Cert.Spec.linRelu (W20 m ρ c (Proc.devRef .tc main_v30)) (W20 m ρ c (Proc.devRef .tc main_arg45))
      (W20 m ρ c (Proc.devRef .tc main_arg46)) = _
  rw [h20, arg_W20 m ρ c main_arg45 (by decide), arg_W20 m ρ c main_arg46 (by decide)]
  rfl

/-- The last dense region's result is the last dense layer with the logistic function. -/
theorem y4_value (h21 : W21 (F := Ideal) m ρ c (Proc.devRef .tc main_v31) = Cert.KernelIdeal.Net.y3 m c) :
    W22 (F := Ideal) m ρ c (Proc.devRef .tc main_v32) = Cert.KernelIdeal.Net.y4 m c := by
  refine (W22_arr m ρ c 3).trans ?_
  rw [Cert.KernelIdeal.RegionVal.region12 (V21 m ρ) c]
  show Cert.Spec.linSigmoid (W21 m ρ c (Proc.devRef .tc main_v31)) (W21 m ρ c (Proc.devRef .tc main_arg47))
      (W21 m ρ c (Proc.devRef .tc main_arg48)) = _
  rw [h21, arg_W21 m ρ c main_arg47 (by decide), arg_W21 m ρ c main_arg48 (by decide)]
  rfl

/-! ## The tail of the walk -/

/-- From the third node update's rows in their array at the sixth region's exit, the program's result array ends
    holding the network's result. -/
theorem tail_value (h13 : W13 (F := Ideal) m ρ c (Proc.devRef .tc main_v21) = Cert.KernelIdeal.Net.h3 m c) :
    W22 (F := Ideal) m ρ c (Proc.devRef .tc main_v32) = Cert.KernelIdeal.Net.y4 m c :=
  have h15 := g_value m ρ c (pool_value m ρ c h13)
  y4_value m ρ c (y3_value m ρ c (y2_value m ρ c (y1_value m ρ c (y0_value m ρ c h15))))

end Cert.KernelIdeal.Walk

end
-- ==== Proof.KernelWalk.lean ====
/-
  The kernel program's result, read at its last boundary, is the network's result.

  The first half of the walk: the edge list, then three rounds of message passing, each a row gather at the edges'
  sources, an edge-message region, a scatter-add to the target nodes and a node-update region. The second half, from
  the third node update's rows to the result, is in KernelWalkTail; the two meet at the rows after the third update.
-/
import proofs.«423804_j46926812676623_1_alg».proof.Proof.KernelWalkKeep
import proofs.«423804_j46926812676623_1_alg».proof.Proof.Regions
import proofs.«423804_j46926812676623_1_alg».proof.Proof.KernelNet
import proofs.«423804_j46926812676623_1_alg».proof.Proof.KernelWalkTail

set_option maxRecDepth 16384

noncomputable section

namespace Cert.KernelIdeal.Walk

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-!
  # The tower, one value per step

  Each value of the network is read at the boundary after the step that computes it: a stretch of host operations
  leaves its operations' functions applied to what its operands held at the stretch's entry; a kernel region leaves, in
  its output array, the layer of its input arrays as it found them. What a step reads was written by an earlier step,
  or is an argument array, and no step in between writes it.
-/

/-! ## The buffer conversions of a module-local function's operations

An operation of a called function moves its operands and its result between a buffer's own type and the type of the
tensor value it holds; on a literal buffer the two are the same type and the conversion is the identity. -/

/-- A typed reference's two buffer conversions undo each other. -/
theorem ofBuf_toBuf {Val : EltTy → Type} {T : BufTy} (x : StableHlo.TRef sig T) (v : T.Contents Val) :
    x.ofBuf (x.toBuf v) = v := by
  simp only [StableHlo.TRef.ofBuf, StableHlo.TRef.toBuf, cast_cast, cast_eq]

theorem ofBuf_main_v1 (p1 : main_v1.ty = ⟨S131072, .i32⟩) (p2 p3) (v : main_v1.ty.Contents (Elt Ideal)) :
    (StableHlo.TRef.of main_v1 p1 p2 p3).ofBuf v = v := rfl
theorem ofBuf_main_arg0 (p1 : main_arg0.ty = ⟨S65536x78, .f32⟩) (p2 p3) (v : main_arg0.ty.Contents (Elt Ideal)) :
    (StableHlo.TRef.of main_arg0 p1 p2 p3).ofBuf v = v := rfl
theorem ofBuf_main_v9 (p1 : main_v9.ty = ⟨S65536x512, .f32⟩) (p2 p3) (v : main_v9.ty.Contents (Elt Ideal)) :
    (StableHlo.TRef.of main_v9 p1 p2 p3).ofBuf v = v := rfl
theorem ofBuf_main_v15 (p1 : main_v15.ty = ⟨S65536x512, .f32⟩) (p2 p3) (v : main_v15.ty.Contents (Elt Ideal)) :
    (StableHlo.TRef.of main_v15 p1 p2 p3).ofBuf v = v := rfl
theorem toBuf_main_v4 (p1 : main_v4.ty = ⟨S131072x78, .f32⟩) (p2 p3) (v : (⟨S131072x78, .f32⟩ : BufTy).Contents (Elt Ideal)) :
    (StableHlo.TRef.of main_v4 p1 p2 p3).toBuf v = v := rfl
theorem toBuf_main_v10 (p1 : main_v10.ty = ⟨S131072x512, .f32⟩) (p2 p3) (v : (⟨S131072x512, .f32⟩ : BufTy).Contents (Elt Ideal)) :
    (StableHlo.TRef.of main_v10 p1 p2 p3).toBuf v = v := rfl
theorem toBuf_main_v16 (p1 : main_v16.ty = ⟨S131072x512, .f32⟩) (p2 p3) (v : (⟨S131072x512, .f32⟩ : BufTy).Contents (Elt Ideal)) :
    (StableHlo.TRef.of main_v16 p1 p2 p3).toBuf v = v := rfl

/-! ## The edge list, and where it is read later -/

theorem W1_src : W1 m ρ c (Proc.devRef .tc main_v1) = Net.src m c := by
  show StableHlo.after hostOps0 (W0 m ρ c) (Proc.devRef .tc main_v1) = _
  after_results
  rfl
theorem W1_dst : W1 m ρ c (Proc.devRef .tc main_v3) = Net.dst m c := by
  show StableHlo.after hostOps0 (W0 m ρ c) (Proc.devRef .tc main_v3) = _
  after_results
  rfl

theorem W3_dst : W3 m ρ c (Proc.devRef .tc main_v3) = Net.dst m c :=
  (W3_of m ρ c main_v3 (by decide)).trans ((W2_of m ρ c main_v3 (by decide)).trans (W1_dst m ρ c))
theorem W5_src : W5 m ρ c (Proc.devRef .tc main_v1) = Net.src m c :=
  (W5_of m ρ c main_v1 (by decide)).trans ((W4_of m ρ c main_v1 (by decide)).trans ((W3_of m ρ c main_v1 (by decide)).trans
    ((W2_of m ρ c main_v1 (by decide)).trans (W1_src m ρ c))))
theorem W7_dst : W7 m ρ c (Proc.devRef .tc main_v3) = Net.dst m c :=
  (W7_of m ρ c main_v3 (by decide)).trans ((W6_of m ρ c main_v3 (by decide)).trans ((W5_of m ρ c main_v3 (by decide)).trans
    ((W4_of m ρ c main_v3 (by decide)).trans (W3_dst m ρ c))))
theorem W9_src : W9 m ρ c (Proc.devRef .tc main_v1) = Net.src m c :=
  (W9_of m ρ c main_v1 (by decide)).trans ((W8_of m ρ c main_v1 (by decide)).trans ((W7_of m ρ c main_v1 (by decide)).trans
    ((W6_of m ρ c main_v1 (by decide)).trans (W5_src m ρ c))))
theorem W11_dst : W11 m ρ c (Proc.devRef .tc main_v3) = Net.dst m c :=
  (W11_of m ρ c main_v3 (by decide)).trans ((W10_of m ρ c main_v3 (by decide)).trans ((W9_of m ρ c main_v3 (by decide)).trans
    ((W8_of m ρ c main_v3 (by decide)).trans (W7_dst m ρ c))))

/-! ## The first round -/

/-- The rows of the node table at the edges' sources. -/
theorem W2_take : W2 m ρ c (Proc.devRef .tc main_v4) = Net.take78 m c (Net.A m c main_arg0) := by
  show StableHlo.after hostOps0_1 (W1 m ρ c) (Proc.devRef .tc main_v4) = _
  after_results_simp
  simp only [ofBuf_toBuf, toBuf_main_v4, ofBuf_main_v1, ofBuf_main_arg0]
  unfold Net.take78 Net.inb Net.idx Net.src
  rfl

/-- The edge messages: region 0 on the gathered rows. -/
theorem W3_m1 : W3 m ρ c (Proc.devRef .tc main_v5) = Net.m1 m c := by
  refine (W3_arr m ρ c 4).trans ((RegionVal.region0 (V2 m ρ) c).trans ?_)
  unfold Net.m1
  rw [show V2 m ρ c main_arg2 = Net.A m c main_arg2 from arg_W2 m ρ c main_arg2 (by decide),
    show V2 m ρ c main_arg5 = Net.A m c main_arg5 from arg_W2 m ρ c main_arg5 (by decide),
    show V2 m ρ c main_arg6 = Net.A m c main_arg6 from arg_W2 m ρ c main_arg6 (by decide),
    show V2 m ρ c main_v4 = Net.take78 m c (Net.A m c main_arg0) from W2_take m ρ c]

/-- The messages added up at the target nodes. -/
theorem W4_agg1 : W4 m ρ c (Proc.devRef .tc main_v8) = Net.agg1 m c := by
  show StableHlo.after hostOps1 (W3 m ρ c) (Proc.devRef .tc main_v8) = _
  after_results
  rw [W3_dst m ρ c, W3_m1 m ρ c]
  rfl

/-- The node update: region 1. -/
theorem W5_h1 : W5 m ρ c (Proc.devRef .tc main_v9) = Net.h1 m c := by
  refine (W5_arr m ρ c 10).trans ((RegionVal.region1 (V4 m ρ) c).trans ?_)
  unfold Net.h1
  rw [show V4 m ρ c main_arg0 = Net.A m c main_arg0 from arg_W4 m ρ c main_arg0 (by decide),
    show V4 m ρ c main_v8 = Net.agg1 m c from W4_agg1 m ρ c,
    show V4 m ρ c main_arg7 = Net.A m c main_arg7 from arg_W4 m ρ c main_arg7 (by decide),
    show V4 m ρ c main_arg8 = Net.A m c main_arg8 from arg_W4 m ρ c main_arg8 (by decide),
    show V4 m ρ c main_arg9 = Net.A m c main_arg9 from arg_W4 m ρ c main_arg9 (by decide),
    show V4 m ρ c main_arg10 = Net.A m c main_arg10 from arg_W4 m ρ c main_arg10 (by decide),
    show V4 m ρ c main_arg11 = Net.A m c main_arg11 from arg_W4 m ρ c main_arg11 (by decide),
    show V4 m ρ c main_arg12 = Net.A m c main_arg12 from arg_W4 m ρ c main_arg12 (by decide),
    show V4 m ρ c main_arg13 = Net.A m c main_arg13 from arg_W4 m ρ c main_arg13 (by decide),
    show V4 m ρ c main_arg14 = Net.A m c main_arg14 from arg_W4 m ρ c main_arg14 (by decide)]

/-! ## The second round -/

theorem W6_take : W6 m ρ c (Proc.devRef .tc main_v10) = Net.take512 m c (Net.h1 m c) := by
  show StableHlo.after hostOps2 (W5 m ρ c) (Proc.devRef .tc main_v10) = _
  after_results_simp
  simp only [ofBuf_toBuf, toBuf_main_v10, ofBuf_main_v1, ofBuf_main_v9]
  rw [W5_src m ρ c, W5_h1 m ρ c]
  unfold Net.take512 Net.inb Net.idx
  rfl

theorem W7_m2 : W7 m ρ c (Proc.devRef .tc main_v11) = Net.m2 m c := by
  refine (W7_arr m ρ c 4).trans ((RegionVal.region2 (V6 m ρ) c).trans ?_)
  unfold Net.m2
  rw [show V6 m ρ c main_arg2 = Net.A m c main_arg2 from arg_W6 m ρ c main_arg2 (by decide),
    show V6 m ρ c main_arg15 = Net.A m c main_arg15 from arg_W6 m ρ c main_arg15 (by decide),
    show V6 m ρ c main_arg16 = Net.A m c main_arg16 from arg_W6 m ρ c main_arg16 (by decide),
    show V6 m ρ c main_v10 = Net.take512 m c (Net.h1 m c) from W6_take m ρ c]

theorem W8_agg2 : W8 m ρ c (Proc.devRef .tc main_v14) = Net.agg2 m c := by
  show StableHlo.after hostOps3 (W7 m ρ c) (Proc.devRef .tc main_v14) = _
  after_results
  rw [W7_dst m ρ c, W7_m2 m ρ c]
  rfl

theorem W8_h1 : W8 m ρ c (Proc.devRef .tc main_v9) = Net.h1 m c :=
  (W8_of m ρ c main_v9 (by decide)).trans ((W7_of m ρ c main_v9 (by decide)).trans ((W6_of m ρ c main_v9 (by decide)).trans
    (W5_h1 m ρ c)))

theorem W9_h2 : W9 m ρ c (Proc.devRef .tc main_v15) = Net.h2 m c := by
  refine (W9_arr m ρ c 10).trans ((RegionVal.region3 (V8 m ρ) c).trans ?_)
  unfold Net.h2
  rw [show V8 m ρ c main_v9 = Net.h1 m c from W8_h1 m ρ c,
    show V8 m ρ c main_v14 = Net.agg2 m c from W8_agg2 m ρ c,
    show V8 m ρ c main_arg17 = Net.A m c main_arg17 from arg_W8 m ρ c main_arg17 (by decide),
    show V8 m ρ c main_arg18 = Net.A m c main_arg18 from arg_W8 m ρ c main_arg18 (by decide),
    show V8 m ρ c main_arg19 = Net.A m c main_arg19 from arg_W8 m ρ c main_arg19 (by decide),
    show V8 m ρ c main_arg20 = Net.A m c main_arg20 from arg_W8 m ρ c main_arg20 (by decide),
    show V8 m ρ c main_arg21 = Net.A m c main_arg21 from arg_W8 m ρ c main_arg21 (by decide),
    show V8 m ρ c main_arg22 = Net.A m c main_arg22 from arg_W8 m ρ c main_arg22 (by decide),
    show V8 m ρ c main_arg23 = Net.A m c main_arg23 from arg_W8 m ρ c main_arg23 (by decide),
    show V8 m ρ c main_arg24 = Net.A m c main_arg24 from arg_W8 m ρ c main_arg24 (by decide)]

/-! ## The third round -/

theorem W10_take : W10 m ρ c (Proc.devRef .tc main_v16) = Net.take512 m c (Net.h2 m c) := by
  show StableHlo.after hostOps4 (W9 m ρ c) (Proc.devRef .tc main_v16) = _
  after_results_simp
  simp only [ofBuf_toBuf, toBuf_main_v16, ofBuf_main_v1, ofBuf_main_v15]
  rw [W9_src m ρ c, W9_h2 m ρ c]
  unfold Net.take512 Net.inb Net.idx
  rfl

theorem W11_m3 : W11 m ρ c (Proc.devRef .tc main_v17) = Net.m3 m c := by
  refine (W11_arr m ρ c 4).trans ((RegionVal.region4 (V10 m ρ) c).trans ?_)
  unfold Net.m3
  rw [show V10 m ρ c main_arg2 = Net.A m c main_arg2 from arg_W10 m ρ c main_arg2 (by decide),
    show V10 m ρ c main_arg25 = Net.A m c main_arg25 from arg_W10 m ρ c main_arg25 (by decide),
    show V10 m ρ c main_arg26 = Net.A m c main_arg26 from arg_W10 m ρ c main_arg26 (by decide),
    show V10 m ρ c main_v16 = Net.take512 m c (Net.h2 m c) from W10_take m ρ c]

theorem W12_agg3 : W12 m ρ c (Proc.devRef .tc main_v20) = Net.agg3 m c := by
  show StableHlo.after hostOps5 (W11 m ρ c) (Proc.devRef .tc main_v20) = _
  after_results
  rw [W11_dst m ρ c, W11_m3 m ρ c]
  rfl

theorem W12_h2 : W12 m ρ c (Proc.devRef .tc main_v15) = Net.h2 m c :=
  (W12_of m ρ c main_v15 (by decide)).trans ((W11_of m ρ c main_v15 (by decide)).trans ((W10_of m ρ c main_v15 (by decide)).trans
    (W9_h2 m ρ c)))

theorem W13_h3 : W13 m ρ c (Proc.devRef .tc main_v21) = Net.h3 m c := by
  refine (W13_arr m ρ c 10).trans ((RegionVal.region5 (V12 m ρ) c).trans ?_)
  unfold Net.h3
  rw [show V12 m ρ c main_v15 = Net.h2 m c from W12_h2 m ρ c,
    show V12 m ρ c main_v20 = Net.agg3 m c from W12_agg3 m ρ c,
    show V12 m ρ c main_arg27 = Net.A m c main_arg27 from arg_W12 m ρ c main_arg27 (by decide),
    show V12 m ρ c main_arg28 = Net.A m c main_arg28 from arg_W12 m ρ c main_arg28 (by decide),
    show V12 m ρ c main_arg29 = Net.A m c main_arg29 from arg_W12 m ρ c main_arg29 (by decide),
    show V12 m ρ c main_arg30 = Net.A m c main_arg30 from arg_W12 m ρ c main_arg30 (by decide),
    show V12 m ρ c main_arg31 = Net.A m c main_arg31 from arg_W12 m ρ c main_arg31 (by decide),
    show V12 m ρ c main_arg32 = Net.A m c main_arg32 from arg_W12 m ρ c main_arg32 (by decide),
    show V12 m ρ c main_arg33 = Net.A m c main_arg33 from arg_W12 m ρ c main_arg33 (by decide),
    show V12 m ρ c main_arg34 = Net.A m c main_arg34 from arg_W12 m ρ c main_arg34 (by decide)]

/-! ## The result -/

/-- The program's result buffer at its last boundary holds the network's result. -/
theorem kernel_value : W22 (F := Ideal) m ρ c (Proc.devRef .tc main_v32) = Cert.KernelIdeal.Net.y4 m c :=
  tail_value m ρ c (W13_h3 m ρ c)

end Cert.KernelIdeal.Walk

end
-- ==== Proof.RefRun.lean ====
/-
  The reference's run (generated): every weakly fair execution ends with the result at one composed term of the arguments.
-/
import proofs.«423804_j46926812676623_1_alg».proof.Proof.Gen.ReferenceIdeal.Run
-- ==== Proof.RefNet.lean ====
/-
  The network the reference computes, as a tower of named values of the argument arrays, each proved equal to the
  reference's own spelling of it over the values before it.

  The reference gathers the source rows with a plain gather of the wrapped index; its dense layers are a `dot_general`
  with the transposed weight plus the bias laid along the rows, its relus a maximum with the zero constant.
-/
import proofs.«423804_j46926812676623_1_alg».proof.Proof.Gen.ReferenceIdeal
import proofs.«423804_j46926812676623_1_alg».proof.Proof.LibDense

set_option maxRecDepth 16384

noncomputable section

namespace Cert.ReferenceIdeal.Net

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-- An argument array at launch. -/
abbrev A (b : Ref sig .tc) : Buf (Elt Ideal) ((c.tc : Thread nD τ).loc b) := m ((c.tc : Thread nD τ).loc b)

/-- The source node of every edge. -/
def src : IVec S131072 32 := shapeCast S131072 (extractStridedSlice S1x131072 ![0, 0] (A m c main_arg3 : IVec S2x131072 32) slices_S2x131072_S1x131072_0_0) shapeCasts_S1x131072_S131072

/-- The target node of every edge. -/
def dst : IVec S131072 32 := shapeCast S131072 (extractStridedSlice S1x131072 ![1, 0] (A m c main_arg3 : IVec S2x131072 32) slices_S2x131072_S1x131072_1_0) shapeCasts_S1x131072_S131072

/-- The source index with a negative one wrapped by the table's height, as a column of start indices. -/
def idx : IVec S131072x1 32 := broadcastInDim S131072x1 ![0] bcast_S131072_S131072x1_0 (select (cmpi .slt (src m c) (broadcastInDim S131072 ![] bcast_S_S131072 (constantI S_ 32 0#32))) (addi (src m c) (broadcastInDim S131072 ![] bcast_S_S131072 (constantI S_ 32 65536#32))) (src m c))

/-- The target nodes as a column of scatter indices. -/
def dstc : IVec S131072x1 32 := broadcastInDim S131072x1 ![0] bcast_S131072_S131072x1_0 (dst m c)

/-- Round 1: the edge messages. -/
def m1 : FVec Ideal S131072x78 .f32 := Cert.Spec.edgeMsg (A m c main_arg2 : FVec Ideal S131072x10 .f32) (A m c main_arg5 : FVec Ideal S78x10 .f32) (A m c main_arg6 : FVec Ideal S78 .f32) (Host.gather gather_S65536x78_S131072x1_S131072x78_1_0_n_n_0_1_178 (A m c main_arg0 : FVec Ideal S65536x78 .f32) (idx m c))
/-- …as the reference spells it. -/
theorem m1_host : m1 m c = maximumf (addf (Host.gather gather_S65536x78_S131072x1_S131072x78_1_0_n_n_0_1_178 (A m c main_arg0 : FVec Ideal S65536x78 .f32) (idx m c)) (addf (Host.dotGeneral (φ₁ := .f32) (φ₂ := .f32) dot_S131072x10_S10x78_S131072x78_1_0_0_1_n_n none (A m c main_arg2 : FVec Ideal S131072x10 .f32) (transpose (α := Ideal .f32) S10x78 [1, 0] (A m c main_arg5 : FVec Ideal S78x10 .f32) transposes_S78x10_S10x78_1_0)) (broadcastInDim S131072x78 ![0, 1] bcast_S1x78_S131072x78_0_1 (broadcastInDim S1x78 ![1] bcast_S78_S1x78_1 (A m c main_arg6 : FVec Ideal S78 .f32))))) (broadcastInDim S131072x78 ![] bcast_S_S131072x78 (constant S_ .f32 0x00000000#32)) := by
  unfold m1
  rw [show dot_S131072x10_S10x78_S131072x78_1_0_0_1_n_n = DotDims.plain 131072 10 78 from rfl]
  exact (Cert.LibDense.host_edge _ _ _ _ _ _ _ _).symm

/-- Round 1: the messages summed at their target nodes. -/
def agg1 : FVec Ideal S65536x78 .f32 := Host.scatterAdd scatter_S65536x78_S131072x1_S131072x78_1_0_0_1 (broadcastInDim S65536x78 ![] bcast_S_S65536x78 (constant S_ .f32 0x00000000#32)) (dstc m c) (m1 m c)

/-- Round 1: the node update. -/
def h1 : FVec Ideal S65536x512 .f32 := Cert.Spec.nodeMlp (A m c main_arg0 : FVec Ideal S65536x78 .f32) (agg1 m c) (A m c main_arg7 : FVec Ideal S256x78 .f32) (A m c main_arg8 : FVec Ideal S256 .f32) (A m c main_arg9 : FVec Ideal S512x256 .f32) (A m c main_arg10 : FVec Ideal S512 .f32) (A m c main_arg11 : FVec Ideal S512 .f32) (A m c main_arg12 : FVec Ideal S512 .f32) (A m c main_arg13 : FVec Ideal S512 .f32) (A m c main_arg14 : FVec Ideal S512 .f32)
/-- …as the reference spells it. -/
theorem h1_host : h1 m c = addf (mulf (mulf (subf (maximumf (addf (Host.dotGeneral (φ₁ := .f32) (φ₂ := .f32) dot_S65536x256_S256x512_S65536x512_1_0_0_1_n_n none (maximumf (addf (Host.dotGeneral (φ₁ := .f32) (φ₂ := .f32) dot_S65536x78_S78x256_S65536x256_1_0_0_1_n_n none (addf (A m c main_arg0 : FVec Ideal S65536x78 .f32) (agg1 m c)) (transpose (α := Ideal .f32) S78x256 [1, 0] (A m c main_arg7 : FVec Ideal S256x78 .f32) transposes_S256x78_S78x256_1_0)) (broadcastInDim S65536x256 ![0, 1] bcast_S1x256_S65536x256_0_1 (broadcastInDim S1x256 ![1] bcast_S256_S1x256_1 (A m c main_arg8 : FVec Ideal S256 .f32)))) (broadcastInDim S65536x256 ![] bcast_S_S65536x256 (constant S_ .f32 0x00000000#32))) (transpose (α := Ideal .f32) S256x512 [1, 0] (A m c main_arg9 : FVec Ideal S512x256 .f32) transposes_S512x256_S256x512_1_0)) (broadcastInDim S65536x512 ![0, 1] bcast_S1x512_S65536x512_0_1 (broadcastInDim S1x512 ![1] bcast_S512_S1x512_1 (A m c main_arg10 : FVec Ideal S512 .f32)))) (broadcastInDim S65536x512 ![] bcast_S_S65536x512 (constant S_ .f32 0x00000000#32))) (broadcastInDim S65536x512 ![0, 1] bcast_S1x512_S65536x512_0_1 (broadcastInDim S1x512 ![1] bcast_S512_S1x512_1 (A m c main_arg13 : FVec Ideal S512 .f32)))) (broadcastInDim S65536x512 ![0, 1] bcast_S1x512_S65536x512_0_1 (broadcastInDim S1x512 ![1] bcast_S512_S1x512_1 (Host.rsqrt (addf (A m c main_arg14 : FVec Ideal S512 .f32) (broadcastInDim S512 ![] bcast_S_S512 (constant S_ .f32 0x3727C5AC#32))))))) (broadcastInDim S65536x512 ![0, 1] bcast_S1x512_S65536x512_0_1 (broadcastInDim S1x512 ![1] bcast_S512_S1x512_1 (A m c main_arg11 : FVec Ideal S512 .f32)))) (broadcastInDim S65536x512 ![0, 1] bcast_S1x512_S65536x512_0_1 (broadcastInDim S1x512 ![1] bcast_S512_S1x512_1 (A m c main_arg12 : FVec Ideal S512 .f32))) := by
  unfold h1
  rw [show dot_S65536x256_S256x512_S65536x512_1_0_0_1_n_n = DotDims.plain 65536 256 512 from rfl,
    show dot_S65536x78_S78x256_S65536x256_1_0_0_1_n_n = DotDims.plain 65536 78 256 from rfl]
  exact (Cert.LibDense.host_node _ _ _ _ _ _ _ _ _ _ _ _ _ _ _ _ _ _ _).symm

/-- Round 2: the edge messages. -/
def m2 : FVec Ideal S131072x512 .f32 := Cert.Spec.edgeMsg (A m c main_arg2 : FVec Ideal S131072x10 .f32) (A m c main_arg15 : FVec Ideal S512x10 .f32) (A m c main_arg16 : FVec Ideal S512 .f32) (Host.gather gather_S65536x512_S131072x1_S131072x512_1_0_n_n_0_1_1512 (h1 m c) (idx m c))
/-- …as the reference spells it. -/
theorem m2_host : m2 m c = maximumf (addf (Host.gather gather_S65536x512_S131072x1_S131072x512_1_0_n_n_0_1_1512 (h1 m c) (idx m c)) (addf (Host.dotGeneral (φ₁ := .f32) (φ₂ := .f32) dot_S131072x10_S10x512_S131072x512_1_0_0_1_n_n none (A m c main_arg2 : FVec Ideal S131072x10 .f32) (transpose (α := Ideal .f32) S10x512 [1, 0] (A m c main_arg15 : FVec Ideal S512x10 .f32) transposes_S512x10_S10x512_1_0)) (broadcastInDim S131072x512 ![0, 1] bcast_S1x512_S131072x512_0_1 (broadcastInDim S1x512 ![1] bcast_S512_S1x512_1 (A m c main_arg16 : FVec Ideal S512 .f32))))) (broadcastInDim S131072x512 ![] bcast_S_S131072x512 (constant S_ .f32 0x00000000#32)) := by
  unfold m2
  rw [show dot_S131072x10_S10x512_S131072x512_1_0_0_1_n_n = DotDims.plain 131072 10 512 from rfl]
  exact (Cert.LibDense.host_edge _ _ _ _ _ _ _ _).symm

/-- Round 2: the messages summed at their target nodes. -/
def agg2 : FVec Ideal S65536x512 .f32 := Host.scatterAdd scatter_S65536x512_S131072x1_S131072x512_1_0_0_1 (broadcastInDim S65536x512 ![] bcast_S_S65536x512 (constant S_ .f32 0x00000000#32)) (dstc m c) (m2 m c)

/-- Round 2: the node update. -/
def h2 : FVec Ideal S65536x512 .f32 := Cert.Spec.nodeMlp (h1 m c) (agg2 m c) (A m c main_arg17 : FVec Ideal S512x512 .f32) (A m c main_arg18 : FVec Ideal S512 .f32) (A m c main_arg19 : FVec Ideal S512x512 .f32) (A m c main_arg20 : FVec Ideal S512 .f32) (A m c main_arg21 : FVec Ideal S512 .f32) (A m c main_arg22 : FVec Ideal S512 .f32) (A m c main_arg23 : FVec Ideal S512 .f32) (A m c main_arg24 : FVec Ideal S512 .f32)
/-- …as the reference spells it. -/
theorem h2_host : h2 m c = addf (mulf (mulf (subf (maximumf (addf (Host.dotGeneral (φ₁ := .f32) (φ₂ := .f32) dot_S65536x512_S512x512_S65536x512_1_0_0_1_n_n none (maximumf (addf (Host.dotGeneral (φ₁ := .f32) (φ₂ := .f32) dot_S65536x512_S512x512_S65536x512_1_0_0_1_n_n none (addf (h1 m c) (agg2 m c)) (transpose (α := Ideal .f32) S512x512 [1, 0] (A m c main_arg17 : FVec Ideal S512x512 .f32) transposes_S512x512_S512x512_1_0)) (broadcastInDim S65536x512 ![0, 1] bcast_S1x512_S65536x512_0_1 (broadcastInDim S1x512 ![1] bcast_S512_S1x512_1 (A m c main_arg18 : FVec Ideal S512 .f32)))) (broadcastInDim S65536x512 ![] bcast_S_S65536x512 (constant S_ .f32 0x00000000#32))) (transpose (α := Ideal .f32) S512x512 [1, 0] (A m c main_arg19 : FVec Ideal S512x512 .f32) transposes_S512x512_S512x512_1_0)) (broadcastInDim S65536x512 ![0, 1] bcast_S1x512_S65536x512_0_1 (broadcastInDim S1x512 ![1] bcast_S512_S1x512_1 (A m c main_arg20 : FVec Ideal S512 .f32)))) (broadcastInDim S65536x512 ![] bcast_S_S65536x512 (constant S_ .f32 0x00000000#32))) (broadcastInDim S65536x512 ![0, 1] bcast_S1x512_S65536x512_0_1 (broadcastInDim S1x512 ![1] bcast_S512_S1x512_1 (A m c main_arg23 : FVec Ideal S512 .f32)))) (broadcastInDim S65536x512 ![0, 1] bcast_S1x512_S65536x512_0_1 (broadcastInDim S1x512 ![1] bcast_S512_S1x512_1 (Host.rsqrt (addf (A m c main_arg24 : FVec Ideal S512 .f32) (broadcastInDim S512 ![] bcast_S_S512 (constant S_ .f32 0x3727C5AC#32))))))) (broadcastInDim S65536x512 ![0, 1] bcast_S1x512_S65536x512_0_1 (broadcastInDim S1x512 ![1] bcast_S512_S1x512_1 (A m c main_arg21 : FVec Ideal S512 .f32)))) (broadcastInDim S65536x512 ![0, 1] bcast_S1x512_S65536x512_0_1 (broadcastInDim S1x512 ![1] bcast_S512_S1x512_1 (A m c main_arg22 : FVec Ideal S512 .f32))) := by
  unfold h2
  rw [show dot_S65536x512_S512x512_S65536x512_1_0_0_1_n_n = DotDims.plain 65536 512 512 from rfl]
  exact (Cert.LibDense.host_node _ _ _ _ _ _ _ _ _ _ _ _ _ _ _ _ _ _ _).symm

/-- Round 3: the edge messages. -/
def m3 : FVec Ideal S131072x512 .f32 := Cert.Spec.edgeMsg (A m c main_arg2 : FVec Ideal S131072x10 .f32) (A m c main_arg25 : FVec Ideal S512x10 .f32) (A m c main_arg26 : FVec Ideal S512 .f32) (Host.gather gather_S65536x512_S131072x1_S131072x512_1_0_n_n_0_1_1512 (h2 m c) (idx m c))
/-- …as the reference spells it. -/
theorem m3_host : m3 m c = maximumf (addf (Host.gather gather_S65536x512_S131072x1_S131072x512_1_0_n_n_0_1_1512 (h2 m c) (idx m c)) (addf (Host.dotGeneral (φ₁ := .f32) (φ₂ := .f32) dot_S131072x10_S10x512_S131072x512_1_0_0_1_n_n none (A m c main_arg2 : FVec Ideal S131072x10 .f32) (transpose (α := Ideal .f32) S10x512 [1, 0] (A m c main_arg25 : FVec Ideal S512x10 .f32) transposes_S512x10_S10x512_1_0)) (broadcastInDim S131072x512 ![0, 1] bcast_S1x512_S131072x512_0_1 (broadcastInDim S1x512 ![1] bcast_S512_S1x512_1 (A m c main_arg26 : FVec Ideal S512 .f32))))) (broadcastInDim S131072x512 ![] bcast_S_S131072x512 (constant S_ .f32 0x00000000#32)) := by
  unfold m3
  rw [show dot_S131072x10_S10x512_S131072x512_1_0_0_1_n_n = DotDims.plain 131072 10 512 from rfl]
  exact (Cert.LibDense.host_edge _ _ _ _ _ _ _ _).symm

/-- Round 3: the messages summed at their target nodes. -/
def agg3 : FVec Ideal S65536x512 .f32 := Host.scatterAdd scatter_S65536x512_S131072x1_S131072x512_1_0_0_1 (broadcastInDim S65536x512 ![] bcast_S_S65536x512 (constant S_ .f32 0x00000000#32)) (dstc m c) (m3 m c)

/-- Round 3: the node update. -/
def h3 : FVec Ideal S65536x512 .f32 := Cert.Spec.nodeMlp (h2 m c) (agg3 m c) (A m c main_arg27 : FVec Ideal S512x512 .f32) (A m c main_arg28 : FVec Ideal S512 .f32) (A m c main_arg29 : FVec Ideal S512x512 .f32) (A m c main_arg30 : FVec Ideal S512 .f32) (A m c main_arg31 : FVec Ideal S512 .f32) (A m c main_arg32 : FVec Ideal S512 .f32) (A m c main_arg33 : FVec Ideal S512 .f32) (A m c main_arg34 : FVec Ideal S512 .f32)
/-- …as the reference spells it. -/
theorem h3_host : h3 m c = addf (mulf (mulf (subf (maximumf (addf (Host.dotGeneral (φ₁ := .f32) (φ₂ := .f32) dot_S65536x512_S512x512_S65536x512_1_0_0_1_n_n none (maximumf (addf (Host.dotGeneral (φ₁ := .f32) (φ₂ := .f32) dot_S65536x512_S512x512_S65536x512_1_0_0_1_n_n none (addf (h2 m c) (agg3 m c)) (transpose (α := Ideal .f32) S512x512 [1, 0] (A m c main_arg27 : FVec Ideal S512x512 .f32) transposes_S512x512_S512x512_1_0)) (broadcastInDim S65536x512 ![0, 1] bcast_S1x512_S65536x512_0_1 (broadcastInDim S1x512 ![1] bcast_S512_S1x512_1 (A m c main_arg28 : FVec Ideal S512 .f32)))) (broadcastInDim S65536x512 ![] bcast_S_S65536x512 (constant S_ .f32 0x00000000#32))) (transpose (α := Ideal .f32) S512x512 [1, 0] (A m c main_arg29 : FVec Ideal S512x512 .f32) transposes_S512x512_S512x512_1_0)) (broadcastInDim S65536x512 ![0, 1] bcast_S1x512_S65536x512_0_1 (broadcastInDim S1x512 ![1] bcast_S512_S1x512_1 (A m c main_arg30 : FVec Ideal S512 .f32)))) (broadcastInDim S65536x512 ![] bcast_S_S65536x512 (constant S_ .f32 0x00000000#32))) (broadcastInDim S65536x512 ![0, 1] bcast_S1x512_S65536x512_0_1 (broadcastInDim S1x512 ![1] bcast_S512_S1x512_1 (A m c main_arg33 : FVec Ideal S512 .f32)))) (broadcastInDim S65536x512 ![0, 1] bcast_S1x512_S65536x512_0_1 (broadcastInDim S1x512 ![1] bcast_S512_S1x512_1 (Host.rsqrt (addf (A m c main_arg34 : FVec Ideal S512 .f32) (broadcastInDim S512 ![] bcast_S_S512 (constant S_ .f32 0x3727C5AC#32))))))) (broadcastInDim S65536x512 ![0, 1] bcast_S1x512_S65536x512_0_1 (broadcastInDim S1x512 ![1] bcast_S512_S1x512_1 (A m c main_arg31 : FVec Ideal S512 .f32)))) (broadcastInDim S65536x512 ![0, 1] bcast_S1x512_S65536x512_0_1 (broadcastInDim S1x512 ![1] bcast_S512_S1x512_1 (A m c main_arg32 : FVec Ideal S512 .f32))) := by
  unfold h3
  rw [show dot_S65536x512_S512x512_S65536x512_1_0_0_1_n_n = DotDims.plain 65536 512 512 from rfl]
  exact (Cert.LibDense.host_node _ _ _ _ _ _ _ _ _ _ _ _ _ _ _ _ _ _ _).symm

/-- The node rows summed over each graph. -/
def g0 : FVec Ideal S2048x512 .f32 := Host.scatterAdd scatter_S2048x512_S65536x1_S65536x512_1_0_0_1 (broadcastInDim S2048x512 ![] bcast_S_S2048x512 (constant S_ .f32 0x00000000#32)) (broadcastInDim S65536x1 ![0] bcast_S65536_S65536x1_0 (A m c main_arg4 : IVec S65536 32)) (h3 m c)

/-- The dense layer on the pooled rows. -/
def g : FVec Ideal S2048x256 .f32 := Cert.Spec.linRelu (g0 m c) (A m c main_arg35 : FVec Ideal S256x512 .f32) (A m c main_arg36 : FVec Ideal S256 .f32)
/-- …as the reference spells it. -/
theorem g_host : g m c = maximumf (addf (Host.dotGeneral (φ₁ := .f32) (φ₂ := .f32) dot_S2048x512_S512x256_S2048x256_1_0_0_1_n_n none (g0 m c) (transpose (α := Ideal .f32) S512x256 [1, 0] (A m c main_arg35 : FVec Ideal S256x512 .f32) transposes_S256x512_S512x256_1_0)) (broadcastInDim S2048x256 ![0, 1] bcast_S1x256_S2048x256_0_1 (broadcastInDim S1x256 ![1] bcast_S256_S1x256_1 (A m c main_arg36 : FVec Ideal S256 .f32)))) (broadcastInDim S2048x256 ![] bcast_S_S2048x256 (constant S_ .f32 0x00000000#32)) := by
  unfold g
  rw [show dot_S2048x512_S512x256_S2048x256_1_0_0_1_n_n = DotDims.plain 2048 512 256 from rfl]
  exact (Cert.LibDense.host_linRelu _ _ _ _ _ _ _).symm

/-- The first dense layer on the fingerprints. -/
def fp1 : FVec Ideal S2048x128 .f32 := Cert.Spec.linRelu (A m c main_arg1 : FVec Ideal S2048x1489 .f32) (A m c main_arg37 : FVec Ideal S128x1489 .f32) (A m c main_arg38 : FVec Ideal S128 .f32)
/-- …as the reference spells it. -/
theorem fp1_host : fp1 m c = maximumf (addf (Host.dotGeneral (φ₁ := .f32) (φ₂ := .f32) dot_S2048x1489_S1489x128_S2048x128_1_0_0_1_n_n none (A m c main_arg1 : FVec Ideal S2048x1489 .f32) (transpose (α := Ideal .f32) S1489x128 [1, 0] (A m c main_arg37 : FVec Ideal S128x1489 .f32) transposes_S128x1489_S1489x128_1_0)) (broadcastInDim S2048x128 ![0, 1] bcast_S1x128_S2048x128_0_1 (broadcastInDim S1x128 ![1] bcast_S128_S1x128_1 (A m c main_arg38 : FVec Ideal S128 .f32)))) (broadcastInDim S2048x128 ![] bcast_S_S2048x128 (constant S_ .f32 0x00000000#32)) := by
  unfold fp1
  rw [show dot_S2048x1489_S1489x128_S2048x128_1_0_0_1_n_n = DotDims.plain 2048 1489 128 from rfl]
  exact (Cert.LibDense.host_linRelu _ _ _ _ _ _ _).symm

/-- The second dense layer on the fingerprints. -/
def fp2 : FVec Ideal S2048x256 .f32 := Cert.Spec.linRelu (fp1 m c) (A m c main_arg39 : FVec Ideal S256x128 .f32) (A m c main_arg40 : FVec Ideal S256 .f32)
/-- …as the reference spells it. -/
theorem fp2_host : fp2 m c = maximumf (addf (Host.dotGeneral (φ₁ := .f32) (φ₂ := .f32) dot_S2048x128_S128x256_S2048x256_1_0_0_1_n_n none (fp1 m c) (transpose (α := Ideal .f32) S128x256 [1, 0] (A m c main_arg39 : FVec Ideal S256x128 .f32) transposes_S256x128_S128x256_1_0)) (broadcastInDim S2048x256 ![0, 1] bcast_S1x256_S2048x256_0_1 (broadcastInDim S1x256 ![1] bcast_S256_S1x256_1 (A m c main_arg40 : FVec Ideal S256 .f32)))) (broadcastInDim S2048x256 ![] bcast_S_S2048x256 (constant S_ .f32 0x00000000#32)) := by
  unfold fp2
  rw [show dot_S2048x128_S128x256_S2048x256_1_0_0_1_n_n = DotDims.plain 2048 128 256 from rfl]
  exact (Cert.LibDense.host_linRelu _ _ _ _ _ _ _).symm

/-- The pooled features beside the fingerprint features. -/
def y0 : FVec Ideal S2048x512 .f32 := concatenate S2048x512 1 [⟨S2048x256, (g m c)⟩, ⟨S2048x256, (fp2 m c)⟩] concatenates_S2048x256_S2048x256_S2048x512_d1

/-- The head's first dense layer. -/
def y1 : FVec Ideal S2048x256 .f32 := Cert.Spec.linRelu (y0 m c) (A m c main_arg41 : FVec Ideal S256x512 .f32) (A m c main_arg42 : FVec Ideal S256 .f32)
/-- …as the reference spells it. -/
theorem y1_host : y1 m c = maximumf (addf (Host.dotGeneral (φ₁ := .f32) (φ₂ := .f32) dot_S2048x512_S512x256_S2048x256_1_0_0_1_n_n none (y0 m c) (transpose (α := Ideal .f32) S512x256 [1, 0] (A m c main_arg41 : FVec Ideal S256x512 .f32) transposes_S256x512_S512x256_1_0)) (broadcastInDim S2048x256 ![0, 1] bcast_S1x256_S2048x256_0_1 (broadcastInDim S1x256 ![1] bcast_S256_S1x256_1 (A m c main_arg42 : FVec Ideal S256 .f32)))) (broadcastInDim S2048x256 ![] bcast_S_S2048x256 (constant S_ .f32 0x00000000#32)) := by
  unfold y1
  rw [show dot_S2048x512_S512x256_S2048x256_1_0_0_1_n_n = DotDims.plain 2048 512 256 from rfl]
  exact (Cert.LibDense.host_linRelu _ _ _ _ _ _ _).symm

/-- The head's second dense layer. -/
def y2 : FVec Ideal S2048x128 .f32 := Cert.Spec.linRelu (y1 m c) (A m c main_arg43 : FVec Ideal S128x256 .f32) (A m c main_arg44 : FVec Ideal S128 .f32)
/-- …as the reference spells it. -/
theorem y2_host : y2 m c = maximumf (addf (Host.dotGeneral (φ₁ := .f32) (φ₂ := .f32) dot_S2048x256_S256x128_S2048x128_1_0_0_1_n_n none (y1 m c) (transpose (α := Ideal .f32) S256x128 [1, 0] (A m c main_arg43 : FVec Ideal S128x256 .f32) transposes_S128x256_S256x128_1_0)) (broadcastInDim S2048x128 ![0, 1] bcast_S1x128_S2048x128_0_1 (broadcastInDim S1x128 ![1] bcast_S128_S1x128_1 (A m c main_arg44 : FVec Ideal S128 .f32)))) (broadcastInDim S2048x128 ![] bcast_S_S2048x128 (constant S_ .f32 0x00000000#32)) := by
  unfold y2
  rw [show dot_S2048x256_S256x128_S2048x128_1_0_0_1_n_n = DotDims.plain 2048 256 128 from rfl]
  exact (Cert.LibDense.host_linRelu _ _ _ _ _ _ _).symm

/-- The head's third dense layer. -/
def y3 : FVec Ideal S2048x64 .f32 := Cert.Spec.linRelu (y2 m c) (A m c main_arg45 : FVec Ideal S64x128 .f32) (A m c main_arg46 : FVec Ideal S64 .f32)
/-- …as the reference spells it. -/
theorem y3_host : y3 m c = maximumf (addf (Host.dotGeneral (φ₁ := .f32) (φ₂ := .f32) dot_S2048x128_S128x64_S2048x64_1_0_0_1_n_n none (y2 m c) (transpose (α := Ideal .f32) S128x64 [1, 0] (A m c main_arg45 : FVec Ideal S64x128 .f32) transposes_S64x128_S128x64_1_0)) (broadcastInDim S2048x64 ![0, 1] bcast_S1x64_S2048x64_0_1 (broadcastInDim S1x64 ![1] bcast_S64_S1x64_1 (A m c main_arg46 : FVec Ideal S64 .f32)))) (broadcastInDim S2048x64 ![] bcast_S_S2048x64 (constant S_ .f32 0x00000000#32)) := by
  unfold y3
  rw [show dot_S2048x128_S128x64_S2048x64_1_0_0_1_n_n = DotDims.plain 2048 128 64 from rfl]
  exact (Cert.LibDense.host_linRelu _ _ _ _ _ _ _).symm

/-- The result: the head's last dense layer with the logistic function. -/
def y4 : FVec Ideal S2048x2 .f32 := Cert.Spec.linSigmoid (y3 m c) (A m c main_arg47 : FVec Ideal S2x64 .f32) (A m c main_arg48 : FVec Ideal S2 .f32)
/-- …as the reference spells it. -/
theorem y4_host : y4 m c = Host.divf (broadcastInDim S2048x2 ![] bcast_S_S2048x2 (constant S_ .f32 0x3F800000#32)) (addf (broadcastInDim S2048x2 ![] bcast_S_S2048x2 (constant S_ .f32 0x3F800000#32)) (Host.exp (Host.negf (addf (Host.dotGeneral (φ₁ := .f32) (φ₂ := .f32) dot_S2048x64_S64x2_S2048x2_1_0_0_1_n_n none (y3 m c) (transpose (α := Ideal .f32) S64x2 [1, 0] (A m c main_arg47 : FVec Ideal S2x64 .f32) transposes_S2x64_S64x2_1_0)) (broadcastInDim S2048x2 ![0, 1] bcast_S1x2_S2048x2_0_1 (broadcastInDim S1x2 ![1] bcast_S2_S1x2_1 (A m c main_arg48 : FVec Ideal S2 .f32))))))) := by
  unfold y4
  rw [show dot_S2048x64_S64x2_S2048x2_1_0_0_1_n_n = DotDims.plain 2048 64 2 from rfl]
  exact (Cert.LibDense.host_linSigmoid _ _ _ _ _ _ _).symm

end Cert.ReferenceIdeal.Net

end
-- ==== Proof.RefTop.lean ====
/-
  The reference's composed result term is the top of its tower of named values: unfolding each value to the
  reference's own spelling of it, innermost last, gives the term letter for letter.
-/
import proofs.«423804_j46926812676623_1_alg».proof.Proof.RefRun
import proofs.«423804_j46926812676623_1_alg».proof.Proof.RefNet

set_option maxRecDepth 16384

noncomputable section

namespace Cert.ReferenceIdeal.Net

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-- The reference's composed result term is the top of the tower. -/
theorem res_eq : Cert.ReferenceIdeal.Value.res_main_v189 m c = y4 m c := by
  rw [y4_host, y3_host, y2_host, y1_host]
  unfold y0
  rw [g_host, fp2_host, fp1_host]
  unfold g0
  rw [h3_host]
  unfold agg3
  rw [m3_host, h2_host]
  unfold agg2
  rw [m2_host, h1_host]
  unfold agg1
  rw [m1_host]
  unfold dstc idx dst src
  rfl

end Cert.ReferenceIdeal.Net

end
-- ==== Proof.TakeMask.lean ====
/-
  The range test around a row gather.

  jnp.take (fill mode) wraps a negative index by the table's height, tests the wrapped index against [0, height − 1],
  and selects a fill value on the rows that fail the test. For a source index s with 0 ≤ s < 65536 (read signed) the
  wrap leaves s alone and the test passes, so every row's mask bit is 1 and the select returns the gathered row.
-/
import Idealize.ShloMosaic.Lib.ValueIdx
import Idealize.ShloMosaic.Lib.Affine
import Idealize.ShloMosaic.PureOps.Reduce

namespace Cert.TakeMask

open Idealize.ShloMosaic Idealize.ShloMosaic.ValueIdx

/-- A source index read signed lies in [0, 65536). -/
def WordInRange (s : BitVec 32) : Prop := IntOp.cmpi .sge s 0#32 = 1#1 ∧ IntOp.cmpi .slt s 65536#32 = 1#1

/-- The wrap of an in-range index is the index itself. -/
theorem wrap_eq {s : BitVec 32} (h : WordInRange s) (a : BitVec 32) :
    Scalar.select (IntOp.cmpi .slt s 0#32) a s = s := by
  have h0 := IntOp.cmpi_sge.1 h.1
  have hz : (0#32 : BitVec 32).toInt = 0 := by decide
  have hn : ¬ IntOp.cmpi .slt s 0#32 = 1#1 := by
    rw [IntOp.cmpi_slt, hz]; rw [hz] at h0; omega
  unfold Scalar.select
  exact if_neg hn

/-- An in-range index passes the test 0 ≤ s ≤ 65535. -/
theorem test_pass {s : BitVec 32} (h : WordInRange s) :
    IntOp.andi (IntOp.cmpi .sge s 0#32) (IntOp.cmpi .sle s 65535#32) = 1#1 := by
  refine IntOp.andi_eq_one.2 ⟨h.1, ?_⟩
  have h1 := IntOp.cmpi_slt.1 h.2
  have ha : (65536#32 : BitVec 32).toInt = 65536 := by decide
  have hb : (65535#32 : BitVec 32).toInt = 65535 := by decide
  rw [IntOp.cmpi_sle, hb]; rw [ha] at h1; omega

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = (1#1 : BitVec 1) from by decide]
    exact foldl_andi_one f l fun n hn => h n (List.mem_cons_of_mem _ hn)

/-- A reduce by `and` from 1 of an array of 1s is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-- A select whose mask is a row mask of 1s laid along the rows is its first branch. -/
theorem select_rows_one {α : Type} {E C : Nat} (mask : IVec ⟨1, ![E]⟩ 1) (hm : ∀ e, mask e = 1#1)
    (hb : (⟨1, ![E]⟩ : Shape).BroadcastsInDim ⟨2, ![E, C]⟩ ![0]) (g fill : (⟨2, ![E, C]⟩ : Shape).Idx → α) :
    select (broadcastInDim ⟨2, ![E, C]⟩ ![0] hb mask) g fill = g := by
  funext i
  rw [select_apply]
  have e : broadcastInDim ⟨2, ![E, C]⟩ ![0] hb mask i = 1#1 := by
    unfold broadcastInDim; exact hm _
  rw [e]
  unfold Scalar.select
  exact if_pos rfl

end Cert.TakeMask
-- ==== Proof.Bridge.lean ====
/-
  The two towers are one.

  From memories that agree on the argument arrays, every named value of the reference's tower is the kernel program's:
  the two programs apply the same operations to the same operands, layer by layer. The one place where they differ is
  the row gather: the kernel program's selects a fill value on the rows whose wrapped index fails its range test, and
  under the precondition (every source index in [0, 65536)) no row fails it.
-/
import proofs.«423804_j46926812676623_1_alg».proof.Proof.KernelNet
import proofs.«423804_j46926812676623_1_alg».proof.Proof.RefNet
import proofs.«423804_j46926812676623_1_alg».proof.Proof.TakeMask

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories agree on the argument arrays of core `c`. -/
def Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)

/-- Under the precondition every row passes the range test of the wrapped index. -/
theorem inb_one (hsrc : ∀ e, Cert.TakeMask.WordInRange (Cert.KernelIdeal.Net.src m c e)) (e : Cert.KernelIdeal.S131072.Idx) : Cert.KernelIdeal.Net.inb m c e = 1#1 := by
  unfold Cert.KernelIdeal.Net.inb
  refine Cert.TakeMask.reduce_andi_of_all _ _ _ _ rfl (fun j => ?_) e
  unfold Cert.KernelIdeal.Net.idx
  show IntOp.andi (IntOp.cmpi .sge (Scalar.select (IntOp.cmpi .slt (Cert.KernelIdeal.Net.src m c _) 0#32) _ (Cert.KernelIdeal.Net.src m c _)) 0#32)
      (IntOp.cmpi .sle (Scalar.select (IntOp.cmpi .slt (Cert.KernelIdeal.Net.src m c _) 0#32) _ (Cert.KernelIdeal.Net.src m c _)) 65535#32) = 1#1
  rw [Cert.TakeMask.wrap_eq (hsrc _)]
  exact Cert.TakeMask.test_pass (hsrc _)

/-- So jnp.take of the rows is the plain gather. -/
theorem take78_eq (hsrc : ∀ e, Cert.TakeMask.WordInRange (Cert.KernelIdeal.Net.src m c e)) (h : FVec Ideal Cert.KernelIdeal.S65536x78 .f32) :
    Cert.KernelIdeal.Net.take78 m c h = Host.gather Cert.KernelIdeal.gather_S65536x78_S131072x1_S131072x78_1_0_n_n_0_1_178 h (Cert.KernelIdeal.Net.idx m c) := by
  unfold Cert.KernelIdeal.Net.take78
  exact Cert.TakeMask.select_rows_one _ (inb_one m c hsrc) _ _ _
theorem take512_eq (hsrc : ∀ e, Cert.TakeMask.WordInRange (Cert.KernelIdeal.Net.src m c e)) (h : FVec Ideal Cert.KernelIdeal.S65536x512 .f32) :
    Cert.KernelIdeal.Net.take512 m c h = Host.gather Cert.KernelIdeal.gather_S65536x512_S131072x1_S131072x512_1_0_n_n_0_1_1512 h (Cert.KernelIdeal.Net.idx m c) := by
  unfold Cert.KernelIdeal.Net.take512
  exact Cert.TakeMask.select_rows_one _ (inb_one m c hsrc) _ _ _

/-- The tower, value by value: the same operations on the same operands. -/
theorem y4_eq (hagree : Agree m m' c) (hsrc : ∀ e, Cert.TakeMask.WordInRange (Cert.KernelIdeal.Net.src m c e)) : Cert.ReferenceIdeal.Net.y4 m' c = Cert.KernelIdeal.Net.y4 m c := by
  unfold Agree at hagree
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48⟩ := hagree
  have h_src : Cert.ReferenceIdeal.Net.src m' c = Cert.KernelIdeal.Net.src m c := by
    unfold Cert.ReferenceIdeal.Net.src Cert.KernelIdeal.Net.src
    dsimp only [Cert.ReferenceIdeal.Net.A, Cert.KernelIdeal.Net.A]
    rw [e3] <;> rfl
  have h_dst : Cert.ReferenceIdeal.Net.dst m' c = Cert.KernelIdeal.Net.dst m c := by
    unfold Cert.ReferenceIdeal.Net.dst Cert.KernelIdeal.Net.dst
    dsimp only [Cert.ReferenceIdeal.Net.A, Cert.KernelIdeal.Net.A]
    rw [e3] <;> rfl
  have h_idx : Cert.ReferenceIdeal.Net.idx m' c = Cert.KernelIdeal.Net.idx m c := by
    unfold Cert.ReferenceIdeal.Net.idx Cert.KernelIdeal.Net.idx
    rw [h_src] <;> rfl
  have h_dstc : Cert.ReferenceIdeal.Net.dstc m' c = Cert.KernelIdeal.Net.dstc m c := by
    unfold Cert.ReferenceIdeal.Net.dstc Cert.KernelIdeal.Net.dstc
    rw [h_dst] <;> rfl
  have h_m1 : Cert.ReferenceIdeal.Net.m1 m' c = Cert.KernelIdeal.Net.m1 m c := by
    unfold Cert.ReferenceIdeal.Net.m1 Cert.KernelIdeal.Net.m1
    dsimp only [Cert.ReferenceIdeal.Net.A, Cert.KernelIdeal.Net.A]
    rw [take78_eq m c hsrc, e0, e2, e5, e6, h_idx] <;> rfl
  have h_agg1 : Cert.ReferenceIdeal.Net.agg1 m' c = Cert.KernelIdeal.Net.agg1 m c := by
    unfold Cert.ReferenceIdeal.Net.agg1 Cert.KernelIdeal.Net.agg1
    rw [h_dstc, h_m1] <;> rfl
  have h_h1 : Cert.ReferenceIdeal.Net.h1 m' c = Cert.KernelIdeal.Net.h1 m c := by
    unfold Cert.ReferenceIdeal.Net.h1 Cert.KernelIdeal.Net.h1
    dsimp only [Cert.ReferenceIdeal.Net.A, Cert.KernelIdeal.Net.A]
    rw [e0, e7, e8, e9, e10, e11, e12, e13, e14, h_agg1] <;> rfl
  have h_m2 : Cert.ReferenceIdeal.Net.m2 m' c = Cert.KernelIdeal.Net.m2 m c := by
    unfold Cert.ReferenceIdeal.Net.m2 Cert.KernelIdeal.Net.m2
    dsimp only [Cert.ReferenceIdeal.Net.A, Cert.KernelIdeal.Net.A]
    rw [take512_eq m c hsrc, e2, e15, e16, h_idx, h_h1] <;> rfl
  have h_agg2 : Cert.ReferenceIdeal.Net.agg2 m' c = Cert.KernelIdeal.Net.agg2 m c := by
    unfold Cert.ReferenceIdeal.Net.agg2 Cert.KernelIdeal.Net.agg2
    rw [h_dstc, h_m2] <;> rfl
  have h_h2 : Cert.ReferenceIdeal.Net.h2 m' c = Cert.KernelIdeal.Net.h2 m c := by
    unfold Cert.ReferenceIdeal.Net.h2 Cert.KernelIdeal.Net.h2
    dsimp only [Cert.ReferenceIdeal.Net.A, Cert.KernelIdeal.Net.A]
    rw [e17, e18, e19, e20, e21, e22, e23, e24, h_h1, h_agg2] <;> rfl
  have h_m3 : Cert.ReferenceIdeal.Net.m3 m' c = Cert.KernelIdeal.Net.m3 m c := by
    unfold Cert.ReferenceIdeal.Net.m3 Cert.KernelIdeal.Net.m3
    dsimp only [Cert.ReferenceIdeal.Net.A, Cert.KernelIdeal.Net.A]
    rw [take512_eq m c hsrc, e2, e25, e26, h_idx, h_h2] <;> rfl
  have h_agg3 : Cert.ReferenceIdeal.Net.agg3 m' c = Cert.KernelIdeal.Net.agg3 m c := by
    unfold Cert.ReferenceIdeal.Net.agg3 Cert.KernelIdeal.Net.agg3
    rw [h_dstc, h_m3] <;> rfl
  have h_h3 : Cert.ReferenceIdeal.Net.h3 m' c = Cert.KernelIdeal.Net.h3 m c := by
    unfold Cert.ReferenceIdeal.Net.h3 Cert.KernelIdeal.Net.h3
    dsimp only [Cert.ReferenceIdeal.Net.A, Cert.KernelIdeal.Net.A]
    rw [e27, e28, e29, e30, e31, e32, e33, e34, h_h2, h_agg3] <;> rfl
  have h_g0 : Cert.ReferenceIdeal.Net.g0 m' c = Cert.KernelIdeal.Net.g0 m c := by
    unfold Cert.ReferenceIdeal.Net.g0 Cert.KernelIdeal.Net.g0
    dsimp only [Cert.ReferenceIdeal.Net.A, Cert.KernelIdeal.Net.A]
    rw [e4, h_h3] <;> rfl
  have h_g : Cert.ReferenceIdeal.Net.g m' c = Cert.KernelIdeal.Net.g m c := by
    unfold Cert.ReferenceIdeal.Net.g Cert.KernelIdeal.Net.g
    dsimp only [Cert.ReferenceIdeal.Net.A, Cert.KernelIdeal.Net.A]
    rw [e35, e36, h_g0] <;> rfl
  have h_fp1 : Cert.ReferenceIdeal.Net.fp1 m' c = Cert.KernelIdeal.Net.fp1 m c := by
    unfold Cert.ReferenceIdeal.Net.fp1 Cert.KernelIdeal.Net.fp1
    dsimp only [Cert.ReferenceIdeal.Net.A, Cert.KernelIdeal.Net.A]
    rw [e1, e37, e38] <;> rfl
  have h_fp2 : Cert.ReferenceIdeal.Net.fp2 m' c = Cert.KernelIdeal.Net.fp2 m c := by
    unfold Cert.ReferenceIdeal.Net.fp2 Cert.KernelIdeal.Net.fp2
    dsimp only [Cert.ReferenceIdeal.Net.A, Cert.KernelIdeal.Net.A]
    rw [e39, e40, h_fp1] <;> rfl
  have h_y0 : Cert.ReferenceIdeal.Net.y0 m' c = Cert.KernelIdeal.Net.y0 m c := by
    unfold Cert.ReferenceIdeal.Net.y0 Cert.KernelIdeal.Net.y0
    rw [h_g, h_fp2] <;> rfl
  have h_y1 : Cert.ReferenceIdeal.Net.y1 m' c = Cert.KernelIdeal.Net.y1 m c := by
    unfold Cert.ReferenceIdeal.Net.y1 Cert.KernelIdeal.Net.y1
    dsimp only [Cert.ReferenceIdeal.Net.A, Cert.KernelIdeal.Net.A]
    rw [e41, e42, h_y0] <;> rfl
  have h_y2 : Cert.ReferenceIdeal.Net.y2 m' c = Cert.KernelIdeal.Net.y2 m c := by
    unfold Cert.ReferenceIdeal.Net.y2 Cert.KernelIdeal.Net.y2
    dsimp only [Cert.ReferenceIdeal.Net.A, Cert.KernelIdeal.Net.A]
    rw [e43, e44, h_y1] <;> rfl
  have h_y3 : Cert.ReferenceIdeal.Net.y3 m' c = Cert.KernelIdeal.Net.y3 m c := by
    unfold Cert.ReferenceIdeal.Net.y3 Cert.KernelIdeal.Net.y3
    dsimp only [Cert.ReferenceIdeal.Net.A, Cert.KernelIdeal.Net.A]
    rw [e45, e46, h_y2] <;> rfl
  unfold Cert.ReferenceIdeal.Net.y4 Cert.KernelIdeal.Net.y4
  dsimp only [Cert.ReferenceIdeal.Net.A, Cert.KernelIdeal.Net.A]
  rw [e47, e48, h_y3] <;> rfl

end Cert.Bridge

end
-- ==== Proof.PreSrc.lean ====
/-
  What the precondition says of the gather's source indices.

  The precondition's last conjunct is  all((edge_index[0] ≥ 0) & (edge_index[0] < 65536)) : it prints as a reduce by
  `and` over the two signed comparisons of the row edge_index[0], and the whole predicate is an `and` of that with the
  finiteness conjuncts. So where the predicate is 1, every source index read signed lies in [0, 65536).
-/
import proofs.«423804_j46926812676623_1_alg».proof.Defs
import proofs.«423804_j46926812676623_1_alg».proof.Proof.Gen.KernelIdeal
import proofs.«423804_j46926812676623_1_alg».proof.Proof.Gen.Pre_finite_inputs
import proofs.«423804_j46926812676623_1_alg».proof.Proof.TakeMask
import Idealize.ShloMosaic.Lib.ReduceAll

set_option maxRecDepth 16384

noncomputable section

namespace Cert.PreSrc

open Idealize.ShloMosaic Idealize.ShloMosaic.TcCoe Idealize.SL.Sem
open Cert.KernelIdeal Cert.KernelIdeal.Gen

instance : Subsingleton Cert.Pre_finite_inputs.S_.Idx := ⟨fun a b => funext fun d => d.elim0⟩

/-- Every entry of the row edge_index[0], as the precondition slices it, lies in [0, 65536) read signed. -/
theorem src_in_range (m : (ℓ : Loc nD τ sig) → Buf (Elt Ideal) ℓ) (hpre : Cert.Pre_KernelIdeal m) (c : Dev nD)
    (e : Cert.Pre_finite_inputs.S131072.Idx) :
    Cert.TakeMask.WordInRange
      (shapeCast Cert.Pre_finite_inputs.S131072
        (extractStridedSlice Cert.Pre_finite_inputs.S1x131072 ![0, 0] (m ((c.tc : Thread nD τ).loc main_arg3))
          Cert.Pre_finite_inputs.Gen.slices_S2x131072_S1x131072_0_0)
        Cert.Pre_finite_inputs.Gen.shapeCasts_S1x131072_S131072 e) := by
  have h := hpre c
  simp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8,
    Cert.Pre_finite_inputs.fn_part9, Cert.Pre_finite_inputs.fn_part10, Cert.Pre_finite_inputs.fn_part11,
    Cert.Pre_finite_inputs.fn_part12, Cert.Pre_finite_inputs.fn_part13, Cert.Pre_finite_inputs.fn_part14] at h
  have h0 := congrFun h ValueIdx.ix0
  have h1 := (IntOp.andi_eq_one.1 h0).2
  have h2 := Host.reduce_andi_all _ _ _ _ _ h1 e
  obtain ⟨ha, hb⟩ := IntOp.andi_eq_one.1 h2
  exact ⟨ha, hb⟩

end Cert.PreSrc

end
-- ==== Proof.lean ====
/-
  The equivalence of a graph network's kernel program and its jnp reference over the extended reals.

  The network: three rounds of message passing over 131072 edges and 65536 nodes — gather the source node's row, an
  edge message relu(h_src + edge_attr·ewᵀ + eb), a scatter-add of the messages to their target nodes, a node update
  batch-norm(relu(relu((h + agg)·w1ᵀ + b1)·w2ᵀ + b2)) — then a scatter-add pool over 2048 graphs, a dense layer on the
  pooled rows, two dense layers on the fingerprints, their concatenation, and four dense layers, the last with the
  logistic function. The kernel program runs the edge messages, the node updates and the dense layers as thirteen
  pipelined kernels over row blocks (the casts to bf16 are the identity on the extended reals, a matrix product a
  finite sum in a commutative monoid, so neither blocking nor scheduling changes a value) and leaves the gathers,
  the scatter-adds and the concatenation on the host, where the reference has them too.

  One difference needs the precondition: the kernel program gathers with jnp.take, which selects a fill value on
  rows whose index is out of range, while the reference's indexing clamps. Under "every source index lies in
  [0, 65536)" the range test passes on every row and the two gathers are one.

  The three frames are the generated ones (the reference's from its generated run); the ideal pass rewrote nothing,
  so there is nothing to preserve; the value claim reads the kernel program's last boundary through the thirteen
  regions (each region's output array is its layer of the arrays it was entered with), reads the reference's
  composed result term as the same tower of layers, and joins the two.
-/
import proofs.«423804_j46926812676623_1_alg».proof.Defs
import proofs.«423804_j46926812676623_1_alg».proof.Proof.Gen.Kernel
import proofs.«423804_j46926812676623_1_alg».proof.Proof.Gen.Kernel.Frame
import proofs.«423804_j46926812676623_1_alg».proof.Proof.Gen.KernelIdeal
import proofs.«423804_j46926812676623_1_alg».proof.Proof.Gen.KernelIdeal.Frame
import proofs.«423804_j46926812676623_1_alg».proof.Proof.Gen.ReferenceIdeal
import proofs.«423804_j46926812676623_1_alg».proof.Proof.Gen.Pre_finite_inputs
import proofs.«423804_j46926812676623_1_alg».proof.Proof.KernelRun
import proofs.«423804_j46926812676623_1_alg».proof.Proof.KernelWalk
import proofs.«423804_j46926812676623_1_alg».proof.Proof.RefTop
import proofs.«423804_j46926812676623_1_alg».proof.Proof.Bridge
import proofs.«423804_j46926812676623_1_alg».proof.Proof.PreSrc
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's value of the argument arrays: the kernel program's last boundary read through
    its regions, the reference's composed term read as the same tower, the two joined under the precondition. -/
theorem algebraic : Cert.algebraic_KernelIdeal_ReferenceIdeal := by
  intro m ρ m' ρ' hpre hagree
  refine ⟨fun c => Cert.KernelIdeal.Net.y4 m c, ?_, ?_⟩
  · exact (θ_run Cert.KernelIdeal.defs _ _).mono
      (fun _ h c => ⟨(h c).1.trans (Cert.KernelIdeal.Walk.kernel_value m ρ c), (h c).2⟩)
      (Cert.KernelIdeal.Run.run_named (F := Ideal) m ρ)
  · exact (θ_run Cert.ReferenceIdeal.defs _ _).mono
      (fun _ h c => ⟨(h c).1.trans ((Cert.ReferenceIdeal.Net.res_eq m' c).trans
          (Cert.Bridge.y4_eq m m' c (hagree c) (fun e => Cert.PreSrc.src_in_range m hpre c e))), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
